-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x60x72x384 : Shape := ⟨4, ![16, 60, 72, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S828x60x12 : Shape := ⟨3, ![828, 60, 12]⟩
abbrev S72x72 : Shape := ⟨2, ![72, 72]⟩
abbrev S_ : Shape := ⟨0, ![]⟩

class Facts : Prop where
  bcast_S_S16x60x72x384 : S_.BroadcastsInDim S16x60x72x384 (![] : Fin 0 → Fin S16x60x72x384.rank)
  reducesTo_S16x60x72x384_S_d0_1_2_3 : S16x60x72x384.ReducesTo [0, 1, 2, 3] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S1152 : S_.BroadcastsInDim S1152 (![] : Fin 0 → Fin S1152.rank)
  reducesTo_S1152_S_d0 : S1152.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S828x60x12 : S_.BroadcastsInDim S828x60x12 (![] : Fin 0 → Fin S828x60x12.rank)
  reducesTo_S828x60x12_S_d0_1_2 : S828x60x12.ReducesTo [0, 1, 2] S_
  bcast_S_S72x72 : S_.BroadcastsInDim S72x72 (![] : Fin 0 → Fin S72x72.rank)
  reducesTo_S72x72_S_d0_1 : S72x72.ReducesTo [0, 1] S_

variable [Facts]

def fn_part2 {F : FTy → Type} [FloatOps F] (main_v28 : IVec S_ 1) (main_v33 : IVec S72x72 1) : IVec S_ 1 :=
  let main_c_12 : IVec S_ 1 := constantI S_ 1 1#1
  let main_v34 : IVec S_ 1 := (fun x v => Host.reduce IntOp.andi x v reducesTo_S72x72_S_d0_1 h_S_) main_v33 main_c_12
  let main_v35 : IVec S_ 1 := andi main_v28 main_v34
  main_v35

def fn_part1 {F : FTy → Type} [FloatOps F] (main_arg4 : FVec F S384 .f32) (main_arg5 : FVec F S828x60x12 .f32) (main_arg6 : IVec S72x72 32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S828x60x12 .f32 := Host.absf main_arg5
  let main_cst_8 : FVec F S_ .f32 := constant S_ .f32 0x7F800000#32
  let main_v25 : FVec F S828x60x12 .f32 := broadcastInDim S828x60x12 ![] bcast_S_S828x60x12 main_cst_8
  let main_v26 : IVec S828x60x12 1 := cmpf .olt main_v24 main_v25
  let main_c_9 : IVec S_ 1 := constantI S_ 1 1#1
  let main_v27 : IVec S_ 1 := (fun x v => Host.reduce IntOp.andi x v reducesTo_S828x60x12_S_d0_1_2 h_S_) main_v26 main_c_9
  let main_v28 : IVec S_ 1 := andi main_v23 main_v27
  let main_c_10 : IVec S_ 32 := constantI S_ 32 4294966468#32
  let main_v29 : IVec S72x72 32 := broadcastInDim S72x72 ![] bcast_S_S72x72 main_c_10
  let main_v30 : IVec S72x72 1 := cmpi .sge main_arg6 main_v29
  let main_c_11 : IVec S_ 32 := constantI S_ 32 828#32
  let main_v31 : IVec S72x72 32 := broadcastInDim S72x72 ![] bcast_S_S72x72 main_c_11
  let main_v32 : IVec S72x72 1 := cmpi .slt main_arg6 main_v31
  let main_v33 : IVec S72x72 1 := andi main_v30 main_v32
  fn_part2 (F := F) main_v28 main_v33

def fn {F : FTy → Type} [FloatOps F] (main_arg0 : FVec F S16x60x72x384 .f32) (main_arg1 : FVec F S1152x384 .f32) (main_arg2 : FVec F S1152 .f32) (main_arg3 : FVec F S384x384 .f32) (main_arg4 : FVec F S384 .f32) (main_arg5 : FVec F S828x60x12 .f32) (main_arg6 : IVec S72x72 32) : IVec S_ 1 :=
  let main_v0 : FVec F S16x60x72x384 .f32 := Host.absf main_arg0
  let main_cst : FVec F S_ .f32 := constant S_ .f32 0x7F800000#32
  let main_v1 : FVec F S16x60x72x384 .f32 := broadcastInDim S16x60x72x384 ![] bcast_S_S16x60x72x384 main_cst
  let main_v2 : IVec S16x60x72x384 1 := cmpf .olt main_v0 main_v1
  let main_c : IVec S_ 1 := constantI S_ 1 1#1
  let main_v3 : IVec S_ 1 := (fun x v => Host.reduce IntOp.andi x v reducesTo_S16x60x72x384_S_d0_1_2_3 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S1152 .f32 := Host.absf main_arg2
  let main_cst_2 : FVec F S_ .f32 := constant S_ .f32 0x7F800000#32
  let main_v10 : FVec F S1152 .f32 := broadcastInDim S1152 ![] bcast_S_S1152 main_cst_2
  let main_v11 : IVec S1152 1 := cmpf .olt main_v9 main_v10
  let main_c_3 : IVec S_ 1 := constantI S_ 1 1#1
  let main_v12 : IVec S_ 1 := (fun x v => Host.reduce IntOp.andi x v reducesTo_S1152_S_d0 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_arg5 main_arg6 main_v13 main_v16
-- ==== Kernel.lean ====
abbrev S16x60x72x384 : Shape := ⟨4, ![16, 60, 72, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S828x60x12 : Shape := ⟨3, ![828, 60, 12]⟩
abbrev S72x72 : Shape := ⟨2, ![72, 72]⟩
abbrev S5184 : Shape := ⟨1, ![5184]⟩
abbrev S_ : Shape := ⟨0, ![]⟩
abbrev S5184x1 : Shape := ⟨2, ![5184, 1]⟩
abbrev S1 : Shape := ⟨1, ![1]⟩
abbrev S1x1 : Shape := ⟨2, ![1, 1]⟩
abbrev S5184x60x12 : Shape := ⟨3, ![5184, 60, 12]⟩
abbrev S72x72x60x12 : Shape := ⟨4, ![72, 72, 60, 12]⟩
abbrev S60x12x72x72 : Shape := ⟨4, ![60, 12, 72, 72]⟩
abbrev S384x1152 : Shape := ⟨2, ![384, 1152]⟩
abbrev S1x1152 : Shape := ⟨2, ![1, 1152]⟩
abbrev S1x384 : Shape := ⟨2, ![1, 384]⟩
abbrev S2x10x72x384 : Shape := ⟨4, ![2, 10, 72, 384]⟩
abbrev S10x12x72x72 : Shape := ⟨4, ![10, 12, 72, 72]⟩
abbrev S1440x1152 : Shape := ⟨2, ![1440, 1152]⟩
abbrev S1440x384 : Shape := ⟨2, ![1440, 384]⟩
abbrev S1440x32 : Shape := ⟨2, ![1440, 32]⟩
abbrev S20x72x32 : Shape := ⟨3, ![20, 72, 32]⟩
abbrev S20x72x72 : Shape := ⟨3, ![20, 72, 72]⟩
abbrev S10x1x72x72 : Shape := ⟨4, ![10, 1, 72, 72]⟩
abbrev S10x72x72 : Shape := ⟨3, ![10, 72, 72]⟩
abbrev S20x72 : Shape := ⟨2, ![20, 72]⟩
abbrev S20x72x1 : Shape := ⟨3, ![20, 72, 1]⟩

abbrev nBuf : Space → Nat
  | .hbm => 41
  | .vmem => 12
  | .smem => 0
  | _ => 0

abbrev bufTy : (tb : Table) → Fin (tcTables nBuf tb) → BufTy
  | .hbm, ⟨0, _⟩ => ⟨S16x60x72x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S828x60x12, .f32⟩
  | .hbm, ⟨6, _⟩ => ⟨S72x72, .i32⟩
  | .hbm, ⟨7, _⟩ => ⟨S5184, .i32⟩
  | .hbm, ⟨8, _⟩ => ⟨S_, .i32⟩
  | .hbm, ⟨9, _⟩ => ⟨S5184, .i32⟩
  | .hbm, ⟨10, _⟩ => ⟨S5184, .i1⟩
  | .hbm, ⟨11, _⟩ => ⟨S_, .i32⟩
  | .hbm, ⟨12, _⟩ => ⟨S5184, .i32⟩
  | .hbm, ⟨13, _⟩ => ⟨S5184, .i32⟩
  | .hbm, ⟨14, _⟩ => ⟨S5184, .i32⟩
  | .hbm, ⟨15, _⟩ => ⟨S5184x1, .i32⟩
  | .hbm, ⟨16, _⟩ => ⟨S1, .i32⟩
  | .hbm, ⟨17, _⟩ => ⟨S_, .i32⟩
  | .hbm, ⟨18, _⟩ => ⟨S5184x1, .i32⟩
  | .hbm, ⟨19, _⟩ => ⟨S5184x1, .i1⟩
  | .hbm, ⟨20, _⟩ => ⟨S1x1, .i32⟩
  | .hbm, ⟨21, _⟩ => ⟨S5184x1, .i32⟩
  | .hbm, ⟨22, _⟩ => ⟨S5184x1, .i1⟩
  | .hbm, ⟨23, _⟩ => ⟨S5184x1, .i1⟩
  | .hbm, ⟨24, _⟩ => ⟨S_, .i1⟩
  | .hbm, ⟨25, _⟩ => ⟨S5184, .i1⟩
  | .hbm, ⟨26, _⟩ => ⟨S5184x60x12, .f32⟩
  | .hbm, ⟨27, _⟩ => ⟨S5184x60x12, .i1⟩
  | .hbm, ⟨28, _⟩ => ⟨S_, .f32⟩
  | .hbm, ⟨29, _⟩ => ⟨S5184x60x12, .f32⟩
  | .hbm, ⟨30, _⟩ => ⟨S5184x60x12, .f32⟩
  | .hbm, ⟨31, _⟩ => ⟨S72x72x60x12, .f32⟩
  | .hbm, ⟨32, _⟩ => ⟨S60x12x72x72, .f32⟩
  | .hbm, ⟨33, _⟩ => ⟨S16x60x72x384, .bf16⟩
  | .hbm, ⟨34, _⟩ => ⟨S384x1152, .f32⟩
  | .hbm, ⟨35, _⟩ => ⟨S384x1152, .bf16⟩
  | .hbm, ⟨36, _⟩ => ⟨S384x384, .f32⟩
  | .hbm, ⟨37, _⟩ => ⟨S384x384, .bf16⟩
  | .hbm, ⟨38, _⟩ => ⟨S1x1152, .f32⟩
  | .hbm, ⟨39, _⟩ => ⟨S1x384, .f32⟩
  | .hbm, ⟨40, _⟩ => ⟨S16x60x72x384, .f32⟩
  | .local _ .vmem, ⟨0, _⟩ => ⟨S2x10x72x384, .bf16⟩
  | .local _ .vmem, ⟨1, _⟩ => ⟨S2x10x72x384, .bf16⟩
  | .local _ .vmem, ⟨2, _⟩ => ⟨S384x1152, .bf16⟩
  | .local _ .vmem, ⟨3, _⟩ => ⟨S1x1152, .f32⟩
  | .local _ .vmem, ⟨4, _⟩ => ⟨S384x384, .bf16⟩
  | .local _ .vmem, ⟨5, _⟩ => ⟨S1x384, .f32⟩
  | .local _ .vmem, ⟨6, _⟩ => ⟨S10x12x72x72, .f32⟩
  | .local _ .vmem, ⟨7, _⟩ => ⟨S10x12x72x72, .f32⟩
  | .local _ .vmem, ⟨8, _⟩ => ⟨S2x10x72x384, .f32⟩
  | .local _ .vmem, ⟨9, _⟩ => ⟨S2x10x72x384, .f32⟩
  | .local _ .vmem, ⟨10, _⟩ => ⟨S1440x1152, .f32⟩
  | .local _ .vmem, ⟨11, _⟩ => ⟨S1440x384, .bf16⟩
  | _, _ => ⟨S16x60x72x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x10x72x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S10x12x72x72 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x10x72x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S72x72_S5184 : S72x72.ShapeCasts S5184
  bcast_S_S5184 : S_.BroadcastsInDim S5184 (![] : Fin 0 → Fin S5184.rank)
  bcast_S5184_S5184x1_0 : S5184.BroadcastsInDim S5184x1 (![0] : Fin 1 → Fin S5184x1.rank)
  bcast_S_S5184x1 : S_.BroadcastsInDim S5184x1 (![] : Fin 0 → Fin S5184x1.rank)
  bcast_S1_S1x1_1 : S1.BroadcastsInDim S1x1 (![1] : Fin 1 → Fin S1x1.rank)
  bcast_S1x1_S5184x1_0_1 : S1x1.BroadcastsInDim S5184x1 (![0, 1] : Fin 2 → Fin S5184x1.rank)
  reducesTo_S5184x1_S5184_d1 : S5184x1.ReducesTo [1] S5184
  h_S_ : 0 < S_.numel
  bcast_S5184_S5184x60x12_0 : S5184.BroadcastsInDim S5184x60x12 (![0] : Fin 1 → Fin S5184x60x12.rank)
  bcast_S_S5184x60x12 : S_.BroadcastsInDim S5184x60x12 (![] : Fin 0 → Fin S5184x60x12.rank)
  shapeCasts_S5184x60x12_S72x72x60x12 : S5184x60x12.ShapeCasts S72x72x60x12
  transposes_S72x72x60x12_S60x12x72x72_2_3_0_1 : S72x72x60x12.Transposes [2, 3, 0, 1] S60x12x72x72
  bitsLt_bf16_f32 : FTy.bits .bf16 < FTy.bits .f32
  transposes_S1152x384_S384x1152_1_0 : S1152x384.Transposes [1, 0] S384x1152
  transposes_S384x384_S384x384_1_0 : S384x384.Transposes [1, 0] S384x384
  shapeCasts_S1152_S1x1152 : S1152.ShapeCasts S1x1152
  shapeCasts_S384_S1x384 : S384.ShapeCasts S1x384
  inb_S2x10x72x384_S2x10x72x384_0_0_0_0 : ∀ a, (![0, 0, 0, 0] : Fin 4 → Nat) a + S2x10x72x384.size a ≤ S2x10x72x384.size a
  h_S2x10x72x384 : 0 < S2x10x72x384.numel
  shapeCasts_S2x10x72x384_S2x10x72x384 : S2x10x72x384.ShapeCasts S2x10x72x384
  shapeCasts_S2x10x72x384_S1440x384 : S2x10x72x384.ShapeCasts S1440x384
  inb_S384x1152_S384x1152_0_0 : ∀ a, (![0, 0] : Fin 2 → Nat) a + S384x1152.size a ≤ S384x1152.size a
  h_S384x1152 : 0 < S384x1152.numel
  shapeCasts_S384x1152_S384x1152 : S384x1152.ShapeCasts S384x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1440x1152 : S1x1152.Broadcasts S1440x1152
  inb_S1440x1152_S1440x1152_0_0 : ∀ a, (![0, 0] : Fin 2 → Nat) a + S1440x1152.size a ≤ S1440x1152.size a
  h_S1440x1152 : 0 < S1440x1152.numel
  shapeCasts_S1440x1152_S1440x1152 : S1440x1152.ShapeCasts S1440x1152
  inb_S1440x1152_S1440x32_0_0 : ∀ a, (![0, 0] : Fin 2 → Nat) a + S1440x32.size a ≤ S1440x1152.size a
  h_S1440x32 : 0 < S1440x32.numel
  inb_S1440x1152_S1440x32_0_384 : ∀ a, (![0, 384] : Fin 2 → Nat) a + S1440x32.size a ≤ S1440x1152.size a
  inb_S1440x1152_S1440x32_0_768 : ∀ a, (![0, 768] : Fin 2 → Nat) a + S1440x32.size a ≤ S1440x1152.size a
  shapeCasts_S1440x32_S20x72x32 : S1440x32.ShapeCasts S20x72x32
  inb_S10x12x72x72_S10x1x72x72_0_0_0_0 : ∀ a, (![0, 0, 0, 0] : Fin 4 → Nat) a + S10x1x72x72.size a ≤ S10x12x72x72.size a
  h_S10x1x72x72 : 0 < S10x1x72x72.numel
  shapeCasts_S10x1x72x72_S10x72x72 : S10x1x72x72.ShapeCasts S10x72x72
  concatenates_S10x72x72_S10x72x72_S20x72x72_d0 : Shape.Concatenates [S10x72x72, S10x72x72] S20x72x72 0
  reduces_S20x72x72_S20x72 : S20x72x72.Reduces [2] S20x72
  shapeCasts_S20x72_S20x72x1 : S20x72.ShapeCasts S20x72x1
  broadcasts_S20x72x1_S20x72x72 : S20x72x1.Broadcasts S20x72x72
  shapeCasts_S20x72x32_S1440x32 : S20x72x32.ShapeCasts S1440x32
  inb_S1440x384_S1440x32_0_0 : ∀ a, (![0, 0] : Fin 2 → Nat) a + S1440x32.size a ≤ S1440x384.size a
  shapeCasts_S1440x32_S1440x32 : S1440x32.ShapeCasts S1440x32
  packedbf16_S1440x384_S1440x32_0_0 : (Rect.unit (s := S1440x384) ![0, 0] S1440x32.size inb_S1440x384_S1440x32_0_0).PackedRows (EltTy.packing .bf16)
  inb_S1440x1152_S1440x32_0_32 : ∀ a, (![0, 32] : Fin 2 → Nat) a + S1440x32.size a ≤ S1440x1152.size a
  inb_S1440x1152_S1440x32_0_416 : ∀ a, (![0, 416] : Fin 2 → Nat) a + S1440x32.size a ≤ S1440x1152.size a
  inb_S1440x1152_S1440x32_0_800 : ∀ a, (![0, 800] : Fin 2 → Nat) a + S1440x32.size a ≤ S1440x1152.size a
  inb_S10x12x72x72_S10x1x72x72_0_1_0_0 : ∀ a, (![0, 1, 0, 0] : Fin 4 → Nat) a + S10x1x72x72.size a ≤ S10x12x72x72.size a
  inb_S1440x384_S1440x32_0_32 : ∀ a, (![0, 32] : Fin 2 → Nat) a + S1440x32.size a ≤ S1440x384.size a
  packedbf16_S1440x384_S1440x32_0_32 : (Rect.unit (s := S1440x384) ![0, 32] S1440x32.size inb_S1440x384_S1440x32_0_32).PackedRows (EltTy.packing .bf16)
  inb_S1440x1152_S1440x32_0_64 : ∀ a, (![0, 64] : Fin 2 → Nat) a + S1440x32.size a ≤ S1440x1152.size a
  inb_S1440x1152_S1440x32_0_448 : ∀ a, (![0, 448] : Fin 2 → Nat) a + S1440x32.size a ≤ S1440x1152.size a
  inb_S1440x1152_S1440x32_0_832 : ∀ a, (![0, 832] : Fin 2 → Nat) a + S1440x32.size a ≤ S1440x1152.size a
  inb_S10x12x72x72_S10x1x72x72_0_2_0_0 : ∀ a, (![0, 2, 0, 0] : Fin 4 → Nat) a + S10x1x72x72.size a ≤ S10x12x72x72.size a
  inb_S1440x384_S1440x32_0_64 : ∀ a, (![0, 64] : Fin 2 → Nat) a + S1440x32.size a ≤ S1440x384.size a
  packedbf16_S1440x384_S1440x32_0_64 : (Rect.unit (s := S1440x384) ![0, 64] S1440x32.size inb_S1440x384_S1440x32_0_64).PackedRows (EltTy.packing .bf16)
  inb_S1440x1152_S1440x32_0_96 : ∀ a, (![0, 96] : Fin 2 → Nat) a + S1440x32.size a ≤ S1440x1152.size a
  inb_S1440x1152_S1440x32_0_480 : ∀ a, (![0, 480] : Fin 2 → Nat) a + S1440x32.size a ≤ S1440x1152.size a
  inb_S1440x1152_S1440x32_0_864 : ∀ a, (![0, 864] : Fin 2 → Nat) a + S1440x32.size a ≤ S1440x1152.size a
  inb_S10x12x72x72_S10x1x72x72_0_3_0_0 : ∀ a, (![0, 3, 0, 0] : Fin 4 → Nat) a + S10x1x72x72.size a ≤ S10x12x72x72.size a
  inb_S1440x384_S1440x32_0_96 : ∀ a, (![0, 96] : Fin 2 → Nat) a + S1440x32.size a ≤ S1440x384.size a
  packedbf16_S1440x384_S1440x32_0_96 : (Rect.unit (s := S1440x384) ![0, 96] S1440x32.size inb_S1440x384_S1440x32_0_96).PackedRows (EltTy.packing .bf16)
  inb_S1440x1152_S1440x32_0_128 : ∀ a, (![0, 128] : Fin 2 → Nat) a + S1440x32.size a ≤ S1440x1152.size a
  inb_S1440x1152_S1440x32_0_512 : ∀ a, (![0, 512] : Fin 2 → Nat) a + S1440x32.size a ≤ S1440x1152.size a
  inb_S1440x1152_S1440x32_0_896 : ∀ a, (![0, 896] : Fin 2 → Nat) a + S1440x32.size a ≤ S1440x1152.size a
  inb_S10x12x72x72_S10x1x72x72_0_4_0_0 : ∀ a, (![0, 4, 0, 0] : Fin 4 → Nat) a + S10x1x72x72.size a ≤ S10x12x72x72.size a
  inb_S1440x384_S1440x32_0_128 : ∀ a, (![0, 128] : Fin 2 → Nat) a + S1440x32.size a ≤ S1440x384.size a
  packedbf16_S1440x384_S1440x32_0_128 : (Rect.unit (s := S1440x384) ![0, 128] S1440x32.size inb_S1440x384_S1440x32_0_128).PackedRows (EltTy.packing .bf16)
  inb_S1440x1152_S1440x32_0_160 : ∀ a, (![0, 160] : Fin 2 → Nat) a + S1440x32.size a ≤ S1440x1152.size a
  inb_S1440x1152_S1440x32_0_544 : ∀ a, (![0, 544] : Fin 2 → Nat) a + S1440x32.size a ≤ S1440x1152.size a
  inb_S1440x1152_S1440x32_0_928 : ∀ a, (![0, 928] : Fin 2 → Nat) a + S1440x32.size a ≤ S1440x1152.size a
  inb_S10x12x72x72_S10x1x72x72_0_5_0_0 : ∀ a, (![0, 5, 0, 0] : Fin 4 → Nat) a + S10x1x72x72.size a ≤ S10x12x72x72.size a
  inb_S1440x384_S1440x32_0_160 : ∀ a, (![0, 160] : Fin 2 → Nat) a + S1440x32.size a ≤ S1440x384.size a
  packedbf16_S1440x384_S1440x32_0_160 : (Rect.unit (s := S1440x384) ![0, 160] S1440x32.size inb_S1440x384_S1440x32_0_160).PackedRows (EltTy.packing .bf16)
  inb_S1440x1152_S1440x32_0_192 : ∀ a, (![0, 192] : Fin 2 → Nat) a + S1440x32.size a ≤ S1440x1152.size a
  inb_S1440x1152_S1440x32_0_576 : ∀ a, (![0, 576] : Fin 2 → Nat) a + S1440x32.size a ≤ S1440x1152.size a
  inb_S1440x1152_S1440x32_0_960 : ∀ a, (![0, 960] : Fin 2 → Nat) a + S1440x32.size a ≤ S1440x1152.size a
  inb_S10x12x72x72_S10x1x72x72_0_6_0_0 : ∀ a, (![0, 6, 0, 0] : Fin 4 → Nat) a + S10x1x72x72.size a ≤ S10x12x72x72.size a
  inb_S1440x384_S1440x32_0_192 : ∀ a, (![0, 192] : Fin 2 → Nat) a + S1440x32.size a ≤ S1440x384.size a
  packedbf16_S1440x384_S1440x32_0_192 : (Rect.unit (s := S1440x384) ![0, 192] S1440x32.size inb_S1440x384_S1440x32_0_192).PackedRows (EltTy.packing .bf16)
  inb_S1440x1152_S1440x32_0_224 : ∀ a, (![0, 224] : Fin 2 → Nat) a + S1440x32.size a ≤ S1440x1152.size a
  inb_S1440x1152_S1440x32_0_608 : ∀ a, (![0, 608] : Fin 2 → Nat) a + S1440x32.size a ≤ S1440x1152.size a
  inb_S1440x1152_S1440x32_0_992 : ∀ a, (![0, 992] : Fin 2 → Nat) a + S1440x32.size a ≤ S1440x1152.size a
  inb_S10x12x72x72_S10x1x72x72_0_7_0_0 : ∀ a, (![0, 7, 0, 0] : Fin 4 → Nat) a + S10x1x72x72.size a ≤ S10x12x72x72.size a
  inb_S1440x384_S1440x32_0_224 : ∀ a, (![0, 224] : Fin 2 → Nat) a + S1440x32.size a ≤ S1440x384.size a
  packedbf16_S1440x384_S1440x32_0_224 : (Rect.unit (s := S1440x384) ![0, 224] S1440x32.size inb_S1440x384_S1440x32_0_224).PackedRows (EltTy.packing .bf16)
  inb_S1440x1152_S1440x32_0_256 : ∀ a, (![0, 256] : Fin 2 → Nat) a + S1440x32.size a ≤ S1440x1152.size a
  inb_S1440x1152_S1440x32_0_640 : ∀ a, (![0, 640] : Fin 2 → Nat) a + S1440x32.size a ≤ S1440x1152.size a
  inb_S1440x1152_S1440x32_0_1024 : ∀ a, (![0, 1024] : Fin 2 → Nat) a + S1440x32.size a ≤ S1440x1152.size a
  inb_S10x12x72x72_S10x1x72x72_0_8_0_0 : ∀ a, (![0, 8, 0, 0] : Fin 4 → Nat) a + S10x1x72x72.size a ≤ S10x12x72x72.size a
  inb_S1440x384_S1440x32_0_256 : ∀ a, (![0, 256] : Fin 2 → Nat) a + S1440x32.size a ≤ S1440x384.size a
  packedbf16_S1440x384_S1440x32_0_256 : (Rect.unit (s := S1440x384) ![0, 256] S1440x32.size inb_S1440x384_S1440x32_0_256).PackedRows (EltTy.packing .bf16)
  inb_S1440x1152_S1440x32_0_288 : ∀ a, (![0, 288] : Fin 2 → Nat) a + S1440x32.size a ≤ S1440x1152.size a
  inb_S1440x1152_S1440x32_0_672 : ∀ a, (![0, 672] : Fin 2 → Nat) a + S1440x32.size a ≤ S1440x1152.size a
  inb_S1440x1152_S1440x32_0_1056 : ∀ a, (![0, 1056] : Fin 2 → Nat) a + S1440x32.size a ≤ S1440x1152.size a
  inb_S10x12x72x72_S10x1x72x72_0_9_0_0 : ∀ a, (![0, 9, 0, 0] : Fin 4 → Nat) a + S10x1x72x72.size a ≤ S10x12x72x72.size a
  inb_S1440x384_S1440x32_0_288 : ∀ a, (![0, 288] : Fin 2 → Nat) a + S1440x32.size a ≤ S1440x384.size a
  packedbf16_S1440x384_S1440x32_0_288 : (Rect.unit (s := S1440x384) ![0, 288] S1440x32.size inb_S1440x384_S1440x32_0_288).PackedRows (EltTy.packing .bf16)
  inb_S1440x1152_S1440x32_0_320 : ∀ a, (![0, 320] : Fin 2 → Nat) a + S1440x32.size a ≤ S1440x1152.size a
  inb_S1440x1152_S1440x32_0_704 : ∀ a, (![0, 704] : Fin 2 → Nat) a + S1440x32.size a ≤ S1440x1152.size a
  inb_S1440x1152_S1440x32_0_1088 : ∀ a, (![0, 1088] : Fin 2 → Nat) a + S1440x32.size a ≤ S1440x1152.size a
  inb_S10x12x72x72_S10x1x72x72_0_10_0_0 : ∀ a, (![0, 10, 0, 0] : Fin 4 → Nat) a + S10x1x72x72.size a ≤ S10x12x72x72.size a
  inb_S1440x384_S1440x32_0_320 : ∀ a, (![0, 320] : Fin 2 → Nat) a + S1440x32.size a ≤ S1440x384.size a
  packedbf16_S1440x384_S1440x32_0_320 : (Rect.unit (s := S1440x384) ![0, 320] S1440x32.size inb_S1440x384_S1440x32_0_320).PackedRows (EltTy.packing .bf16)
  inb_S1440x1152_S1440x32_0_352 : ∀ a, (![0, 352] : Fin 2 → Nat) a + S1440x32.size a ≤ S1440x1152.size a
  inb_S1440x1152_S1440x32_0_736 : ∀ a, (![0, 736] : Fin 2 → Nat) a + S1440x32.size a ≤ S1440x1152.size a
  inb_S1440x1152_S1440x32_0_1120 : ∀ a, (![0, 1120] : Fin 2 → Nat) a + S1440x32.size a ≤ S1440x1152.size a
  inb_S10x12x72x72_S10x1x72x72_0_11_0_0 : ∀ a, (![0, 11, 0, 0] : Fin 4 → Nat) a + S10x1x72x72.size a ≤ S10x12x72x72.size a
  inb_S1440x384_S1440x32_0_352 : ∀ a, (![0, 352] : Fin 2 → Nat) a + S1440x32.size a ≤ S1440x384.size a
  packedbf16_S1440x384_S1440x32_0_352 : (Rect.unit (s := S1440x384) ![0, 352] S1440x32.size inb_S1440x384_S1440x32_0_352).PackedRows (EltTy.packing .bf16)
  inb_S1440x384_S1440x384_0_0 : ∀ a, (![0, 0] : Fin 2 → Nat) a + S1440x384.size a ≤ S1440x384.size a
  h_S1440x384 : 0 < S1440x384.numel
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1440x384 : S1x384.Broadcasts S1440x384
  shapeCasts_S1440x384_S2x10x72x384 : S1440x384.ShapeCasts S2x10x72x384
  gather_S828x60x12_S5184x1_S5184x60x12_12_0_n_n_0_1_16012_wf : GatherDims.WF S828x60x12 S5184x1 S5184x60x12 [1, 2] [0] [] [0] [] 1 ![1, 60, 12]
  dot_S1440x384_S384x1152_S1440x1152_1_0_0_1_n_n_wf : DotDims.WF S1440x384 S384x1152 S1440x1152 [1] [0] [0] [1] [] []
  dot_S20x72x32_S20x72x32_S20x72x72_2_2_1_1_0_0_wf : DotDims.WF S20x72x32 S20x72x32 S20x72x72 [2] [2] [1] [1] [0] [0]
  dot_S20x72x72_S20x72x32_S20x72x32_2_1_1_2_0_0_wf : DotDims.WF S20x72x72 S20x72x32 S20x72x32 [2] [1] [1] [2] [0] [0]
  dot_S1440x384_S384x384_S1440x384_1_0_0_1_n_n_wf : DotDims.WF S1440x384 S384x384 S1440x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x10x72x384.size a ≤ S16x60x72x384.size a
  hwx0_0 : ∀ i : grid0.Coords, EltTy.bits .bf16 = 32 ∨ (Rect.block (s := S16x60x72x384) S2x10x72x384.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x1152.size a ≤ S384x1152.size a
  hwx0_1 : ∀ i : grid0.Coords, EltTy.bits .bf16 = 32 ∨ (Rect.block (s := S384x1152) S384x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1152.size a ≤ S1x1152.size a
  hwx0_2 : ∀ i : grid0.Coords, EltTy.bits .f32 = 32 ∨ (Rect.block (s := S1x1152) S1x1152.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10x12x72x72.size a ≤ S60x12x72x72.size a
  hwx0_5 : ∀ i : grid0.Coords, EltTy.bits .f32 = 32 ∨ (Rect.block (s := S60x12x72x72) S10x12x72x72.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x10x72x384.size a ≤ S16x60x72x384.size a
  hwx0_6 : ∀ i : grid0.Coords, EltTy.bits .f32 = 32 ∨ (Rect.block (s := S16x60x72x384) S2x10x72x384.size (cc0_transform_6 i) (hinb0_6 i)).WholeWords (EltTy.packing .f32)

variable [Facts₀]

def gather_S828x60x12_S5184x1_S5184x60x12_12_0_n_n_0_1_16012 : GatherDims S828x60x12 S5184x1 S5184x60x12 where
  offsetDims := [1, 2]
  collapsedSliceDims := [0]
  operandBatchingDims := []
  startIndicesBatchingDims := []
  startIndexMap := [0]
  indexVectorDim := 1
  sliceSizes := ![1, 60, 12]
  wf := gather_S828x60x12_S5184x1_S5184x60x12_12_0_n_n_0_1_16012_wf
def dot_S1440x384_S384x1152_S1440x1152_1_0_0_1_n_n : DotDims S1440x384 S384x1152 S1440x1152 where
  lhsContracting := [1]
  rhsContracting := [0]
  lhsNonContracting := [0]
  rhsNonContracting := [1]
  lhsBatch := []
  rhsBatch := []
  wf := dot_S1440x384_S384x1152_S1440x1152_1_0_0_1_n_n_wf
def dot_S20x72x32_S20x72x32_S20x72x72_2_2_1_1_0_0 : DotDims S20x72x32 S20x72x32 S20x72x72 where
  lhsContracting := [2]
  rhsContracting := [2]
  lhsNonContracting := [1]
  rhsNonContracting := [1]
  lhsBatch := [0]
  rhsBatch := [0]
  wf := dot_S20x72x32_S20x72x32_S20x72x72_2_2_1_1_0_0_wf
def dot_S20x72x72_S20x72x32_S20x72x32_2_1_1_2_0_0 : DotDims S20x72x72 S20x72x32 S20x72x32 where
  lhsContracting := [2]
  rhsContracting := [1]
  lhsNonContracting := [1]
  rhsNonContracting := [2]
  lhsBatch := [0]
  rhsBatch := [0]
  wf := dot_S20x72x72_S20x72x32_S20x72x32_2_1_1_2_0_0_wf
def dot_S1440x384_S384x384_S1440x384_1_0_0_1_n_n : DotDims S1440x384 S384x384 S1440x384 where
  lhsContracting := [1]
  rhsContracting := [0]
  lhsNonContracting := [0]
  rhsNonContracting := [1]
  lhsBatch := []
  rhsBatch := []
  wf := dot_S1440x384_S384x384_S1440x384_1_0_0_1_n_n_wf

abbrev win0_0 : Pipeline.Window sig grid0 :=
  Pipeline.Window.ofSpec (Memref.whole main_v4) S2x10x72x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S384x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1152.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10x12x72x72.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2x10x72x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x60x72x384 : Shape := ⟨4, ![16, 60, 72, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S828x60x12 : Shape := ⟨3, ![828, 60, 12]⟩
abbrev S72x72 : Shape := ⟨2, ![72, 72]⟩
abbrev S16x60x72x1152 : Shape := ⟨4, ![16, 60, 72, 1152]⟩
abbrev S1x1x1x1152 : Shape := ⟨4, ![1, 1, 1, 1152]⟩
abbrev S16x60x72x3x12x32 : Shape := ⟨6, ![16, 60, 72, 3, 12, 32]⟩
abbrev S3x16x12x60x72x32 : Shape := ⟨6, ![3, 16, 12, 60, 72, 32]⟩
abbrev S1x16x12x60x72x32 : Shape := ⟨6, ![1, 16, 12, 60, 72, 32]⟩
abbrev S16x12x60x72x32 : Shape := ⟨5, ![16, 12, 60, 72, 32]⟩
abbrev S_ : Shape := ⟨0, ![]⟩
abbrev S16x12x60x72x72 : Shape := ⟨5, ![16, 12, 60, 72, 72]⟩
abbrev S5184 : Shape := ⟨1, ![5184]⟩
abbrev S5184x1 : Shape := ⟨2, ![5184, 1]⟩
abbrev S5184x60x12 : Shape := ⟨3, ![5184, 60, 12]⟩
abbrev S72x72x60x12 : Shape := ⟨4, ![72, 72, 60, 12]⟩
abbrev S12x60x72x72 : Shape := ⟨4, ![12, 60, 72, 72]⟩
abbrev S1x12x60x72x72 : Shape := ⟨5, ![1, 12, 60, 72, 72]⟩
abbrev S16x12x60x72 : Shape := ⟨4, ![16, 12, 60, 72]⟩
abbrev S16x12x60x72x1 : Shape := ⟨5, ![16, 12, 60, 72, 1]⟩
abbrev S16x60x72x12x32 : Shape := ⟨5, ![16, 60, 72, 12, 32]⟩
abbrev S1x1x1x384 : Shape := ⟨4, ![1, 1, 1, 384]⟩

abbrev nBuf : Space → Nat
  | .hbm => 59
  | .vmem => 0
  | .smem => 0
  | _ => 0

abbrev bufTy : (tb : Table) → Fin (tcTables nBuf tb) → BufTy
  | .hbm, ⟨0, _⟩ => ⟨S16x60x72x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S828x60x12, .f32⟩
  | .hbm, ⟨6, _⟩ => ⟨S72x72, .i32⟩
  | .hbm, ⟨7, _⟩ => ⟨S16x60x72x1152, .f32⟩
  | .hbm, ⟨8, _⟩ => ⟨S1x1x1x1152, .f32⟩
  | .hbm, ⟨9, _⟩ => ⟨S16x60x72x1152, .f32⟩
  | .hbm, ⟨10, _⟩ => ⟨S16x60x72x1152, .f32⟩
  | .hbm, ⟨11, _⟩ => ⟨S16x60x72x3x12x32, .f32⟩
  | .hbm, ⟨12, _⟩ => ⟨S3x16x12x60x72x32, .f32⟩
  | .hbm, ⟨13, _⟩ => ⟨S1x16x12x60x72x32, .f32⟩
  | .hbm, ⟨14, _⟩ => ⟨S16x12x60x72x32, .f32⟩
  | .hbm, ⟨15, _⟩ => ⟨S1x16x12x60x72x32, .f32⟩
  | .hbm, ⟨16, _⟩ => ⟨S16x12x60x72x32, .f32⟩
  | .hbm, ⟨17, _⟩ => ⟨S1x16x12x60x72x32, .f32⟩
  | .hbm, ⟨18, _⟩ => ⟨S16x12x60x72x32, .f32⟩
  | .hbm, ⟨19, _⟩ => ⟨S_, .f32⟩
  | .hbm, ⟨20, _⟩ => ⟨S16x12x60x72x32, .f32⟩
  | .hbm, ⟨21, _⟩ => ⟨S16x12x60x72x32, .f32⟩
  | .hbm, ⟨22, _⟩ => ⟨S16x12x60x72x72, .f32⟩
  | .hbm, ⟨23, _⟩ => ⟨S5184, .i32⟩
  | .hbm, ⟨24, _⟩ => ⟨S_, .i32⟩
  | .hbm, ⟨25, _⟩ => ⟨S5184, .i32⟩
  | .hbm, ⟨26, _⟩ => ⟨S5184, .i1⟩
  | .hbm, ⟨27, _⟩ => ⟨S_, .i32⟩
  | .hbm, ⟨28, _⟩ => ⟨S5184, .i32⟩
  | .hbm, ⟨29, _⟩ => ⟨S5184, .i32⟩
  | .hbm, ⟨30, _⟩ => ⟨S5184, .i32⟩
  | .hbm, ⟨31, _⟩ => ⟨S5184x1, .i32⟩
  | .hbm, ⟨32, _⟩ => ⟨S5184x60x12, .f32⟩
  | .hbm, ⟨33, _⟩ => ⟨S72x72x60x12, .f32⟩
  | .hbm, ⟨34, _⟩ => ⟨S12x60x72x72, .f32⟩
  | .hbm, ⟨35, _⟩ => ⟨S1x12x60x72x72, .f32⟩
  | .hbm, ⟨36, _⟩ => ⟨S16x12x60x72x72, .f32⟩
  | .hbm, ⟨37, _⟩ => ⟨S16x12x60x72x72, .f32⟩
  | .hbm, ⟨38, _⟩ => ⟨S_, .f32⟩
  | .hbm, ⟨39, _⟩ => ⟨S16x12x60x72, .f32⟩
  | .hbm, ⟨40, _⟩ => ⟨S_, .f32⟩
  | .hbm, ⟨41, _⟩ => ⟨S16x12x60x72, .f32⟩
  | .hbm, ⟨42, _⟩ => ⟨S16x12x60x72, .f32⟩
  | .hbm, ⟨43, _⟩ => ⟨S16x12x60x72x1, .f32⟩
  | .hbm, ⟨44, _⟩ => ⟨S16x12x60x72x72, .f32⟩
  | .hbm, ⟨45, _⟩ => ⟨S16x12x60x72x72, .f32⟩
  | .hbm, ⟨46, _⟩ => ⟨S16x12x60x72x72, .f32⟩
  | .hbm, ⟨47, _⟩ => ⟨S_, .f32⟩
  | .hbm, ⟨48, _⟩ => ⟨S16x12x60x72, .f32⟩
  | .hbm, ⟨49, _⟩ => ⟨S16x12x60x72x1, .f32⟩
  | .hbm, ⟨50, _⟩ => ⟨S16x12x60x72x72, .f32⟩
  | .hbm, ⟨51, _⟩ => ⟨S16x12x60x72x72, .f32⟩
  | .hbm, ⟨52, _⟩ => ⟨S16x12x60x72x32, .f32⟩
  | .hbm, ⟨53, _⟩ => ⟨S16x60x72x12x32, .f32⟩
  | .hbm, ⟨54, _⟩ => ⟨S16x60x72x384, .f32⟩
  | .hbm, ⟨55, _⟩ => ⟨S16x60x72x384, .f32⟩
  | .hbm, ⟨56, _⟩ => ⟨S1x1x1x384, .f32⟩
  | .hbm, ⟨57, _⟩ => ⟨S16x60x72x384, .f32⟩
  | .hbm, ⟨58, _⟩ => ⟨S16x60x72x384, .f32⟩
  | _, _ => ⟨S16x60x72x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  bcast_S1152_S1x1x1x1152_3 : S1152.BroadcastsInDim S1x1x1x1152 (![3] : Fin 1 → Fin S1x1x1x1152.rank)
  bcast_S1x1x1x1152_S16x60x72x1152_0_1_2_3 : S1x1x1x1152.BroadcastsInDim S16x60x72x1152 (![0, 1, 2, 3] : Fin 4 → Fin S16x60x72x1152.rank)
  shapeCasts_S16x60x72x1152_S16x60x72x3x12x32 : S16x60x72x1152.ShapeCasts S16x60x72x3x12x32
  transposes_S16x60x72x3x12x32_S3x16x12x60x72x32_3_0_4_1_2_5 : S16x60x72x3x12x32.Transposes [3, 0, 4, 1, 2, 5] S3x16x12x60x72x32
  slices_S3x16x12x60x72x32_S1x16x12x60x72x32_0_0_0_0_0_0 : S3x16x12x60x72x32.Slices ![0, 0, 0, 0, 0, 0] S1x16x12x60x72x32
  shapeCasts_S1x16x12x60x72x32_S16x12x60x72x32 : S1x16x12x60x72x32.ShapeCasts S16x12x60x72x32
  slices_S3x16x12x60x72x32_S1x16x12x60x72x32_1_0_0_0_0_0 : S3x16x12x60x72x32.Slices ![1, 0, 0, 0, 0, 0] S1x16x12x60x72x32
  slices_S3x16x12x60x72x32_S1x16x12x60x72x32_2_0_0_0_0_0 : S3x16x12x60x72x32.Slices ![2, 0, 0, 0, 0, 0] S1x16x12x60x72x32
  bcast_S_S16x12x60x72x32 : S_.BroadcastsInDim S16x12x60x72x32 (![] : Fin 0 → Fin S16x12x60x72x32.rank)
  shapeCasts_S72x72_S5184 : S72x72.ShapeCasts S5184
  bcast_S_S5184 : S_.BroadcastsInDim S5184 (![] : Fin 0 → Fin S5184.rank)
  bcast_S5184_S5184x1_0 : S5184.BroadcastsInDim S5184x1 (![0] : Fin 1 → Fin S5184x1.rank)
  shapeCasts_S5184x60x12_S72x72x60x12 : S5184x60x12.ShapeCasts S72x72x60x12
  transposes_S72x72x60x12_S12x60x72x72_3_2_0_1 : S72x72x60x12.Transposes [3, 2, 0, 1] S12x60x72x72
  bcast_S12x60x72x72_S1x12x60x72x72_1_2_3_4 : S12x60x72x72.BroadcastsInDim S1x12x60x72x72 (![1, 2, 3, 4] : Fin 4 → Fin S1x12x60x72x72.rank)
  bcast_S1x12x60x72x72_S16x12x60x72x72_0_1_2_3_4 : S1x12x60x72x72.BroadcastsInDim S16x12x60x72x72 (![0, 1, 2, 3, 4] : Fin 5 → Fin S16x12x60x72x72.rank)
  reducesTo_S16x12x60x72x72_S16x12x60x72_d4 : S16x12x60x72x72.ReducesTo [4] S16x12x60x72
  h_S_ : 0 < S_.numel
  bcast_S_S16x12x60x72 : S_.BroadcastsInDim S16x12x60x72 (![] : Fin 0 → Fin S16x12x60x72.rank)
  bcast_S16x12x60x72_S16x12x60x72x1_0_1_2_3 : S16x12x60x72.BroadcastsInDim S16x12x60x72x1 (![0, 1, 2, 3] : Fin 4 → Fin S16x12x60x72x1.rank)
  bcast_S16x12x60x72x1_S16x12x60x72x72_0_1_2_3_4 : S16x12x60x72x1.BroadcastsInDim S16x12x60x72x72 (![0, 1, 2, 3, 4] : Fin 5 → Fin S16x12x60x72x72.rank)
  transposes_S16x12x60x72x32_S16x60x72x12x32_0_2_3_1_4 : S16x12x60x72x32.Transposes [0, 2, 3, 1, 4] S16x60x72x12x32
  shapeCasts_S16x60x72x12x32_S16x60x72x384 : S16x60x72x12x32.ShapeCasts S16x60x72x384
  bcast_S384_S1x1x1x384_3 : S384.BroadcastsInDim S1x1x1x384 (![3] : Fin 1 → Fin S1x1x1x384.rank)
  bcast_S1x1x1x384_S16x60x72x384_0_1_2_3 : S1x1x1x384.BroadcastsInDim S16x60x72x384 (![0, 1, 2, 3] : Fin 4 → Fin S16x60x72x384.rank)
  dot_S16x60x72x384_S1152x384_S16x60x72x1152_3_1_012_0_n_n_wf : DotDims.WF S16x60x72x384 S1152x384 S16x60x72x1152 [3] [1] [0, 1, 2] [0] [] []
  dot_S16x12x60x72x32_S16x12x60x72x32_S16x12x60x72x72_4_4_3_3_012_012_wf : DotDims.WF S16x12x60x72x32 S16x12x60x72x32 S16x12x60x72x72 [4] [4] [3] [3] [0, 1, 2] [0, 1, 2]
  gather_S828x60x12_S5184x1_S5184x60x12_12_0_n_n_0_1_16012_wf : GatherDims.WF S828x60x12 S5184x1 S5184x60x12 [1, 2] [0] [] [0] [] 1 ![1, 60, 12]
  dot_S16x12x60x72x72_S16x12x60x72x32_S16x12x60x72x32_4_3_3_4_012_012_wf : DotDims.WF S16x12x60x72x72 S16x12x60x72x32 S16x12x60x72x32 [4] [3] [3] [4] [0, 1, 2] [0, 1, 2]
  dot_S16x60x72x384_S384x384_S16x60x72x384_3_1_012_0_n_n_wf : DotDims.WF S16x60x72x384 S384x384 S16x60x72x384 [3] [1] [0, 1, 2] [0] [] []

variable [Facts₀]

def dot_S16x60x72x384_S1152x384_S16x60x72x1152_3_1_012_0_n_n : DotDims S16x60x72x384 S1152x384 S16x60x72x1152 where
  lhsContracting := [3]
  rhsContracting := [1]
  lhsNonContracting := [0, 1, 2]
  rhsNonContracting := [0]
  lhsBatch := []
  rhsBatch := []
  wf := dot_S16x60x72x384_S1152x384_S16x60x72x1152_3_1_012_0_n_n_wf
def dot_S16x12x60x72x32_S16x12x60x72x32_S16x12x60x72x72_4_4_3_3_012_012 : DotDims S16x12x60x72x32 S16x12x60x72x32 S16x12x60x72x72 where
  lhsContracting := [4]
  rhsContracting := [4]
  lhsNonContracting := [3]
  rhsNonContracting := [3]
  lhsBatch := [0, 1, 2]
  rhsBatch := [0, 1, 2]
  wf := dot_S16x12x60x72x32_S16x12x60x72x32_S16x12x60x72x72_4_4_3_3_012_012_wf
def gather_S828x60x12_S5184x1_S5184x60x12_12_0_n_n_0_1_16012 : GatherDims S828x60x12 S5184x1 S5184x60x12 where
  offsetDims := [1, 2]
  collapsedSliceDims := [0]
  operandBatchingDims := []
  startIndicesBatchingDims := []
  startIndexMap := [0]
  indexVectorDim := 1
  sliceSizes := ![1, 60, 12]
  wf := gather_S828x60x12_S5184x1_S5184x60x12_12_0_n_n_0_1_16012_wf
def dot_S16x12x60x72x72_S16x12x60x72x32_S16x12x60x72x32_4_3_3_4_012_012 : DotDims S16x12x60x72x72 S16x12x60x72x32 S16x12x60x72x32 where
  lhsContracting := [4]
  rhsContracting := [3]
  lhsNonContracting := [3]
  rhsNonContracting := [4]
  lhsBatch := [0, 1, 2]
  rhsBatch := [0, 1, 2]
  wf := dot_S16x12x60x72x72_S16x12x60x72x32_S16x12x60x72x32_4_3_3_4_012_012_wf
def dot_S16x60x72x384_S384x384_S16x60x72x384_3_1_012_0_n_n : DotDims S16x60x72x384 S384x384 S16x60x72x384 where
  lhsContracting := [3]
  rhsContracting := [1]
  lhsNonContracting := [0, 1, 2]
  rhsNonContracting := [0]
  lhsBatch := []
  rhsBatch := []
  wf := dot_S16x60x72x384_S384x384_S16x60x72x384_3_1_012_0_n_n_wf

class Facts : Prop extends Facts₀ where

variable [Facts]
-- ==== Proof.Spec.lean ====
/-
  The mathematics of windowed multi-head attention with a gathered position bias, as one function of the
  argument arrays, entry by entry, over the extended reals.

  The operator acts on each window of 72 tokens by itself (a window is one batch item's tokens at one window
  position). For a window with activations `Xw` and token `n`:
    * `qkv n o = (∑ c, Xw n c * Wq o c) + bq o` is the joint projection; its column
      `384·t + 32·h + d` is channel `d` of head `h` of the query (`t = 0`), key (`t = 1`) or value (`t = 2`);
    * the logit of token `n` against token `m` in head `h` is `(∑ d, (q n d * s) * k m d) + Bw h n m`,
      where `s` is the scale and `Bw` the window's position bias (a gathered row of the bias table per pair of tokens);
    * each row of logits goes through the softmax exactly as both programs spell it: the row's maximum is folded
      from `-∞` and joined once more with `-∞`, subtracted, exponentiated, and divided by the row's sum;
    * the context of head `h` is `∑ m, p m * v m d`, heads side by side along the 384 channels (`c = 32·h + d`);
    * the result is the output projection `(∑ c, ctx c * Wp o c) + bp o`.
  Nothing here needs finiteness: the two programs are compared operation by operation, and only the
  arrangement of the indices differs between them.
-/
import Idealize.ShloMosaic.PureOps.Ideal

noncomputable section

namespace Cert.Attn

open Idealize.ShloMosaic

/-- A projection entry: the dot product of a row of activations with a row of weights, plus the bias. -/
def proj {K : ℕ} (a w : Fin K → EReal) (bias : EReal) : EReal := (∑ c : Fin K, a c * w c) + bias

/-- One attention logit: the scaled query against the key over the 32 channels of a head, plus the position bias. -/
def logit (q k : Fin 32 → EReal) (s bias : EReal) : EReal := (∑ d : Fin 32, (q d * s) * k d) + bias

/-- The maximum a row of 72 logits is shifted by: folded from `ninf` over the row, then joined with `ninf` again. -/
def rowMax (ninf : EReal) (f : Fin 72 → EReal) : EReal := max ninf ((Finset.univ : Finset (Fin 72)).fold max ninf f)

/-- The softmax of a row of 72 logits, in the spelling both programs share. -/
def softmaxRow (ninf : EReal) (f : Fin 72 → EReal) (j : Fin 72) : EReal :=
  Ideal.div (Ideal.exp (f j - rowMax ninf f)) (∑ k : Fin 72, Ideal.exp (f k - rowMax ninf f))

/-- A context entry: the probabilities of a row against one channel of the values. -/
def attend (p v : Fin 72 → EReal) : EReal := ∑ m : Fin 72, p m * v m

/-- Column `384·t + 32·h + d` of the joint projection: part `t` (query, key, value), head `h`, channel `d`. -/
def col (t : Fin 3) (h : Fin 12) (d : Fin 32) : Fin 1152 := ⟨384 * t.val + 32 * h.val + d.val, by omega⟩

/-- The scale both programs multiply the query by: the f32 word of `32 ^ (-1/2)`, read as the extended real it denotes. -/
def scale : EReal := Ideal.ofBits .f32 0x3E3504F3#32

/-- The word of `-∞` both programs start a row's maximum from. -/
def ninf : EReal := Ideal.ofBits .f32 0xFF800000#32

/-- In a block of 2 batch items × 10 windows × 72 tokens laid out as 1440 rows, the row of
    token `n` of window `g` of batch item `g2`. -/
def rowOf (g2 : Fin 2) (g : Fin 10) (n : Fin 72) : Fin 1440 := ⟨(g2.val * 10 + g.val) * 72 + n.val, by omega⟩

/-- The row of the gathered bias rows (one per ordered pair of tokens, 72 × 72 of them) that serves the pair `(n, m)`. -/
def pairRow (n m : Fin 72) : Fin 5184 := ⟨72 * n.val + m.val, by omega⟩

/-- The head a context channel belongs to, and its channel within the head. -/
def headOf (c : Fin 384) : Fin 12 := ⟨c.val / 32, by omega⟩
def chanOf (c : Fin 384) : Fin 32 := ⟨c.val % 32, by omega⟩

section
variable (s ninf : EReal)
variable (Xw : Fin 72 → Fin 384 → EReal) (Wq : Fin 1152 → Fin 384 → EReal) (bq : Fin 1152 → EReal)
  (Wp : Fin 384 → Fin 384 → EReal) (bp : Fin 384 → EReal) (Bw : Fin 12 → Fin 72 → Fin 72 → EReal)

/-- The joint query / key / value projection of one window's 72 tokens. -/
def qkv (n : Fin 72) (o : Fin 1152) : EReal := proj (Xw n) (Wq o) (bq o)

/-- The logits of token `n` in head `h` against every token `m` of the window; `Bw h n m` is the window's position bias. -/
def logits (h : Fin 12) (n : Fin 72) (m : Fin 72) : EReal :=
  logit (fun d => qkv Xw Wq bq n (col 0 h d)) (fun d => qkv Xw Wq bq m (col 1 h d)) s (Bw h n m)

/-- The attention context of one head at one of its channels. -/
def headCtx (h : Fin 12) (n : Fin 72) (d : Fin 32) : EReal :=
  attend (softmaxRow ninf (logits s Xw Wq bq Bw h n)) (fun m => qkv Xw Wq bq m (col 2 h d))

/-- The attention context, heads side by side along the 384 channels. -/
def ctx (n : Fin 72) (c : Fin 384) : EReal := headCtx s ninf Xw Wq bq Bw (headOf c) n (chanOf c)

/-- The whole operator on one window, at one entry of its result. -/
def winOut (n : Fin 72) (o : Fin 384) : EReal := proj (ctx s ninf Xw Wq bq Bw n) (Wp o) (bp o)

end

end Cert.Attn

end
-- ==== Proof.KDefs.lean ====
/-
  One attention head as the kernel's body computes it on a block of 20 windows (2 batch items × 10 window
  positions, 72 tokens each, so 1440 rows): from the head's query, key and value columns `q`, `k`, `v`
  (1440 × 32 each) and the head's slab `b` of the position bias (10 × 1 × 72 × 72, shared by the two batch items):
  scale the query, form the 72 × 72 logits of every window, add the bias, take the row softmax, and
  multiply by the values. All twelve heads of the body are this one function of their own columns.
-/
import proofs.«407614_j76390288327291_3_alg».proof.Proof.Gen.KernelIdeal
import proofs.«407614_j76390288327291_3_alg».proof.Proof.Spec

noncomputable section

namespace Cert.Attn

open Idealize.ShloMosaic Cert.KernelIdeal Cert.KernelIdeal.Gen

variable {F : FTy → Type} [FloatOps F]

/-- One head on a block: `softmax((q · s) kᵀ + b) v`, window by window, in the body's own operations. -/
def headFn (q k v : Vec F S1440x32 .f32) (b : Vec F S10x1x72x72 .f32) : FVec F S1440x32 .bf16 :=
  have cst_13 : F .f32 := Scalar.ofBits .f32 0x3E3504F3#32
  have v16 : FVec F S1440x32 .f32 := broadcast S1440x32 cst_13
  have v17 : FVec F S1440x32 .f32 := mulf q v16
  have v18 : FVec F S1440x32 .bf16 := truncf .bf16 v17 bitsLt_bf16_f32
  have v19 : FVec F S20x72x32 .bf16 := shapeCast S20x72x32 v18 shapeCasts_S1440x32_S20x72x32
  have v20 : FVec F S1440x32 .bf16 := truncf .bf16 k bitsLt_bf16_f32
  have v21 : FVec F S20x72x32 .bf16 := shapeCast S20x72x32 v20 shapeCasts_S1440x32_S20x72x32
  have v22 : FVec F S1440x32 .bf16 := truncf .bf16 v bitsLt_bf16_f32
  have v23 : FVec F S20x72x32 .bf16 := shapeCast S20x72x32 v22 shapeCasts_S1440x32_S20x72x32
  have cst_14 : FVec F S20x72x72 .f32 := constant S20x72x72 .f32 0x00000000#32
  have v24 : FVec F S20x72x72 .f32 := matmul dot_S20x72x32_S20x72x32_S20x72x72_2_2_1_1_0_0 none v19 v21 cst_14
  have v26 : FVec F S10x72x72 .f32 := shapeCast S10x72x72 b shapeCasts_S10x1x72x72_S10x72x72
  have v27 : FVec F S20x72x72 .f32 := concatenate S20x72x72 0 [⟨S10x72x72, v26⟩, ⟨S10x72x72, v26⟩] concatenates_S10x72x72_S10x72x72_S20x72x72_d0
  have v28 : FVec F S20x72x72 .f32 := addf v24 v27
  have v29 : FVec F S20x72 .f32 := multiReduction .maximumf [2] S20x72 v28 0xFF800000#32 reduces_S20x72x72_S20x72 (.inl rfl) rfl
  have cst_20 : F .f32 := Scalar.ofBits .f32 0xFF800000#32
  have v30 : FVec F S20x72 .f32 := broadcast S20x72 cst_20
  have v31 : FVec F S20x72 .f32 := maximumf v30 v29
  have v32 : FVec F S20x72x1 .f32 := shapeCast S20x72x1 v31 shapeCasts_S20x72_S20x72x1
  have v33 : FVec F S20x72x72 .f32 := broadcastTo S20x72x72 v32 broadcasts_S20x72x1_S20x72x72
  have v34 : FVec F S20x72x72 .f32 := subf v28 v33
  have v35 : FVec F S20x72x72 .f32 := exp v34
  have v36 : FVec F S20x72 .f32 := multiReduction .add [2] S20x72 v35 0x00000000#32 reduces_S20x72x72_S20x72 (.inl rfl) rfl
  have v37 : FVec F S20x72x1 .f32 := shapeCast S20x72x1 v36 shapeCasts_S20x72_S20x72x1
  have v38 : FVec F S20x72x72 .f32 := broadcastTo S20x72x72 v37 broadcasts_S20x72x1_S20x72x72
  have v39 : FVec F S20x72x72 .f32 := divf v35 v38
  have v40 : FVec F S20x72x72 .bf16 := truncf .bf16 v39 bitsLt_bf16_f32
  have cst_22 : FVec F S20x72x32 .f32 := constant S20x72x32 .f32 0x00000000#32
  have v41 : FVec F S20x72x32 .f32 := matmul dot_S20x72x72_S20x72x32_S20x72x32_2_1_1_2_0_0 none v40 v23 cst_22
  have v42 : FVec F S1440x32 .f32 := shapeCast S1440x32 v41 shapeCasts_S20x72x32_S1440x32
  have v43 : FVec F S1440x32 .bf16 := truncf .bf16 v42 bitsLt_bf16_f32
  have v46 : FVec F S1440x32 .bf16 := shapeCast S1440x32 v43 shapeCasts_S1440x32_S1440x32
  v46

end Cert.Attn

end
-- ==== Proof.HeadValue.lean ====
/-
  One head of the body, read at an entry: row `rowOf g2 g n`, channel `d`.
-/
import proofs.«407614_j76390288327291_3_alg».proof.Proof.KDefs
import Idealize.ShloMosaic.Lib.ValueIdx
import Idealize.ShloMosaic.Lib.Pipeline.Value
import Idealize.ShloMosaic.PureOps.Ideal.Laws

noncomputable section

namespace Cert.Attn

open Idealize.ShloMosaic Idealize.ShloMosaic.ValueIdx Cert.KernelIdeal Cert.KernelIdeal.Gen

namespace HeadValue

/-- The window of batch item `g2` at window position `g`, among the block's twenty. -/
def win (g2 : Fin 2) (g : Fin 10) : Fin 20 := ⟨g2.val * 10 + g.val, by omega⟩

/-- The cast of the 1440 rows to twenty windows of 72 reads window `G`, token `n` at row `72 G + n`. -/
theorem toWin_apply {α : Type} (x : S1440x32.Idx → α) (G : Fin 20) (n : Fin 72) (d : Fin 32) :
    shapeCast S20x72x32 x shapeCasts_S1440x32_S20x72x32 (ix3 G n d)
      = x (ix2 (⟨G.val * 72 + n.val, by omega⟩ : Fin 1440) d) :=
  shapeCast_apply x shapeCasts_S1440x32_S20x72x32 (ix3 G n d) (ix2 (⟨G.val * 72 + n.val, by omega⟩ : Fin 1440) d)
    (by rw [Shape.rowMajor_val_two, Shape.rowMajor_val_three]; rfl)

/-- The cast back reads row `72 G + n` at window `G`, token `n`. -/
theorem ofWin_apply {α : Type} (x : S20x72x32.Idx → α) (G : Fin 20) (n : Fin 72) (d : Fin 32) :
    shapeCast S1440x32 x shapeCasts_S20x72x32_S1440x32 (ix2 (⟨G.val * 72 + n.val, by omega⟩ : Fin 1440) d)
      = x (ix3 G n d) :=
  shapeCast_apply x shapeCasts_S20x72x32_S1440x32 (ix2 (⟨G.val * 72 + n.val, by omega⟩ : Fin 1440) d) (ix3 G n d)
    (by rw [Shape.rowMajor_val_two, Shape.rowMajor_val_three]; rfl)

/-! ### The logits product: batch axis 0, rows axis 1, contraction over axis 2 of both operands -/

theorem qk_lhs_0 (i : S20x72x72.Idx) (q : dot_S20x72x32_S20x72x32_S20x72x72_2_2_1_1_0_0.contr.Idx) :
    (dot_S20x72x32_S20x72x32_S20x72x72_2_2_1_1_0_0.lhsIdx i q 0).val = (i 0).val := by
  unfold DotDims.lhsIdx
  rw [dif_pos (show (0 : Fin S20x72x32.rank) ∈ dot_S20x72x32_S20x72x32_S20x72x72_2_2_1_1_0_0.lhsBatch by decide)]
  rfl
theorem qk_lhs_1 (i : S20x72x72.Idx) (q : dot_S20x72x32_S20x72x32_S20x72x72_2_2_1_1_0_0.contr.Idx) :
    (dot_S20x72x32_S20x72x32_S20x72x72_2_2_1_1_0_0.lhsIdx i q 1).val = (i 1).val := by
  unfold DotDims.lhsIdx
  rw [dif_neg (show ¬(1 : Fin S20x72x32.rank) ∈ dot_S20x72x32_S20x72x32_S20x72x72_2_2_1_1_0_0.lhsBatch by decide),
    dif_pos (show (1 : Fin S20x72x32.rank) ∈ dot_S20x72x32_S20x72x32_S20x72x72_2_2_1_1_0_0.lhsNonContracting by decide)]
  rfl
theorem qk_lhs_2 (i : S20x72x72.Idx) (q : dot_S20x72x32_S20x72x32_S20x72x72_2_2_1_1_0_0.contr.Idx) :
    (dot_S20x72x32_S20x72x32_S20x72x72_2_2_1_1_0_0.lhsIdx i q 2).val = (q ⟨0, by decide⟩).val :=
  dot_S20x72x32_S20x72x32_S20x72x72_2_2_1_1_0_0.lhsIdx_val_of_single rfl i q
theorem qk_rhs_0 (i : S20x72x72.Idx) (q : dot_S20x72x32_S20x72x32_S20x72x72_2_2_1_1_0_0.contr.Idx) :
    (dot_S20x72x32_S20x72x32_S20x72x72_2_2_1_1_0_0.rhsIdx i q 0).val = (i 0).val := by
  unfold DotDims.rhsIdx
  rw [dif_pos (show (0 : Fin S20x72x32.rank) ∈ dot_S20x72x32_S20x72x32_S20x72x72_2_2_1_1_0_0.rhsBatch by decide)]
  rfl
theorem qk_rhs_1 (i : S20x72x72.Idx) (q : dot_S20x72x32_S20x72x32_S20x72x72_2_2_1_1_0_0.contr.Idx) :
    (dot_S20x72x32_S20x72x32_S20x72x72_2_2_1_1_0_0.rhsIdx i q 1).val = (i 2).val := by
  unfold DotDims.rhsIdx
  rw [dif_neg (show ¬(1 : Fin S20x72x32.rank) ∈ dot_S20x72x32_S20x72x32_S20x72x72_2_2_1_1_0_0.rhsBatch by decide),
    dif_pos (show (1 : Fin S20x72x32.rank) ∈ dot_S20x72x32_S20x72x32_S20x72x72_2_2_1_1_0_0.rhsNonContracting by decide)]
  rfl
theorem qk_rhs_2 (i : S20x72x72.Idx) (q : dot_S20x72x32_S20x72x32_S20x72x72_2_2_1_1_0_0.contr.Idx) :
    (dot_S20x72x32_S20x72x32_S20x72x72_2_2_1_1_0_0.rhsIdx i q 2).val = (q ⟨0, by decide⟩).val :=
  dot_S20x72x32_S20x72x32_S20x72x72_2_2_1_1_0_0.rhsIdx_val_of_single rfl i q

/-- The logits product at window `G`, query token `n`, key token `m`: the sum over the 32 channels. -/
theorem qk_apply {φ₁ φ₂ : FTy} (L : FVec Ideal S20x72x32 φ₁) (R : FVec Ideal S20x72x32 φ₂) (G : Fin 20) (n m : Fin 72) :
    matmul dot_S20x72x32_S20x72x32_S20x72x72_2_2_1_1_0_0 none L R (constant S20x72x72 .f32 0x00000000#32) (ix3 G n m)
      = ∑ d : Fin 32, L (ix3 G n d) * R (ix3 G m d) := by
  simp only [matmul]
  rw [Ideal.matmul_constant_zero_apply,
    ← Equiv.sum_comp (contrEquiv1 dot_S20x72x32_S20x72x32_S20x72x72_2_2_1_1_0_0 32 rfl rfl).symm]
  refine Finset.sum_congr rfl fun k _ => ?_
  have hk := contrEquiv1_symm_val dot_S20x72x32_S20x72x32_S20x72x72_2_2_1_1_0_0 32 rfl rfl k
  have el : dot_S20x72x32_S20x72x32_S20x72x72_2_2_1_1_0_0.lhsIdx (ix3 G n m)
      ((contrEquiv1 dot_S20x72x32_S20x72x32_S20x72x72_2_2_1_1_0_0 32 rfl rfl).symm k) = ix3 G n k :=
    funext fun a => Fin.ext (by
      match a with
      | ⟨0, _⟩ => exact qk_lhs_0 _ _
      | ⟨1, _⟩ => exact qk_lhs_1 _ _
      | ⟨2, _⟩ => exact (qk_lhs_2 _ _).trans hk)
  have er : dot_S20x72x32_S20x72x32_S20x72x72_2_2_1_1_0_0.rhsIdx (ix3 G n m)
      ((contrEquiv1 dot_S20x72x32_S20x72x32_S20x72x72_2_2_1_1_0_0 32 rfl rfl).symm k) = ix3 G m k :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

/-! ### The values product: batch axis 0, contraction of the left's axis 2 with the right's axis 1 -/

theorem pv_lhs_0 (i : S20x72x32.Idx) (q : dot_S20x72x72_S20x72x32_S20x72x32_2_1_1_2_0_0.contr.Idx) :
    (dot_S20x72x72_S20x72x32_S20x72x32_2_1_1_2_0_0.lhsIdx i q 0).val = (i 0).val := by
  unfold DotDims.lhsIdx
  rw [dif_pos (show (0 : Fin S20x72x72.rank) ∈ dot_S20x72x72_S20x72x32_S20x72x32_2_1_1_2_0_0.lhsBatch by decide)]
  rfl
theorem pv_lhs_1 (i : S20x72x32.Idx) (q : dot_S20x72x72_S20x72x32_S20x72x32_2_1_1_2_0_0.contr.Idx) :
    (dot_S20x72x72_S20x72x32_S20x72x32_2_1_1_2_0_0.lhsIdx i q 1).val = (i 1).val := by
  unfold DotDims.lhsIdx
  rw [dif_neg (show ¬(1 : Fin S20x72x72.rank) ∈ dot_S20x72x72_S20x72x32_S20x72x32_2_1_1_2_0_0.lhsBatch by decide),
    dif_pos (show (1 : Fin S20x72x72.rank) ∈ dot_S20x72x72_S20x72x32_S20x72x32_2_1_1_2_0_0.lhsNonContracting by decide)]
  rfl
theorem pv_lhs_2 (i : S20x72x32.Idx) (q : dot_S20x72x72_S20x72x32_S20x72x32_2_1_1_2_0_0.contr.Idx) :
    (dot_S20x72x72_S20x72x32_S20x72x32_2_1_1_2_0_0.lhsIdx i q 2).val = (q ⟨0, by decide⟩).val :=
  dot_S20x72x72_S20x72x32_S20x72x32_2_1_1_2_0_0.lhsIdx_val_of_single rfl i q
theorem pv_rhs_0 (i : S20x72x32.Idx) (q : dot_S20x72x72_S20x72x32_S20x72x32_2_1_1_2_0_0.contr.Idx) :
    (dot_S20x72x72_S20x72x32_S20x72x32_2_1_1_2_0_0.rhsIdx i q 0).val = (i 0).val := by
  unfold DotDims.rhsIdx
  rw [dif_pos (show (0 : Fin S20x72x32.rank) ∈ dot_S20x72x72_S20x72x32_S20x72x32_2_1_1_2_0_0.rhsBatch by decide)]
  rfl
theorem pv_rhs_1 (i : S20x72x32.Idx) (q : dot_S20x72x72_S20x72x32_S20x72x32_2_1_1_2_0_0.contr.Idx) :
    (dot_S20x72x72_S20x72x32_S20x72x32_2_1_1_2_0_0.rhsIdx i q 1).val = (q ⟨0, by decide⟩).val :=
  dot_S20x72x72_S20x72x32_S20x72x32_2_1_1_2_0_0.rhsIdx_val_of_single rfl i q
theorem pv_rhs_2 (i : S20x72x32.Idx) (q : dot_S20x72x72_S20x72x32_S20x72x32_2_1_1_2_0_0.contr.Idx) :
    (dot_S20x72x72_S20x72x32_S20x72x32_2_1_1_2_0_0.rhsIdx i q 2).val = (i 2).val := by
  unfold DotDims.rhsIdx
  rw [dif_neg (show ¬(2 : Fin S20x72x32.rank) ∈ dot_S20x72x72_S20x72x32_S20x72x32_2_1_1_2_0_0.rhsBatch by decide),
    dif_pos (show (2 : Fin S20x72x32.rank) ∈ dot_S20x72x72_S20x72x32_S20x72x32_2_1_1_2_0_0.rhsNonContracting by decide)]
  rfl

/-- The values product at window `G`, token `n`, channel `d`: the sum over the 72 key tokens. -/
theorem pv_apply {φ₁ φ₂ : FTy} (P : FVec Ideal S20x72x72 φ₁) (V : FVec Ideal S20x72x32 φ₂) (G : Fin 20) (n : Fin 72) (d : Fin 32) :
    matmul dot_S20x72x72_S20x72x32_S20x72x32_2_1_1_2_0_0 none P V (constant S20x72x32 .f32 0x00000000#32) (ix3 G n d)
      = ∑ m : Fin 72, P (ix3 G n m) * V (ix3 G m d) := by
  simp only [matmul]
  rw [Ideal.matmul_constant_zero_apply,
    ← Equiv.sum_comp (contrEquiv1 dot_S20x72x72_S20x72x32_S20x72x32_2_1_1_2_0_0 72 rfl rfl).symm]
  refine Finset.sum_congr rfl fun k _ => ?_
  have hk := contrEquiv1_symm_val dot_S20x72x72_S20x72x32_S20x72x32_2_1_1_2_0_0 72 rfl rfl k
  have el : dot_S20x72x72_S20x72x32_S20x72x32_2_1_1_2_0_0.lhsIdx (ix3 G n d)
      ((contrEquiv1 dot_S20x72x72_S20x72x32_S20x72x32_2_1_1_2_0_0 72 rfl rfl).symm k) = ix3 G n k :=
    funext fun a => Fin.ext (by
      match a with
      | ⟨0, _⟩ => exact pv_lhs_0 _ _
      | ⟨1, _⟩ => exact pv_lhs_1 _ _
      | ⟨2, _⟩ => exact (pv_lhs_2 _ _).trans hk)
  have er : dot_S20x72x72_S20x72x32_S20x72x32_2_1_1_2_0_0.rhsIdx (ix3 G n d)
      ((contrEquiv1 dot_S20x72x72_S20x72x32_S20x72x32_2_1_1_2_0_0 72 rfl rfl).symm k) = ix3 G k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! ### The bias: the head's slab, shared by the two batch items -/

/-- The slab cast to ten windows and laid twice along the window axis reads, at window `10 g2 + g`,
    the slab's window `g`, for either batch item. -/
theorem bias_apply {α : Type} (b : S10x1x72x72.Idx → α) (g2 : Fin 2) (g : Fin 10) (n m : Fin 72) :
    concatenate S20x72x72 0
        [⟨S10x72x72, shapeCast S10x72x72 b shapeCasts_S10x1x72x72_S10x72x72⟩,
         ⟨S10x72x72, shapeCast S10x72x72 b shapeCasts_S10x1x72x72_S10x72x72⟩]
        concatenates_S10x72x72_S10x72x72_S20x72x72_d0 (ix3 (win g2 g) n m)
      = b (ix4 g (0 : Fin 1) n m) := by
  have hc : shapeCast S10x72x72 b shapeCasts_S10x1x72x72_S10x72x72 (ix3 g n m) = b (ix4 g (0 : Fin 1) n m) :=
    shapeCast_apply b _ (ix3 g n m) (ix4 g (0 : Fin 1) n m)
      (by rw [Shape.rowMajor_val_four, Shape.rowMajor_val_three]
          show ((g.val * 1 + 0) * 72 + n.val) * 72 + m.val = (g.val * 72 + n.val) * 72 + m.val
          omega)
  generalize shapeCast S10x72x72 b shapeCasts_S10x1x72x72_S10x72x72 = y at hc ⊢
  rw [← hc]
  match g2 with
  | ⟨0, _⟩ =>
    exact concatenate_pair_apply_left (0 : Fin 3) y y _ (ix3 (win ⟨0, by omega⟩ g) n m) rfl (ix3 g n m)
      (fun a => by
        match a with
        | ⟨0, _⟩ => show g.val = 0 * 10 + g.val; omega
        | ⟨1, _⟩ => rfl
        | ⟨2, _⟩ => rfl)
  | ⟨1, _⟩ =>
    exact concatenate_pair_apply_right (0 : Fin 3) y y _ (ix3 (win ⟨1, by omega⟩ g) n m) rfl rfl (ix3 g n m)
      (fun a ha => by
        match a, ha with
        | ⟨0, _⟩, ha => exact absurd rfl ha
        | ⟨1, _⟩, _ => rfl
        | ⟨2, _⟩, _ => rfl)
      (by show g.val + 10 = 1 * 10 + g.val; omega)

/-! ### The reductions along the key axis, and the column laid back along it -/

/-- The maximum along the key axis at window `G`, token `n`: the fold of `max` over the 72 keys. -/
theorem rowMax_apply (x : FVec Ideal S20x72x72 .f32) (G : Fin 20) (n : Fin 72) :
    multiReduction (F := Ideal) .maximumf [2] S20x72 x 0xFF800000#32 reduces_S20x72x72_S20x72 (.inl rfl) rfl (ix2 G n)
      = (Finset.univ : Finset (Fin 72)).fold max (Ideal.ofBits .f32 0xFF800000#32) (fun m => x (ix3 G n m)) := by
  refine (Ideal.multiReduction_maximumf_single x 0xFF800000#32 reduces_S20x72x72_S20x72 (.inl rfl) rfl (ix2 G n)).trans ?_
  refine congrArg (fun f => (Finset.univ : Finset (Fin 72)).fold max (Ideal.ofBits .f32 0xFF800000#32) f) ?_
  funext m
  refine congrArg x (funext fun a => Fin.ext ?_)
  match a with
  | ⟨0, _⟩ => rfl
  | ⟨1, _⟩ => rfl
  | ⟨2, _⟩ => rfl

/-- The sum along the key axis at window `G`, token `n`: the sum over the 72 keys. -/
theorem rowSum_apply (x : FVec Ideal S20x72x72 .f32) (G : Fin 20) (n : Fin 72) :
    multiReduction (F := Ideal) .add [2] S20x72 x 0x00000000#32 reduces_S20x72x72_S20x72 (.inl rfl) rfl (ix2 G n)
      = ∑ m : Fin 72, x (ix3 G n m) := by
  refine (Ideal.multiReduction_add_single x 0x00000000#32 reduces_S20x72x72_S20x72 (.inl rfl) rfl (ix2 G n)).trans ?_
  refine Finset.sum_congr rfl fun m _ => ?_
  refine congrArg x (funext fun a => Fin.ext ?_)
  match a with
  | ⟨0, _⟩ => rfl
  | ⟨1, _⟩ => rfl
  | ⟨2, _⟩ => rfl

/-- A per-token column, given a trailing unit axis and laid along the key axis, reads the token's value at every key. -/
theorem keep_apply {α : Type} (y : S20x72.Idx → α) (G : Fin 20) (n m : Fin 72) :
    broadcastTo S20x72x72 (shapeCast S20x72x1 y shapeCasts_S20x72_S20x72x1) broadcasts_S20x72x1_S20x72x72 (ix3 G n m)
      = y (ix2 G n) := by
  refine (broadcastTo_apply _ broadcasts_S20x72x1_S20x72x72 (ix3 G n m) (ix3 G n (0 : Fin 1)) (fun a => by
    match a with
    | ⟨0, _⟩ => rfl
    | ⟨1, _⟩ => rfl
    | ⟨2, _⟩ => rfl)).trans ?_
  exact shapeCast_apply y shapeCasts_S20x72_S20x72x1 (ix3 G n (0 : Fin 1)) (ix2 G n)
    (by rw [Shape.rowMajor_val_two, Shape.rowMajor_val_three]
        show G.val * 72 + n.val = (G.val * 72 + n.val) * 1 + 0
        omega)

/-! ### The body's stages as functions of their inputs -/

/-- The exponential at an index, at the ideal values. -/
theorem exp_apply {s : Shape} {φ : FTy} (a : FVec Ideal s φ) (i : s.Idx) : exp a i = Ideal.exp (a i) := rfl

/-- The block's logits as the body forms them: the scaled queries against the keys, window by window, plus the bias. -/
def blockLogits (q k : Vec Ideal S1440x32 .f32) (b : Vec Ideal S10x1x72x72 .f32) : FVec Ideal S20x72x72 .f32 :=
  addf
    (matmul dot_S20x72x32_S20x72x32_S20x72x72_2_2_1_1_0_0 none
      (shapeCast S20x72x32
        (truncf .bf16 (mulf q (broadcast S1440x32 (Scalar.ofBits (F := Ideal) .f32 0x3E3504F3#32))) bitsLt_bf16_f32)
        shapeCasts_S1440x32_S20x72x32)
      (shapeCast S20x72x32 (truncf .bf16 k bitsLt_bf16_f32) shapeCasts_S1440x32_S20x72x32)
      (constant S20x72x72 .f32 0x00000000#32))
    (concatenate S20x72x72 0
      [⟨S10x72x72, shapeCast S10x72x72 b shapeCasts_S10x1x72x72_S10x72x72⟩,
       ⟨S10x72x72, shapeCast S10x72x72 b shapeCasts_S10x1x72x72_S10x72x72⟩]
      concatenates_S10x72x72_S10x72x72_S20x72x72_d0)

/-- The logits at window `10 g2 + g`, query token `n`, key token `m`. -/
theorem blockLogits_apply (q k : Vec Ideal S1440x32 .f32) (b : Vec Ideal S10x1x72x72 .f32)
    (g2 : Fin 2) (g : Fin 10) (n m : Fin 72) :
    blockLogits q k b (ix3 (win g2 g) n m)
      = logit (fun d' => q (ix2 (rowOf g2 g n) d')) (fun d' => k (ix2 (rowOf g2 g m) d')) scale
          (b (ix4 g (0 : Fin 1) n m)) := by
  unfold blockLogits logit
  rw [addf_apply, qk_apply, bias_apply]
  refine congrArg (· + b (ix4 g (0 : Fin 1) n m)) (Finset.sum_congr rfl fun d' _ => ?_)
  rw [toWin_apply, toWin_apply]
  rfl

/-- The exponentials of the logits less their row maximum, as the body forms them. -/
def blockExp (x : FVec Ideal S20x72x72 .f32) : FVec Ideal S20x72x72 .f32 :=
  exp (subf x
    (broadcastTo S20x72x72
      (shapeCast S20x72x1
        (maximumf (broadcast S20x72 (Scalar.ofBits (F := Ideal) .f32 0xFF800000#32))
          (multiReduction .maximumf [2] S20x72 x 0xFF800000#32 reduces_S20x72x72_S20x72 (.inl rfl) rfl))
        shapeCasts_S20x72_S20x72x1)
      broadcasts_S20x72x1_S20x72x72))

theorem blockExp_apply (x : FVec Ideal S20x72x72 .f32) (G : Fin 20) (n m : Fin 72) :
    blockExp x (ix3 G n m) = Ideal.exp (x (ix3 G n m) - rowMax ninf (fun m' => x (ix3 G n m'))) := by
  unfold blockExp
  rw [exp_apply, subf_apply, keep_apply, maximumf_apply, rowMax_apply]
  rfl

/-- The row softmax of the logits, as the body forms it. -/
def blockSoft (x : FVec Ideal S20x72x72 .f32) : FVec Ideal S20x72x72 .f32 :=
  divf (blockExp x)
    (broadcastTo S20x72x72
      (shapeCast S20x72x1
        (multiReduction .add [2] S20x72 (blockExp x) 0x00000000#32 reduces_S20x72x72_S20x72 (.inl rfl) rfl)
        shapeCasts_S20x72_S20x72x1)
      broadcasts_S20x72x1_S20x72x72)

theorem blockSoft_apply (x : FVec Ideal S20x72x72 .f32) (G : Fin 20) (n m : Fin 72) :
    blockSoft x (ix3 G n m) = softmaxRow ninf (fun m' => x (ix3 G n m')) m := by
  unfold blockSoft softmaxRow
  rw [divf_apply, keep_apply, rowSum_apply, blockExp_apply]
  refine congrArg (Ideal.div _) (Finset.sum_congr rfl fun k _ => ?_)
  exact blockExp_apply x G n k

/-- The head is the values product of the softmax of the logits, cast back to rows. -/
theorem headFn_eq (q k v : Vec Ideal S1440x32 .f32) (b : Vec Ideal S10x1x72x72 .f32) :
    headFn (F := Ideal) q k v b
      = shapeCast S1440x32
          (truncf .bf16
            (shapeCast S1440x32
              (matmul dot_S20x72x72_S20x72x32_S20x72x32_2_1_1_2_0_0 none
                (truncf .bf16 (blockSoft (blockLogits q k b)) bitsLt_bf16_f32)
                (shapeCast S20x72x32 (truncf .bf16 v bitsLt_bf16_f32) shapeCasts_S1440x32_S20x72x32)
                (constant S20x72x32 .f32 0x00000000#32))
              shapeCasts_S20x72x32_S1440x32)
            bitsLt_bf16_f32)
          shapeCasts_S1440x32_S1440x32 := rfl

end HeadValue

open HeadValue

/-- One head of the body at row `rowOf g2 g n`, channel `d`: the softmax over the window's keys of the scaled
    query-key logits plus the bias, applied to the window's values. -/
theorem headFn_apply (q k v : Vec Ideal S1440x32 .f32) (b : Vec Ideal S10x1x72x72 .f32)
    (g2 : Fin 2) (g : Fin 10) (n : Fin 72) (d : Fin 32) :
    headFn (F := Ideal) q k v b (ix2 (rowOf g2 g n) d)
      = attend (softmaxRow ninf fun m => logit (fun d' => q (ix2 (rowOf g2 g n) d')) (fun d' => k (ix2 (rowOf g2 g m) d')) scale
            (b (ix4 g (0 : Fin 1) n m)))
          (fun m => v (ix2 (rowOf g2 g m) d)) := by
  rw [headFn_eq, shapeCast_self, truncf_apply]
  refine (ofWin_apply _ (win g2 g) n d).trans ?_
  rw [pv_apply]
  unfold attend
  have hL : (fun m' => blockLogits q k b (ix3 (win g2 g) n m'))
      = fun m' => logit (fun d' => q (ix2 (rowOf g2 g n) d')) (fun d' => k (ix2 (rowOf g2 g m') d')) scale
          (b (ix4 g (0 : Fin 1) n m')) :=
    funext fun m' => blockLogits_apply q k b g2 g n m'
  refine Finset.sum_congr rfl fun m _ => ?_
  rw [truncf_apply, blockSoft_apply, hL, toWin_apply]
  rfl

end Cert.Attn

end
-- ==== Proof.ProjValue.lean ====
/-
  The body's two projections read at an entry: the joint query / key / value projection it stores in its
  first scratch, and the output projection it stores in the result block.
-/
import proofs.«407614_j76390288327291_3_alg».proof.Proof.Gen.KernelIdeal.Skeleton
import proofs.«407614_j76390288327291_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Idealize.ShloMosaic Idealize.ShloMosaic.ValueIdx Cert.KernelIdeal Cert.KernelIdeal.Gen

/-! ## The joint projection's product: a [1440, 384] by [384, 1152] matrix product, contracting the shared axis -/

/-- The left operand's row is the result's row. -/
theorem lhs_qkv_0 (i : S1440x1152.Idx) (q : dot_S1440x384_S384x1152_S1440x1152_1_0_0_1_n_n.contr.Idx) :
    (dot_S1440x384_S384x1152_S1440x1152_1_0_0_1_n_n.lhsIdx i q 0).val = (i 0).val := by
  unfold DotDims.lhsIdx
  rw [dif_neg (show ¬(0 : Fin S1440x384.rank) ∈ dot_S1440x384_S384x1152_S1440x1152_1_0_0_1_n_n.lhsBatch by decide), dif_pos (show (0 : Fin S1440x384.rank) ∈ dot_S1440x384_S384x1152_S1440x1152_1_0_0_1_n_n.lhsNonContracting by decide)]
  rfl
/-- The left operand's column is the contracted coordinate. -/
theorem lhs_qkv_1 (i : S1440x1152.Idx) (q : dot_S1440x384_S384x1152_S1440x1152_1_0_0_1_n_n.contr.Idx) :
    (dot_S1440x384_S384x1152_S1440x1152_1_0_0_1_n_n.lhsIdx i q 1).val = (q ⟨0, by decide⟩).val :=
  dot_S1440x384_S384x1152_S1440x1152_1_0_0_1_n_n.lhsIdx_val_of_single rfl i q
/-- The right operand's row is the contracted coordinate. -/
theorem rhs_qkv_0 (i : S1440x1152.Idx) (q : dot_S1440x384_S384x1152_S1440x1152_1_0_0_1_n_n.contr.Idx) :
    (dot_S1440x384_S384x1152_S1440x1152_1_0_0_1_n_n.rhsIdx i q 0).val = (q ⟨0, by decide⟩).val :=
  dot_S1440x384_S384x1152_S1440x1152_1_0_0_1_n_n.rhsIdx_val_of_single rfl i q
/-- The right operand's column is the result's column. -/
theorem rhs_qkv_1 (i : S1440x1152.Idx) (q : dot_S1440x384_S384x1152_S1440x1152_1_0_0_1_n_n.contr.Idx) :
    (dot_S1440x384_S384x1152_S1440x1152_1_0_0_1_n_n.rhsIdx i q 1).val = (i 1).val := by
  unfold DotDims.rhsIdx
  rw [dif_neg (show ¬(1 : Fin S384x1152.rank) ∈ dot_S1440x384_S384x1152_S1440x1152_1_0_0_1_n_n.rhsBatch by decide), dif_pos (show (1 : Fin S384x1152.rank) ∈ dot_S1440x384_S384x1152_S1440x1152_1_0_0_1_n_n.rhsNonContracting by decide)]
  rfl

/-- The plain matrix product into a zero accumulator, at an entry: the sum over the shared axis of row entry
    times column entry. -/
theorem matmul_qkv_apply (A : FVec Ideal S1440x384 .bf16) (B : FVec Ideal S384x1152 .bf16) (r : Fin 1440) (o : Fin 1152) :
    matmul dot_S1440x384_S384x1152_S1440x1152_1_0_0_1_n_n none A B (constant (F := Ideal) S1440x1152 .f32 0x00000000#32) (ix2 r o)
      = ∑ c : Fin 384, A (ix2 r c) * B (ix2 c o) := by
  refine (Ideal.matmul_constant_zero_apply dot_S1440x384_S384x1152_S1440x1152_1_0_0_1_n_n none A B (ix2 r o)).trans ?_
  rw [← Equiv.sum_comp (contrEquiv1 dot_S1440x384_S384x1152_S1440x1152_1_0_0_1_n_n 384 rfl rfl).symm]
  refine Finset.sum_congr rfl fun k _ => ?_
  have hk := contrEquiv1_symm_val dot_S1440x384_S384x1152_S1440x1152_1_0_0_1_n_n 384 rfl rfl k
  have el : dot_S1440x384_S384x1152_S1440x1152_1_0_0_1_n_n.lhsIdx (ix2 r o) ((contrEquiv1 dot_S1440x384_S384x1152_S1440x1152_1_0_0_1_n_n 384 rfl rfl).symm k) = ix2 r k := funext fun a => Fin.ext (by
    match a with
    | ⟨0, _⟩ => exact lhs_qkv_0 _ _
    | ⟨1, _⟩ => exact (lhs_qkv_1 _ _).trans hk)
  have er : dot_S1440x384_S384x1152_S1440x1152_1_0_0_1_n_n.rhsIdx (ix2 r o) ((contrEquiv1 dot_S1440x384_S384x1152_S1440x1152_1_0_0_1_n_n 384 rfl rfl).symm k) = ix2 k o := funext fun a => Fin.ext (by
    match a with
    | ⟨0, _⟩ => exact (rhs_qkv_0 _ _).trans hk
    | ⟨1, _⟩ => exact rhs_qkv_1 _ _)
  rw [el, er]

/-! ## The output projection's product: a [1440, 384] by [384, 384] matrix product, contracting the shared axis -/

/-- The left operand's row is the result's row. -/
theorem lhs_out_0 (i : S1440x384.Idx) (q : dot_S1440x384_S384x384_S1440x384_1_0_0_1_n_n.contr.Idx) :
    (dot_S1440x384_S384x384_S1440x384_1_0_0_1_n_n.lhsIdx i q 0).val = (i 0).val := by
  unfold DotDims.lhsIdx
  rw [dif_neg (show ¬(0 : Fin S1440x384.rank) ∈ dot_S1440x384_S384x384_S1440x384_1_0_0_1_n_n.lhsBatch by decide), dif_pos (show (0 : Fin S1440x384.rank) ∈ dot_S1440x384_S384x384_S1440x384_1_0_0_1_n_n.lhsNonContracting by decide)]
  rfl
/-- The left operand's column is the contracted coordinate. -/
theorem lhs_out_1 (i : S1440x384.Idx) (q : dot_S1440x384_S384x384_S1440x384_1_0_0_1_n_n.contr.Idx) :
    (dot_S1440x384_S384x384_S1440x384_1_0_0_1_n_n.lhsIdx i q 1).val = (q ⟨0, by decide⟩).val :=
  dot_S1440x384_S384x384_S1440x384_1_0_0_1_n_n.lhsIdx_val_of_single rfl i q
/-- The right operand's row is the contracted coordinate. -/
theorem rhs_out_0 (i : S1440x384.Idx) (q : dot_S1440x384_S384x384_S1440x384_1_0_0_1_n_n.contr.Idx) :
    (dot_S1440x384_S384x384_S1440x384_1_0_0_1_n_n.rhsIdx i q 0).val = (q ⟨0, by decide⟩).val :=
  dot_S1440x384_S384x384_S1440x384_1_0_0_1_n_n.rhsIdx_val_of_single rfl i q
/-- The right operand's column is the result's column. -/
theorem rhs_out_1 (i : S1440x384.Idx) (q : dot_S1440x384_S384x384_S1440x384_1_0_0_1_n_n.contr.Idx) :
    (dot_S1440x384_S384x384_S1440x384_1_0_0_1_n_n.rhsIdx i q 1).val = (i 1).val := by
  unfold DotDims.rhsIdx
  rw [dif_neg (show ¬(1 : Fin S384x384.rank) ∈ dot_S1440x384_S384x384_S1440x384_1_0_0_1_n_n.rhsBatch by decide), dif_pos (show (1 : Fin S384x384.rank) ∈ dot_S1440x384_S384x384_S1440x384_1_0_0_1_n_n.rhsNonContracting by decide)]
  rfl

/-- The plain matrix product into a zero accumulator, at an entry: the sum over the shared axis of row entry
    times column entry. -/
theorem matmul_out_apply (A : FVec Ideal S1440x384 .bf16) (B : FVec Ideal S384x384 .bf16) (r : Fin 1440) (o : Fin 384) :
    matmul dot_S1440x384_S384x384_S1440x384_1_0_0_1_n_n none A B (constant (F := Ideal) S1440x384 .f32 0x00000000#32) (ix2 r o)
      = ∑ c : Fin 384, A (ix2 r c) * B (ix2 c o) := by
  refine (Ideal.matmul_constant_zero_apply dot_S1440x384_S384x384_S1440x384_1_0_0_1_n_n none A B (ix2 r o)).trans ?_
  rw [← Equiv.sum_comp (contrEquiv1 dot_S1440x384_S384x384_S1440x384_1_0_0_1_n_n 384 rfl rfl).symm]
  refine Finset.sum_congr rfl fun k _ => ?_
  have hk := contrEquiv1_symm_val dot_S1440x384_S384x384_S1440x384_1_0_0_1_n_n 384 rfl rfl k
  have el : dot_S1440x384_S384x384_S1440x384_1_0_0_1_n_n.lhsIdx (ix2 r o) ((contrEquiv1 dot_S1440x384_S384x384_S1440x384_1_0_0_1_n_n 384 rfl rfl).symm k) = ix2 r k := funext fun a => Fin.ext (by
    match a with
    | ⟨0, _⟩ => exact lhs_out_0 _ _
    | ⟨1, _⟩ => exact (lhs_out_1 _ _).trans hk)
  have er : dot_S1440x384_S384x384_S1440x384_1_0_0_1_n_n.rhsIdx (ix2 r o) ((contrEquiv1 dot_S1440x384_S384x384_S1440x384_1_0_0_1_n_n 384 rfl rfl).symm k) = ix2 k o := funext fun a => Fin.ext (by
    match a with
    | ⟨0, _⟩ => exact (rhs_out_0 _ _).trans hk
    | ⟨1, _⟩ => exact rhs_out_1 _ _)
  rw [el, er]

/-! ## The two stored values at an entry -/

/-- The joint projection the body stores first: the 1440 window rows are the row-major flattening of the block's three
    leading axes, the product is plain, and the one bias row is repeated down the rows. -/
theorem qkvBlock_apply (x0 : Vec Ideal S2x10x72x384 .bf16) (x1 : Vec Ideal S384x1152 .bf16) (x2 : Vec Ideal S1x1152 .f32)
    (g2 : Fin 2) (g : Fin 10) (n : Fin 72) (o : Fin 1152) :
    k0_pay3 (F := Ideal) x0 x1 x2 (ix2 (rowOf g2 g n) o)
      = proj (fun c : Fin 384 => x0 (ix4 g2 g n c)) (fun c => x1 (ix2 c o)) (x2 (ix2 (0 : Fin 1) o)) := by
  unfold k0_pay3
  simp only [shapeCast_self]
  rw [addf_apply, matmul_qkv_apply, broadcastTo_1b_ab_apply]
  unfold proj
  congr 1
  refine Finset.sum_congr rfl fun c _ => ?_
  congr 1
  exact shapeCast_apply x0 _ (ix2 (rowOf g2 g n) c) (ix4 g2 g n c) (by
    rw [Shape.rowMajor_val_four, Shape.rowMajor_val_two]
    rfl)

/-- The output projection the body stores in the result block: the same plain product and repeated bias row, and the
    1440 rows are cast back to the block's three leading axes. -/
theorem outBlock_apply (O : Vec Ideal S1440x384 .bf16) (x3 : Vec Ideal S384x384 .bf16) (x4 : Vec Ideal S1x384 .f32)
    (g2 : Fin 2) (g : Fin 10) (n : Fin 72) (o : Fin 384) :
    k0_pay2 (F := Ideal) O x3 x4 (ix4 g2 g n o)
      = proj (fun c : Fin 384 => O (ix2 (rowOf g2 g n) c)) (fun c => x3 (ix2 c o)) (x4 (ix2 (0 : Fin 1) o)) := by
  unfold k0_pay2
  simp only [shapeCast_self]
  refine (shapeCast_apply _ _ (ix4 g2 g n o) (ix2 (rowOf g2 g n) o) (by
    rw [Shape.rowMajor_val_four, Shape.rowMajor_val_two]
    rfl)).trans ?_
  rw [addf_apply, matmul_out_apply, broadcastTo_1b_ab_apply]
  rfl

end Cert.Attn

end
-- ==== Proof.Body.lean ====
/-
  The kernel body as ONE function of its six input blocks.

  The body first stores the joint projection of the block's 1440 rows in a scratch of 1440 × 1152, then, head by
  head, loads the head's query, key and value columns back from it (columns 32·h, 384 + 32·h and 768 + 32·h on),
  loads the head's slab of the position bias, and stores the head's context in columns 32·h … 32·h + 31 of a second
  scratch of 1440 × 384; last it loads that scratch whole and stores its output projection as the result block.
  Read back, the twelve column stores of the second scratch are one function of its index: column `c` belongs to
  head `c / 32`, channel `c % 32`. Each head's stored value is the one head function `headFn` of its own columns,
  whatever way the printed body happens to be cut into named terms.
-/
import proofs.«407614_j76390288327291_3_alg».proof.Proof.Gen.KernelIdeal.Frame
import proofs.«407614_j76390288327291_3_alg».proof.Proof.KDefs
import proofs.«407614_j76390288327291_3_alg».proof.Proof.HeadValue
import proofs.«407614_j76390288327291_3_alg».proof.Proof.ProjValue
import Idealize.ShloMosaic.Lib.Pipeline.Value

set_option maxRecDepth 16384

noncomputable section

namespace Cert.Attn

open Idealize.ShloMosaic Idealize.ShloMosaic.ValueIdx Idealize.ShloMosaic.TcCoe Idealize.ShloMosaic.Tactic
open Cert.KernelIdeal Cert.KernelIdeal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-! ## The pieces of the block, as functions of the input blocks -/

/-- Thirty-two consecutive columns of the joint projection, from column `off` on. -/
def colsFrom (A : Vec F S1440x1152 .f32) (off : ℕ) (hoff : off + 32 ≤ 1152) : Vec F S1440x32 .f32 :=
  fun j => A (ix2 (j 0) (⟨off + (j 1).val, by have h1 : (j 1).val < 32 := (j 1).isLt; omega⟩ : Fin 1152))

/-- Head `h`'s slab of the block's position bias. -/
def slabOf (x5 : Vec F S10x12x72x72 .f32) (h : Fin 12) : Vec F S10x1x72x72 .f32 :=
  fun j => x5 (ix4 (j 0) h (j 2) (j 3))

/-- Head `h`'s context on the block: the head function of the head's columns of the joint projection and its bias slab. -/
def headCols (x0 : Vec F S2x10x72x384 .bf16) (x1 : Vec F S384x1152 .bf16) (x2 : Vec F S1x1152 .f32) (x5 : Vec F S10x12x72x72 .f32)
    (h : Fin 12) : FVec F S1440x32 .bf16 :=
  headFn (colsFrom (k0_pay3 x0 x1 x2) (32 * h.val) (by have := h.isLt; omega))
    (colsFrom (k0_pay3 x0 x1 x2) (384 + 32 * h.val) (by have := h.isLt; omega))
    (colsFrom (k0_pay3 x0 x1 x2) (768 + 32 * h.val) (by have := h.isLt; omega)) (slabOf x5 h)

/-- The whole context scratch: column `c` is channel `c % 32` of head `c / 32`. -/
def ctxBlock (x0 : Vec F S2x10x72x384 .bf16) (x1 : Vec F S384x1152 .bf16) (x2 : Vec F S1x1152 .f32) (x5 : Vec F S10x12x72x72 .f32) :
    Vec F S1440x384 .bf16 :=
  fun y => headCols x0 x1 x2 x5 (⟨(y 1).val / 32, by have h1 : (y 1).val < 384 := (y 1).isLt; omega⟩ : Fin 12)
    (ix2 (y 0) (⟨(y 1).val % 32, Nat.mod_lt _ (by decide)⟩ : Fin 32))

/-- The context scratch at row `r`, column `32·h + d`. -/
theorem ctxBlock_at (x0 : Vec F S2x10x72x384 .bf16) (x1 : Vec F S384x1152 .bf16) (x2 : Vec F S1x1152 .f32) (x5 : Vec F S10x12x72x72 .f32)
    (h : Fin 12) (r : Fin 1440) (d : Fin 32) (y : S1440x384.Idx) (hy0 : (y 0).val = r.val) (hy1 : (y 1).val = 32 * h.val + d.val) :
    ctxBlock x0 x1 x2 x5 y = headCols x0 x1 x2 x5 h (ix2 r d) := by
  have e1 : (⟨(y 1).val / 32, by have h1 : (y 1).val < 384 := (y 1).isLt; omega⟩ : Fin 12) = h := Fin.ext (by have := d.isLt; show (y 1).val / 32 = h.val; omega)
  have e2 : (⟨(y 1).val % 32, Nat.mod_lt _ (by decide)⟩ : Fin 32) = d := Fin.ext (by have := d.isLt; show (y 1).val % 32 = d.val; omega)
  have e3 : y 0 = r := Fin.ext hy0
  unfold ctxBlock
  rw [e1, e2, e3]

/-! ## The loads of the first scratch read the stored joint projection -/

/-- A load of thirty-two columns of the first scratch, after the one whole store into it, reads those columns of the
    stored joint projection. -/
theorem load_cols (c : Dev nD) (arg2 : Memref sig .tc .vmem S2x10x72x384 .bf16) (harg2 : arg2.IsWhole) (arg3 : Memref sig .tc .vmem S384x1152 .bf16) (harg3 : arg3.IsWhole) (arg4 : Memref sig .tc .vmem S1x1152 .f32) (harg4 : arg4.IsWhole) (arg9 : Memref sig .tc .vmem S1440x1152 .f32)
    (x0 : Vec F S2x10x72x384 .bf16) (x1 : Vec F S384x1152 .bf16) (x2 : Vec F S1x1152 .f32)
    (off : ℕ) (hoff : off + 32 ≤ 1152) (inb : ∀ a, (![0, off] : Fin 2 → ℕ) a + S1440x32.size a ≤ S1440x1152.size a) :
    arg9.view.readCov (kernelRun0_A.sl.HS0_1 c arg2 harg2 arg3 harg3 arg4 harg4 x0 x1 x2)
        (Rect.unit (s := S1440x1152) ![0, off] S1440x32.size inb).toLoadRect
      = colsFrom (k0_pay3 x0 x1 x2) off hoff := by
  rw [View.readCov_eq_canon']
  unfold kernelRun0_A.sl.HS0_1
  rw [View.canon_unit_zero zero2]
  simp only [View.readAt_eq_ld, Memref.IsWhole.read_unread, View.ld_unit_zero (S := S2x10x72x384) zero4,
    View.ld_unit_zero (S := S384x1152) zero2, View.ld_unit_zero (S := S1x1152) zero2]
  funext j
  unfold colsFrom
  congr 1
  funext a
  apply Fin.ext
  match a with
  | ⟨0, _⟩ => show 0 + 1 * (j 0).val = (j 0).val; omega
  | ⟨1, _⟩ => show off + 1 * (j 1).val = off + (j 1).val; omega

/-- A load of head `h`'s slab of the bias block reads that slab. -/
theorem load_slab (arg7 : Memref sig .tc .vmem S10x12x72x72 .f32) (harg7 : arg7.IsWhole) (x5 : Vec F S10x12x72x72 .f32)
    (h : Fin 12) (inb : ∀ a, (![0, h.val, 0, 0] : Fin 4 → ℕ) a + S10x1x72x72.size a ≤ S10x12x72x72.size a) :
    View.readAt (Elt F) arg7.view (Rect.unit (s := S10x12x72x72) ![0, h.val, 0, 0] S10x1x72x72.size inb).toLoadRect (harg7.unread x5)
      = slabOf x5 h := by
  rw [View.readAt_eq_ld, Memref.IsWhole.read_unread]
  funext j
  unfold slabOf
  show x5 ((Rect.unit (s := S10x12x72x72) ![0, h.val, 0, 0] S10x1x72x72.size inb).emb j) = _
  congr 1
  funext a
  apply Fin.ext
  match a with
  | ⟨0, _⟩ => show 0 + 1 * (j 0).val = (j 0).val; omega
  | ⟨1, _⟩ => show h.val + 1 * (j 1).val = h.val; have h1 : (j 1).val < 1 := (j 1).isLt; omega
  | ⟨2, _⟩ => show 0 + 1 * (j 2).val = (j 2).val; omega
  | ⟨3, _⟩ => show 0 + 1 * (j 3).val = (j 3).val; omega

/-! ## Each head's stored value is the head function of its own columns -/

/-- The argument, once: the head function of loads that read head `h`'s query, key and value columns and its bias slab
    is `headCols` at `h`. -/
theorem stored_eq (x0 : Vec F S2x10x72x384 .bf16) (x1 : Vec F S384x1152 .bf16) (x2 : Vec F S1x1152 .f32) (x5 : Vec F S10x12x72x72 .f32)
    (h : Fin 12) (q k v : Vec F S1440x32 .f32) (b : Vec F S10x1x72x72 .f32)
    (hq : q = colsFrom (k0_pay3 x0 x1 x2) (32 * h.val) (by have := h.isLt; omega))
    (hk : k = colsFrom (k0_pay3 x0 x1 x2) (384 + 32 * h.val) (by have := h.isLt; omega))
    (hv : v = colsFrom (k0_pay3 x0 x1 x2) (768 + 32 * h.val) (by have := h.isLt; omega))
    (hb : b = slabOf x5 h) :
    headFn q k v b = headCols x0 x1 x2 x5 h := by
  subst hq hk hv hb; rfl

section Pieces
variable (c : Dev nD) (arg2 : Memref sig .tc .vmem S2x10x72x384 .bf16) (harg2 : arg2.IsWhole) (arg3 : Memref sig .tc .vmem S384x1152 .bf16) (harg3 : arg3.IsWhole) (arg4 : Memref sig .tc .vmem S1x1152 .f32) (harg4 : arg4.IsWhole) (arg7 : Memref sig .tc .vmem S10x12x72x72 .f32) (harg7 : arg7.IsWhole) (arg9 : Memref sig .tc .vmem S1440x1152 .f32)
  (x0 : Vec F S2x10x72x384 .bf16) (x1 : Vec F S384x1152 .bf16) (x2 : Vec F S1x1152 .f32) (x5 : Vec F S10x12x72x72 .f32)

/- One instance per head. The left side is the head's stored value as the printed body names it (its cut into named
   terms differs from head to head); it unfolds to the head function of the three loads named on the right. -/

theorem head0_stored :
    k0_pay7 (kernelRun0_A.sl.r c arg2 harg2 arg3 harg3 arg4 harg4 arg9 x0 x1 x2) (kernelRun0_A.sl.r_1 c arg2 harg2 arg3 harg3 arg4 harg4 arg7 harg7 arg9 x0 x1 x2 x5) (kernelRun0_A.sl.r_2 c arg2 harg2 arg3 harg3 arg4 harg4 arg7 harg7 arg9 x0 x1 x2 x5)
      = headCols x0 x1 x2 x5 (0 : Fin 12) :=
  stored_eq x0 x1 x2 x5 0 _ _ _ _
    (load_cols c arg2 harg2 arg3 harg3 arg4 harg4 arg9 x0 x1 x2 0 (by decide) inb_S1440x1152_S1440x32_0_0)
    (load_cols c arg2 harg2 arg3 harg3 arg4 harg4 arg9 x0 x1 x2 384 (by decide) inb_S1440x1152_S1440x32_0_384)
    (load_cols c arg2 harg2 arg3 harg3 arg4 harg4 arg9 x0 x1 x2 768 (by decide) inb_S1440x1152_S1440x32_0_768)
    (load_slab arg7 harg7 x5 0 inb_S10x12x72x72_S10x1x72x72_0_0_0_0)

theorem head1_stored :
    k0_pay11 (kernelRun0_A.sl.r_3 c arg2 harg2 arg3 harg3 arg4 harg4 arg9 x0 x1 x2) (kernelRun0_A.sl.r_4 c arg2 harg2 arg3 harg3 arg4 harg4 arg7 harg7 arg9 x0 x1 x2 x5) (kernelRun0_A.sl.r_5 c arg2 harg2 arg3 harg3 arg4 harg4 arg7 harg7 arg9 x0 x1 x2 x5)
      = headCols x0 x1 x2 x5 (1 : Fin 12) :=
  stored_eq x0 x1 x2 x5 1 _ _ _ _
    (load_cols c arg2 harg2 arg3 harg3 arg4 harg4 arg9 x0 x1 x2 32 (by decide) inb_S1440x1152_S1440x32_0_32)
    (load_cols c arg2 harg2 arg3 harg3 arg4 harg4 arg9 x0 x1 x2 416 (by decide) inb_S1440x1152_S1440x32_0_416)
    (load_cols c arg2 harg2 arg3 harg3 arg4 harg4 arg9 x0 x1 x2 800 (by decide) inb_S1440x1152_S1440x32_0_800)
    (load_slab arg7 harg7 x5 1 inb_S10x12x72x72_S10x1x72x72_0_1_0_0)

theorem head2_stored :
    k0_pay13 (kernelRun0_A.sl.r_6 c arg2 harg2 arg3 harg3 arg4 harg4 arg7 harg7 arg9 x0 x1 x2 x5)
      = headCols x0 x1 x2 x5 (2 : Fin 12) :=
  stored_eq x0 x1 x2 x5 2 _ _ _ _
    (load_cols c arg2 harg2 arg3 harg3 arg4 harg4 arg9 x0 x1 x2 64 (by decide) inb_S1440x1152_S1440x32_0_64)
    (load_cols c arg2 harg2 arg3 harg3 arg4 harg4 arg9 x0 x1 x2 448 (by decide) inb_S1440x1152_S1440x32_0_448)
    (load_cols c arg2 harg2 arg3 harg3 arg4 harg4 arg9 x0 x1 x2 832 (by decide) inb_S1440x1152_S1440x32_0_832)
    (load_slab arg7 harg7 x5 2 inb_S10x12x72x72_S10x1x72x72_0_2_0_0)

theorem head3_stored :
    k0_pay14 (kernelRun0_A.sl.v115 c arg2 harg2 arg3 harg3 arg4 harg4 arg9 x0 x1 x2) (kernelRun0_A.sl.v116 c arg2 harg2 arg3 harg3 arg4 harg4 arg9 x0 x1 x2) (kernelRun0_A.sl.v117 c arg2 harg2 arg3 harg3 arg4 harg4 arg9 x0 x1 x2)
        (View.readAt (Elt F) arg7.view (Rect.unit (s := S10x12x72x72) ![0, 3, 0, 0] S10x1x72x72.size inb_S10x12x72x72_S10x1x72x72_0_3_0_0).toLoadRect (harg7.unread x5))
      = headCols x0 x1 x2 x5 (3 : Fin 12) :=
  stored_eq x0 x1 x2 x5 3 _ _ _ _
    (load_cols c arg2 harg2 arg3 harg3 arg4 harg4 arg9 x0 x1 x2 96 (by decide) inb_S1440x1152_S1440x32_0_96)
    (load_cols c arg2 harg2 arg3 harg3 arg4 harg4 arg9 x0 x1 x2 480 (by decide) inb_S1440x1152_S1440x32_0_480)
    (load_cols c arg2 harg2 arg3 harg3 arg4 harg4 arg9 x0 x1 x2 864 (by decide) inb_S1440x1152_S1440x32_0_864)
    (load_slab arg7 harg7 x5 3 inb_S10x12x72x72_S10x1x72x72_0_3_0_0)

theorem head4_stored :
    k0_pay15 (kernelRun0_A.sl.v149 c arg2 harg2 arg3 harg3 arg4 harg4 arg9 x0 x1 x2) (kernelRun0_A.sl.v150 c arg2 harg2 arg3 harg3 arg4 harg4 arg9 x0 x1 x2) (kernelRun0_A.sl.v151 c arg2 harg2 arg3 harg3 arg4 harg4 arg9 x0 x1 x2)
        (View.readAt (Elt F) arg7.view (Rect.unit (s := S10x12x72x72) ![0, 4, 0, 0] S10x1x72x72.size inb_S10x12x72x72_S10x1x72x72_0_4_0_0).toLoadRect (harg7.unread x5))
      = headCols x0 x1 x2 x5 (4 : Fin 12) :=
  stored_eq x0 x1 x2 x5 4 _ _ _ _
    (load_cols c arg2 harg2 arg3 harg3 arg4 harg4 arg9 x0 x1 x2 128 (by decide) inb_S1440x1152_S1440x32_0_128)
    (load_cols c arg2 harg2 arg3 harg3 arg4 harg4 arg9 x0 x1 x2 512 (by decide) inb_S1440x1152_S1440x32_0_512)
    (load_cols c arg2 harg2 arg3 harg3 arg4 harg4 arg9 x0 x1 x2 896 (by decide) inb_S1440x1152_S1440x32_0_896)
    (load_slab arg7 harg7 x5 4 inb_S10x12x72x72_S10x1x72x72_0_4_0_0)

theorem head5_stored :
    k0_pay16 (kernelRun0_A.sl.v183 c arg2 harg2 arg3 harg3 arg4 harg4 arg9 x0 x1 x2) (kernelRun0_A.sl.v184 c arg2 harg2 arg3 harg3 arg4 harg4 arg9 x0 x1 x2) (kernelRun0_A.sl.v185 c arg2 harg2 arg3 harg3 arg4 harg4 arg9 x0 x1 x2)
        (View.readAt (Elt F) arg7.view (Rect.unit (s := S10x12x72x72) ![0, 5, 0, 0] S10x1x72x72.size inb_S10x12x72x72_S10x1x72x72_0_5_0_0).toLoadRect (harg7.unread x5))
      = headCols x0 x1 x2 x5 (5 : Fin 12) :=
  stored_eq x0 x1 x2 x5 5 _ _ _ _
    (load_cols c arg2 harg2 arg3 harg3 arg4 harg4 arg9 x0 x1 x2 160 (by decide) inb_S1440x1152_S1440x32_0_160)
    (load_cols c arg2 harg2 arg3 harg3 arg4 harg4 arg9 x0 x1 x2 544 (by decide) inb_S1440x1152_S1440x32_0_544)
    (load_cols c arg2 harg2 arg3 harg3 arg4 harg4 arg9 x0 x1 x2 928 (by decide) inb_S1440x1152_S1440x32_0_928)
    (load_slab arg7 harg7 x5 5 inb_S10x12x72x72_S10x1x72x72_0_5_0_0)

theorem head6_stored :
    k0_pay19 (kernelRun0_A.sl.v219 c arg2 harg2 arg3 harg3 arg4 harg4 arg9 x0 x1 x2) (kernelRun0_A.sl.r_7 c arg2 harg2 arg3 harg3 arg4 harg4 arg9 x0 x1 x2) (kernelRun0_A.sl.r_8 c arg2 harg2 arg3 harg3 arg4 harg4 arg9 x0 x1 x2)
        (View.readAt (Elt F) arg7.view (Rect.unit (s := S10x12x72x72) ![0, 6, 0, 0] S10x1x72x72.size inb_S10x12x72x72_S10x1x72x72_0_6_0_0).toLoadRect (harg7.unread x5))
      = headCols x0 x1 x2 x5 (6 : Fin 12) :=
  stored_eq x0 x1 x2 x5 6 _ _ _ _
    (load_cols c arg2 harg2 arg3 harg3 arg4 harg4 arg9 x0 x1 x2 192 (by decide) inb_S1440x1152_S1440x32_0_192)
    (load_cols c arg2 harg2 arg3 harg3 arg4 harg4 arg9 x0 x1 x2 576 (by decide) inb_S1440x1152_S1440x32_0_576)
    (load_cols c arg2 harg2 arg3 harg3 arg4 harg4 arg9 x0 x1 x2 960 (by decide) inb_S1440x1152_S1440x32_0_960)
    (load_slab arg7 harg7 x5 6 inb_S10x12x72x72_S10x1x72x72_0_6_0_0)

theorem head7_stored :
    k0_pay22 (kernelRun0_A.sl.r_9 c arg2 harg2 arg3 harg3 arg4 harg4 arg9 x0 x1 x2) (kernelRun0_A.sl.r_10 c arg2 harg2 arg3 harg3 arg4 harg4 arg9 x0 x1 x2)
        (View.readAt (Elt F) arg7.view (Rect.unit (s := S10x12x72x72) ![0, 7, 0, 0] S10x1x72x72.size inb_S10x12x72x72_S10x1x72x72_0_7_0_0).toLoadRect (harg7.unread x5))
      = headCols x0 x1 x2 x5 (7 : Fin 12) :=
  stored_eq x0 x1 x2 x5 7 _ _ _ _
    (load_cols c arg2 harg2 arg3 harg3 arg4 harg4 arg9 x0 x1 x2 224 (by decide) inb_S1440x1152_S1440x32_0_224)
    (load_cols c arg2 harg2 arg3 harg3 arg4 harg4 arg9 x0 x1 x2 608 (by decide) inb_S1440x1152_S1440x32_0_608)
    (load_cols c arg2 harg2 arg3 harg3 arg4 harg4 arg9 x0 x1 x2 992 (by decide) inb_S1440x1152_S1440x32_0_992)
    (load_slab arg7 harg7 x5 7 inb_S10x12x72x72_S10x1x72x72_0_7_0_0)

theorem head8_stored :
    k0_pay25 (kernelRun0_A.sl.r_11 c arg2 harg2 arg3 harg3 arg4 harg4 arg9 x0 x1 x2) (kernelRun0_A.sl.r_12 c arg2 harg2 arg3 harg3 arg4 harg4 arg7 harg7 arg9 x0 x1 x2 x5)
      = headCols x0 x1 x2 x5 (8 : Fin 12) :=
  stored_eq x0 x1 x2 x5 8 _ _ _ _
    (load_cols c arg2 harg2 arg3 harg3 arg4 harg4 arg9 x0 x1 x2 256 (by decide) inb_S1440x1152_S1440x32_0_256)
    (load_cols c arg2 harg2 arg3 harg3 arg4 harg4 arg9 x0 x1 x2 640 (by decide) inb_S1440x1152_S1440x32_0_640)
    (load_cols c arg2 harg2 arg3 harg3 arg4 harg4 arg9 x0 x1 x2 1024 (by decide) inb_S1440x1152_S1440x32_0_1024)
    (load_slab arg7 harg7 x5 8 inb_S10x12x72x72_S10x1x72x72_0_8_0_0)

theorem head9_stored :
    k0_pay28 (kernelRun0_A.sl.r_13 c arg2 harg2 arg3 harg3 arg4 harg4 arg9 x0 x1 x2) (kernelRun0_A.sl.r_14 c arg2 harg2 arg3 harg3 arg4 harg4 arg7 harg7 arg9 x0 x1 x2 x5)
      = headCols x0 x1 x2 x5 (9 : Fin 12) :=
  stored_eq x0 x1 x2 x5 9 _ _ _ _
    (load_cols c arg2 harg2 arg3 harg3 arg4 harg4 arg9 x0 x1 x2 288 (by decide) inb_S1440x1152_S1440x32_0_288)
    (load_cols c arg2 harg2 arg3 harg3 arg4 harg4 arg9 x0 x1 x2 672 (by decide) inb_S1440x1152_S1440x32_0_672)
    (load_cols c arg2 harg2 arg3 harg3 arg4 harg4 arg9 x0 x1 x2 1056 (by decide) inb_S1440x1152_S1440x32_0_1056)
    (load_slab arg7 harg7 x5 9 inb_S10x12x72x72_S10x1x72x72_0_9_0_0)

theorem head10_stored :
    k0_pay31 (kernelRun0_A.sl.r_15 c arg2 harg2 arg3 harg3 arg4 harg4 arg9 x0 x1 x2) (kernelRun0_A.sl.r_16 c arg2 harg2 arg3 harg3 arg4 harg4 arg7 harg7 arg9 x0 x1 x2 x5)
      = headCols x0 x1 x2 x5 (10 : Fin 12) :=
  stored_eq x0 x1 x2 x5 10 _ _ _ _
    (load_cols c arg2 harg2 arg3 harg3 arg4 harg4 arg9 x0 x1 x2 320 (by decide) inb_S1440x1152_S1440x32_0_320)
    (load_cols c arg2 harg2 arg3 harg3 arg4 harg4 arg9 x0 x1 x2 704 (by decide) inb_S1440x1152_S1440x32_0_704)
    (load_cols c arg2 harg2 arg3 harg3 arg4 harg4 arg9 x0 x1 x2 1088 (by decide) inb_S1440x1152_S1440x32_0_1088)
    (load_slab arg7 harg7 x5 10 inb_S10x12x72x72_S10x1x72x72_0_10_0_0)

theorem head11_stored :
    k0_pay1 (kernelRun0_A.sl.r_17 c arg2 harg2 arg3 harg3 arg4 harg4 arg7 harg7 arg9 x0 x1 x2 x5)
      = headCols x0 x1 x2 x5 (11 : Fin 12) :=
  stored_eq x0 x1 x2 x5 11 _ _ _ _
    (load_cols c arg2 harg2 arg3 harg3 arg4 harg4 arg9 x0 x1 x2 352 (by decide) inb_S1440x1152_S1440x32_0_352)
    (load_cols c arg2 harg2 arg3 harg3 arg4 harg4 arg9 x0 x1 x2 736 (by decide) inb_S1440x1152_S1440x32_0_736)
    (load_cols c arg2 harg2 arg3 harg3 arg4 harg4 arg9 x0 x1 x2 1120 (by decide) inb_S1440x1152_S1440x32_0_1120)
    (load_slab arg7 harg7 x5 11 inb_S10x12x72x72_S10x1x72x72_0_11_0_0)

end Pieces

/-! ## The second scratch, read back whole, is `ctxBlock` -/

/-- A store into head `h`'s thirty-two columns whose value is `headCols` at `h` is a block of `ctxBlock`. -/
theorem piece_of_stored (x0 : Vec F S2x10x72x384 .bf16) (x1 : Vec F S384x1152 .bf16) (x2 : Vec F S1x1152 .f32) (x5 : Vec F S10x12x72x72 .f32)
    (h : Fin 12) (inb : ∀ a, (![0, 32 * h.val] : Fin 2 → ℕ) a + S1440x32.size a ≤ S1440x384.size a)
    (pay : Vec F S1440x32 .bf16) (hp : pay = headCols x0 x1 x2 x5 h)
    (x : (Rect.unit (s := S1440x384) ![0, 32 * h.val] S1440x32.size inb).shape.Idx) :
    pay x = ctxBlock x0 x1 x2 x5 ((Rect.unit (s := S1440x384) ![0, 32 * h.val] S1440x32.size inb).emb x) := by
  subst hp
  rw [ctxBlock_at x0 x1 x2 x5 h (x 0) (x 1) _ (by show 0 + 1 * (x 0).val = (x 0).val; omega)
    (by show 32 * h.val + 1 * (x 1).val = 32 * h.val + (x 1).val; omega)]
  exact congrArg _ (eq_ix2 x)

section Scratch
variable (c : Dev nD) (arg2 : Memref sig .tc .vmem S2x10x72x384 .bf16) (harg2 : arg2.IsWhole) (arg3 : Memref sig .tc .vmem S384x1152 .bf16) (harg3 : arg3.IsWhole) (arg4 : Memref sig .tc .vmem S1x1152 .f32) (harg4 : arg4.IsWhole) (arg7 : Memref sig .tc .vmem S10x12x72x72 .f32) (harg7 : arg7.IsWhole) (arg9 : Memref sig .tc .vmem S1440x1152 .f32) (arg10 : Memref sig .tc .vmem S1440x384 .bf16)
  (x0 : Vec F S2x10x72x384 .bf16) (x1 : Vec F S384x1152 .bf16) (x2 : Vec F S1x1152 .f32) (x5 : Vec F S10x12x72x72 .f32)

/-- The twelve column stores tile the second scratch, and each is a block of `ctxBlock`: the whole load reads `ctxBlock`. -/
theorem ctx_load :
    kernelRun0_A.sl.v421 c arg2 harg2 arg3 harg3 arg4 harg4 arg7 harg7 arg9 arg10 x0 x1 x2 x5 = ctxBlock x0 x1 x2 x5 := by
  unfold kernelRun0_A.sl.v421
  rw [View.readCov_eq_canon']
  funext j
  have hcov : ∀ y : S1440x384.Idx, ∃ p ∈ kernelRun0_A.sl.HS1_12 c arg2 harg2 arg3 harg3 arg4 harg4 arg7 harg7 arg9 x0 x1 x2 x5, y ∈ p.1.set :=
    View.cover_of_tiledL _ S1440x32.size (by unfold kernelRun0_A.sl.HS1_12; sl_kernel_rfl)
  refine (View.canon_apply_of_pieces (ctxBlock x0 x1 x2 x5) _ ?_ _ (hcov _)).trans ?_
  · unfold kernelRun0_A.sl.HS1_12
    refine List.forall_mem_cons.2 ⟨fun x => piece_of_stored x0 x1 x2 x5 11 inb_S1440x384_S1440x32_0_352 _ (head11_stored c arg2 harg2 arg3 harg3 arg4 harg4 arg7 harg7 arg9 x0 x1 x2 x5) x, ?_⟩
    refine List.forall_mem_cons.2 ⟨fun x => piece_of_stored x0 x1 x2 x5 10 inb_S1440x384_S1440x32_0_320 _ (head10_stored c arg2 harg2 arg3 harg3 arg4 harg4 arg7 harg7 arg9 x0 x1 x2 x5) x, ?_⟩
    refine List.forall_mem_cons.2 ⟨fun x => piece_of_stored x0 x1 x2 x5 9 inb_S1440x384_S1440x32_0_288 _ (head9_stored c arg2 harg2 arg3 harg3 arg4 harg4 arg7 harg7 arg9 x0 x1 x2 x5) x, ?_⟩
    refine List.forall_mem_cons.2 ⟨fun x => piece_of_stored x0 x1 x2 x5 8 inb_S1440x384_S1440x32_0_256 _ (head8_stored c arg2 harg2 arg3 harg3 arg4 harg4 arg7 harg7 arg9 x0 x1 x2 x5) x, ?_⟩
    refine List.forall_mem_cons.2 ⟨fun x => piece_of_stored x0 x1 x2 x5 7 inb_S1440x384_S1440x32_0_224 _ (head7_stored c arg2 harg2 arg3 harg3 arg4 harg4 arg7 harg7 arg9 x0 x1 x2 x5) x, ?_⟩
    refine List.forall_mem_cons.2 ⟨fun x => piece_of_stored x0 x1 x2 x5 6 inb_S1440x384_S1440x32_0_192 _ (head6_stored c arg2 harg2 arg3 harg3 arg4 harg4 arg7 harg7 arg9 x0 x1 x2 x5) x, ?_⟩
    refine List.forall_mem_cons.2 ⟨fun x => piece_of_stored x0 x1 x2 x5 5 inb_S1440x384_S1440x32_0_160 _ (head5_stored c arg2 harg2 arg3 harg3 arg4 harg4 arg7 harg7 arg9 x0 x1 x2 x5) x, ?_⟩
    refine List.forall_mem_cons.2 ⟨fun x => piece_of_stored x0 x1 x2 x5 4 inb_S1440x384_S1440x32_0_128 _ (head4_stored c arg2 harg2 arg3 harg3 arg4 harg4 arg7 harg7 arg9 x0 x1 x2 x5) x, ?_⟩
    refine List.forall_mem_cons.2 ⟨fun x => piece_of_stored x0 x1 x2 x5 3 inb_S1440x384_S1440x32_0_96 _ (head3_stored c arg2 harg2 arg3 harg3 arg4 harg4 arg7 harg7 arg9 x0 x1 x2 x5) x, ?_⟩
    refine List.forall_mem_cons.2 ⟨fun x => piece_of_stored x0 x1 x2 x5 2 inb_S1440x384_S1440x32_0_64 _ (head2_stored c arg2 harg2 arg3 harg3 arg4 harg4 arg7 harg7 arg9 x0 x1 x2 x5) x, ?_⟩
    refine List.forall_mem_cons.2 ⟨fun x => piece_of_stored x0 x1 x2 x5 1 inb_S1440x384_S1440x32_0_32 _ (head1_stored c arg2 harg2 arg3 harg3 arg4 harg4 arg7 harg7 arg9 x0 x1 x2 x5) x, ?_⟩
    refine List.forall_mem_cons.2 ⟨fun x => piece_of_stored x0 x1 x2 x5 0 inb_S1440x384_S1440x32_0_0 _ (head0_stored c arg2 harg2 arg3 harg3 arg4 harg4 arg7 harg7 arg9 x0 x1 x2 x5) x, ?_⟩
    exact fun p hp => (List.not_mem_nil hp).elim
  · congr 1
    funext a
    apply Fin.ext
    match a with
    | ⟨0, _⟩ => show 0 + 1 * (j 0).val = (j 0).val; omega
    | ⟨1, _⟩ => show 0 + 1 * (j 1).val = (j 1).val; omega

end Scratch

/-! ## The body's result block -/

/-- What the body leaves in the result block: the output projection of `ctxBlock`. -/
theorem body_eq (c : Dev nD) (i : grid0.Coords) (arg2 : Memref sig .tc .vmem S2x10x72x384 .bf16) (harg2 : arg2.IsWhole) (arg3 : Memref sig .tc .vmem S384x1152 .bf16) (harg3 : arg3.IsWhole) (arg4 : Memref sig .tc .vmem S1x1152 .f32) (harg4 : arg4.IsWhole) (arg5 : Memref sig .tc .vmem S384x384 .bf16) (harg5 : arg5.IsWhole) (arg6 : Memref sig .tc .vmem S1x384 .f32) (harg6 : arg6.IsWhole) (arg7 : Memref sig .tc .vmem S10x12x72x72 .f32) (harg7 : arg7.IsWhole) (arg8 : Memref sig .tc .vmem S2x10x72x384 .f32) (harg8 : arg8.IsWhole) (arg9 : Memref sig .tc .vmem S1440x1152 .f32) (harg9 : arg9.IsWhole) (arg10 : Memref sig .tc .vmem S1440x384 .bf16) (harg10 : arg10.IsWhole)
    (x0 : Vec F S2x10x72x384 .bf16) (x1 : Vec F S384x1152 .bf16) (x2 : Vec F S1x1152 .f32) (x3 : Vec F S384x384 .bf16) (x4 : Vec F S1x384 .f32) (x5 : Vec F S10x12x72x72 .f32) :
    out0_A_6 c i arg2 harg2 arg3 harg3 arg4 harg4 arg5 harg5 arg6 harg6 arg7 harg7 arg8 harg8 arg9 harg9 arg10 harg10 x0 x1 x2 x3 x4 x5 = k0_pay2 (ctxBlock x0 x1 x2 x5) x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  rw [View.canon_unit_zero zero4, ctx_load]
  simp only [View.readAt_eq_ld, Memref.IsWhole.read_unread, View.ld_unit_zero (S := S384x384) zero2,
    View.ld_unit_zero (S := S1x384) zero2]

/-! ## The body at an entry of its result block -/

/-- Column `o = off + d` of the stored joint projection, at the row of token `m` of window `g` of batch item `g2`, is the
    specification's joint projection of that window at token `m`, column `o`. -/
theorem cols_apply (x0 : Vec Ideal S2x10x72x384 .bf16) (x1 : Vec Ideal S384x1152 .bf16) (x2 : Vec Ideal S1x1152 .f32)
    (off : ℕ) (hoff : off + 32 ≤ 1152) (g2 : Fin 2) (g : Fin 10) (m : Fin 72) (d : Fin 32) (o : Fin 1152) (ho : o.val = off + d.val) :
    colsFrom (F := Ideal) (k0_pay3 (F := Ideal) x0 x1 x2) off hoff (ix2 (rowOf g2 g m) d)
      = qkv (fun n c => x0 (ix4 g2 g n c)) (fun o c => x1 (ix2 c o)) (fun o => x2 (ix2 (0 : Fin 1) o)) m o := by
  have e : (⟨off + d.val, by have := d.isLt; omega⟩ : Fin 1152) = o := Fin.ext ho.symm
  show k0_pay3 (F := Ideal) x0 x1 x2 (ix2 (rowOf g2 g m) (⟨off + d.val, by have := d.isLt; omega⟩ : Fin 1152)) = _
  rw [e]
  exact qkvBlock_apply x0 x1 x2 g2 g m o

/-- THE BODY AT AN ENTRY: entry (batch item `g2`, window `g`, token `n`, channel `o`) of the result block is the
    specification's operator on that window: its activations are the block's rows of the window, the weights and
    biases are the staged ones (the weights stored transposed), and its position bias is the window's slab of the bias block. -/
theorem body_apply (c : Dev nD) (i : grid0.Coords) (arg2 : Memref sig .tc .vmem S2x10x72x384 .bf16) (harg2 : arg2.IsWhole) (arg3 : Memref sig .tc .vmem S384x1152 .bf16) (harg3 : arg3.IsWhole) (arg4 : Memref sig .tc .vmem S1x1152 .f32) (harg4 : arg4.IsWhole) (arg5 : Memref sig .tc .vmem S384x384 .bf16) (harg5 : arg5.IsWhole) (arg6 : Memref sig .tc .vmem S1x384 .f32) (harg6 : arg6.IsWhole) (arg7 : Memref sig .tc .vmem S10x12x72x72 .f32) (harg7 : arg7.IsWhole) (arg8 : Memref sig .tc .vmem S2x10x72x384 .f32) (harg8 : arg8.IsWhole) (arg9 : Memref sig .tc .vmem S1440x1152 .f32) (harg9 : arg9.IsWhole) (arg10 : Memref sig .tc .vmem S1440x384 .bf16) (harg10 : arg10.IsWhole)
    (x0 : Vec Ideal S2x10x72x384 .bf16) (x1 : Vec Ideal S384x1152 .bf16) (x2 : Vec Ideal S1x1152 .f32) (x3 : Vec Ideal S384x384 .bf16) (x4 : Vec Ideal S1x384 .f32) (x5 : Vec Ideal S10x12x72x72 .f32)
    (g2 : Fin 2) (g : Fin 10) (n : Fin 72) (o : Fin 384) :
    out0_A_6 (F := Ideal) c i arg2 harg2 arg3 harg3 arg4 harg4 arg5 harg5 arg6 harg6 arg7 harg7 arg8 harg8 arg9 harg9 arg10 harg10 x0 x1 x2 x3 x4 x5 (ix4 g2 g n o)
      = winOut scale ninf (fun n c => x0 (ix4 g2 g n c)) (fun o c => x1 (ix2 c o)) (fun o => x2 (ix2 (0 : Fin 1) o))
          (fun o c => x3 (ix2 c o)) (fun o => x4 (ix2 (0 : Fin 1) o)) (fun h n k => x5 (ix4 g h n k)) n o := by
  rw [body_eq, outBlock_apply]
  unfold winOut
  congr 1
  funext cc
  rw [ctxBlock_at x0 x1 x2 x5 (headOf cc) (rowOf g2 g n) (chanOf cc) _ rfl
    (by show cc.val = 32 * (cc.val / 32) + cc.val % 32; omega)]
  unfold headCols ctx headCtx
  rw [headFn_apply]
  have hq : ∀ (m : Fin 72) (d : Fin 32),
      colsFrom (F := Ideal) (k0_pay3 (F := Ideal) x0 x1 x2) (32 * (headOf cc).val) (by have := (headOf cc).isLt; omega) (ix2 (rowOf g2 g m) d)
        = qkv (fun n c => x0 (ix4 g2 g n c)) (fun o c => x1 (ix2 c o)) (fun o => x2 (ix2 (0 : Fin 1) o)) m (col 0 (headOf cc) d) :=
    fun m d => cols_apply x0 x1 x2 _ _ g2 g m d _ (by show 384 * 0 + 32 * (headOf cc).val + d.val = _; omega)
  have hk : ∀ (m : Fin 72) (d : Fin 32),
      colsFrom (F := Ideal) (k0_pay3 (F := Ideal) x0 x1 x2) (384 + 32 * (headOf cc).val) (by have := (headOf cc).isLt; omega) (ix2 (rowOf g2 g m) d)
        = qkv (fun n c => x0 (ix4 g2 g n c)) (fun o c => x1 (ix2 c o)) (fun o => x2 (ix2 (0 : Fin 1) o)) m (col 1 (headOf cc) d) :=
    fun m d => cols_apply x0 x1 x2 _ _ g2 g m d _ (by show 384 * 1 + 32 * (headOf cc).val + d.val = _; omega)
  have hv : ∀ (m : Fin 72) (d : Fin 32),
      colsFrom (F := Ideal) (k0_pay3 (F := Ideal) x0 x1 x2) (768 + 32 * (headOf cc).val) (by have := (headOf cc).isLt; omega) (ix2 (rowOf g2 g m) d)
        = qkv (fun n c => x0 (ix4 g2 g n c)) (fun o c => x1 (ix2 c o)) (fun o => x2 (ix2 (0 : Fin 1) o)) m (col 2 (headOf cc) d) :=
    fun m d => cols_apply x0 x1 x2 _ _ g2 g m d _ (by show 384 * 2 + 32 * (headOf cc).val + d.val = _; omega)
  simp only [hq, hk, hv]
  rfl

end Cert.Attn

end
-- ==== Proof.Final.lean ====
/-
  From blocks to the array. The launch runs the body at the 48 points of a 6 × 8 grid (window tile outer, batch step
  inner); point `t` fetches the activations' block (batch step, window tile) of 2 × 10 windows, the window tile's slab
  of the position bias, and the whole weights and biases, and writes back the result's block at the same place as the
  activations'. So every block written back is a block of ONE function of the staged arrays: the specification's
  operator applied window by window. The 48 blocks tile the result array, hence the array ends holding that function.
-/
import proofs.«407614_j76390288327291_3_alg».proof.Proof.Gen.KernelIdeal.Value
import proofs.«407614_j76390288327291_3_alg».proof.Proof.Body
import Idealize.ShloMosaic.Lib.Pipeline.Value

set_option maxRecDepth 16384

noncomputable section

namespace Cert.Attn

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result array as one function of the arrays the launch finds staged: entry (batch item, window, token, channel)
    is the operator on that batch item's window. -/
def stagedOut (c : Dev nD) : S16x60x72x384.Idx → EReal := fun y =>
  winOut scale ninf (fun n cc => V m c main_v4 (ix4 (y 0) (y 1) n cc)) (fun o cc => V m c main_v6 (ix2 cc o))
    (fun o => V m c main_v9 (ix2 (0 : Fin 1) o)) (fun o cc => V m c main_v8 (ix2 cc o))
    (fun o => V m c main_v10 (ix2 (0 : Fin 1) o)) (fun h n k => V m c main_v3 (ix4 (y 1) h n k)) (y 2) (y 3)

/-- The printed index maps, decided over the 48 points: the activations' block moves with the result's; the bias
    block follows the result's window tile; the weights and biases stay put; and the result's block indices range over
    8 batch steps and 6 window tiles. -/
theorem idx_facts : ∀ t : Fin cfg0.N,
    win0_0.index t (0 : Fin 4) = win0_6.index t (0 : Fin 4) ∧ win0_0.index t (1 : Fin 4) = win0_6.index t (1 : Fin 4)
    ∧ win0_0.index t (2 : Fin 4) = 0 ∧ win0_0.index t (3 : Fin 4) = 0
    ∧ win0_6.index t (2 : Fin 4) = 0 ∧ win0_6.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = win0_6.index t (1 : Fin 4) ∧ win0_5.index t (1 : Fin 4) = 0
    ∧ win0_5.index t (2 : Fin 4) = 0 ∧ win0_5.index t (3 : Fin 4) = 0
    ∧ win0_6.index t (0 : Fin 4) ≤ 7 ∧ win0_6.index t (1 : Fin 4) ≤ 5 :=
  (by decide +kernel : ∀ t : Fin grid0.N, _)

/-- Every block of the result array is some point's. -/
theorem idx_onto : ∀ (q0 : Fin 8) (q1 : Fin 6), ∃ t : Fin cfg0.N, win0_6.index t = ![q0.val, q1.val, 0, 0] :=
  (by decide +kernel : ∀ (q0 : Fin 8) (q1 : Fin 6), ∃ t : Fin grid0.N, win0_6.index t = ![q0.val, q1.val, 0, 0])

/-! ## The blocks a point reads, typed at their literal shapes -/

/-- The activations' block at point `t`. -/
abbrev xBlk (c : Dev nD) (t : Fin cfg0.N) : Vec Ideal S2x10x72x384 .bf16 := iblk m c 0 t
/-- The joint weights (one block: the whole array). -/
abbrev wqBlk (c : Dev nD) (t : Fin cfg0.N) : Vec Ideal S384x1152 .bf16 := iblk m c 1 t
/-- The joint bias row. -/
abbrev bqBlk (c : Dev nD) (t : Fin cfg0.N) : Vec Ideal S1x1152 .f32 := iblk m c 2 t
/-- The output weights. -/
abbrev wpBlk (c : Dev nD) (t : Fin cfg0.N) : Vec Ideal S384x384 .bf16 := iblk m c 3 t
/-- The output bias row. -/
abbrev bpBlk (c : Dev nD) (t : Fin cfg0.N) : Vec Ideal S1x384 .f32 := iblk m c 4 t
/-- The position bias of the point's window tile. -/
abbrev biasBlk (c : Dev nD) (t : Fin cfg0.N) : Vec Ideal S10x12x72x72 .f32 := iblk m c 5 t

/-! Each block is its array read at block index × block size + the coordinate inside the block; the block
    indices are related by `idx_facts`. The result's entry `(g2, g, n, o)` of point `t`'s block sits in the array at
    the index `E` below, whose first two coordinates are the entry's batch item and window. -/

theorem xBlk_apply (c : Dev nD) (t : Fin cfg0.N) (g2 : Fin 2) (g : Fin 10) (n : Fin 72) (o : Fin 384) (n' : Fin 72) (cc : Fin 384) :
    xBlk m c t (ix4 g2 g n' cc) = V m c main_v4 (ix4 ((((cfg0.win 6).blk t).view.emb (ix4 g2 g n o)) 0) ((((cfg0.win 6).blk t).view.emb (ix4 g2 g n o)) 1) n' cc) := by
  obtain ⟨e00, e01, e02, e03, e62, e63, e10, e11, e20, e21, e30, e31, e40, e41, e50, e51, e52, e53, b0, b1⟩ := idx_facts t
  show V m c main_v4 (((cfg0.win 0).blk t).view.emb (ix4 g2 g n' cc)) = _
  congr 1
  funext a
  apply Fin.ext
  match a with
  | ⟨0, _⟩ => show win0_0.index t (0 : Fin 4) * 2 + 1 * g2.val = win0_6.index t (0 : Fin 4) * 2 + 1 * g2.val; omega
  | ⟨1, _⟩ => show win0_0.index t (1 : Fin 4) * 10 + 1 * g.val = win0_6.index t (1 : Fin 4) * 10 + 1 * g.val; omega
  | ⟨2, _⟩ => show win0_0.index t (2 : Fin 4) * 72 + 1 * n'.val = n'.val; omega
  | ⟨3, _⟩ => show win0_0.index t (3 : Fin 4) * 384 + 1 * cc.val = cc.val; omega

theorem wqBlk_apply (c : Dev nD) (t : Fin cfg0.N) (o' : Fin 1152) (cc : Fin 384) :
    wqBlk m c t (ix2 cc o') = V m c main_v6 (ix2 cc o') := by
  obtain ⟨e00, e01, e02, e03, e62, e63, e10, e11, e20, e21, e30, e31, e40, e41, e50, e51, e52, e53, b0, b1⟩ := idx_facts t
  show V m c main_v6 (((cfg0.win 1).blk t).view.emb (ix2 cc o')) = _
  congr 1
  funext a
  apply Fin.ext
  match a with
  | ⟨0, _⟩ => show win0_1.index t (0 : Fin 2) * 384 + 1 * cc.val = cc.val; omega
  | ⟨1, _⟩ => show win0_1.index t (1 : Fin 2) * 1152 + 1 * o'.val = o'.val; omega

theorem bqBlk_apply (c : Dev nD) (t : Fin cfg0.N) (o' : Fin 1152) :
    bqBlk m c t (ix2 (0 : Fin 1) o') = V m c main_v9 (ix2 (0 : Fin 1) o') := by
  obtain ⟨e00, e01, e02, e03, e62, e63, e10, e11, e20, e21, e30, e31, e40, e41, e50, e51, e52, e53, b0, b1⟩ := idx_facts t
  show V m c main_v9 (((cfg0.win 2).blk t).view.emb (ix2 (0 : Fin 1) o')) = _
  congr 1
  funext a
  apply Fin.ext
  match a with
  | ⟨0, _⟩ => show win0_2.index t (0 : Fin 2) * 1 + 1 * 0 = 0; omega
  | ⟨1, _⟩ => show win0_2.index t (1 : Fin 2) * 1152 + 1 * o'.val = o'.val; omega

theorem wpBlk_apply (c : Dev nD) (t : Fin cfg0.N) (o' : Fin 384) (cc : Fin 384) :
    wpBlk m c t (ix2 cc o') = V m c main_v8 (ix2 cc o') := by
  obtain ⟨e00, e01, e02, e03, e62, e63, e10, e11, e20, e21, e30, e31, e40, e41, e50, e51, e52, e53, b0, b1⟩ := idx_facts t
  show V m c main_v8 (((cfg0.win 3).blk t).view.emb (ix2 cc o')) = _
  congr 1
  funext a
  apply Fin.ext
  match a with
  | ⟨0, _⟩ => show win0_3.index t (0 : Fin 2) * 384 + 1 * cc.val = cc.val; omega
  | ⟨1, _⟩ => show win0_3.index t (1 : Fin 2) * 384 + 1 * o'.val = o'.val; omega

theorem bpBlk_apply (c : Dev nD) (t : Fin cfg0.N) (o' : Fin 384) :
    bpBlk m c t (ix2 (0 : Fin 1) o') = V m c main_v10 (ix2 (0 : Fin 1) o') := by
  obtain ⟨e00, e01, e02, e03, e62, e63, e10, e11, e20, e21, e30, e31, e40, e41, e50, e51, e52, e53, b0, b1⟩ := idx_facts t
  show V m c main_v10 (((cfg0.win 4).blk t).view.emb (ix2 (0 : Fin 1) o')) = _
  congr 1
  funext a
  apply Fin.ext
  match a with
  | ⟨0, _⟩ => show win0_4.index t (0 : Fin 2) * 1 + 1 * 0 = 0; omega
  | ⟨1, _⟩ => show win0_4.index t (1 : Fin 2) * 384 + 1 * o'.val = o'.val; omega

theorem biasBlk_apply (c : Dev nD) (t : Fin cfg0.N) (g2 : Fin 2) (g : Fin 10) (n : Fin 72) (o : Fin 384) (h : Fin 12) (n' k : Fin 72) :
    biasBlk m c t (ix4 g h n' k) = V m c main_v3 (ix4 ((((cfg0.win 6).blk t).view.emb (ix4 g2 g n o)) 1) h n' k) := by
  obtain ⟨e00, e01, e02, e03, e62, e63, e10, e11, e20, e21, e30, e31, e40, e41, e50, e51, e52, e53, b0, b1⟩ := idx_facts t
  show V m c main_v3 (((cfg0.win 5).blk t).view.emb (ix4 g h n' k)) = _
  congr 1
  funext a
  apply Fin.ext
  match a with
  | ⟨0, _⟩ => show win0_5.index t (0 : Fin 4) * 10 + 1 * g.val = win0_6.index t (1 : Fin 4) * 10 + 1 * g.val; omega
  | ⟨1, _⟩ => show win0_5.index t (1 : Fin 4) * 12 + 1 * h.val = h.val; omega
  | ⟨2, _⟩ => show win0_5.index t (2 : Fin 4) * 72 + 1 * n'.val = n'.val; omega
  | ⟨3, _⟩ => show win0_5.index t (3 : Fin 4) * 72 + 1 * k.val = k.val; omega

/-- The last two coordinates of the entry's array index are the entry's token and channel. -/
theorem out_idx_tail (t : Fin cfg0.N) (g2 : Fin 2) (g : Fin 10) (n : Fin 72) (o : Fin 384) :
    (((cfg0.win 6).blk t).view.emb (ix4 g2 g n o)) 2 = n ∧ (((cfg0.win 6).blk t).view.emb (ix4 g2 g n o)) 3 = o := by
  obtain ⟨e00, e01, e02, e03, e62, e63, e10, e11, e20, e21, e30, e31, e40, e41, e50, e51, e52, e53, b0, b1⟩ := idx_facts t
  exact ⟨Fin.ext (by show win0_6.index t (2 : Fin 4) * 72 + 1 * n.val = n.val; omega),
    Fin.ext (by show win0_6.index t (3 : Fin 4) * 384 + 1 * o.val = o.val; omega)⟩

/-- WHAT POINT `t` WRITES BACK is block `t` of `stagedOut`: the body's entry is the operator on the entry's window
    (`body_apply`), over blocks that are their arrays read at the entry's batch item and window. -/
theorem flushed_eq (c : Dev nD) (t : Fin cfg0.N) :
    (dats m 0 c).flushed 6 t = ((cfg0.win 6).blk t).view.read (Elt Ideal) (stagedOut m c) := by
  rw [Cert.KernelIdeal.Value.flushed6_A]
  funext j
  obtain ⟨g2, g, n, o, rfl⟩ : ∃ (g2 : Fin 2) (g : Fin 10) (n : Fin 72) (o : Fin 384), j = ix4 g2 g n o :=
    ⟨j 0, j 1, j 2, j 3, eq_ix4 j⟩
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xBlk m c t) (wqBlk m c t) (bqBlk m c t) (wpBlk m c t) (bpBlk m c t) (biasBlk m c t) (ix4 g2 g n o)
    = stagedOut m c (((cfg0.win 6).blk t).view.emb (ix4 g2 g n o))
  refine (body_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (xBlk m c t) (wqBlk m c t) (bqBlk m c t) (wpBlk m c t) (bpBlk m c t) (biasBlk m c t) g2 g n o).trans ?_
  unfold stagedOut
  rw [(out_idx_tail t g2 g n o).1, (out_idx_tail t g2 g n o).2]
  simp only [xBlk_apply m c t g2 g n o, wqBlk_apply m c t, bqBlk_apply m c t, wpBlk_apply m c t, bpBlk_apply m c t,
    biasBlk_apply m c t g2 g n o]
/-- An index of the result array is in point `t`'s block iff each coordinate is in the block's range on its axis. -/
theorem mem_blk (t : Fin cfg0.N) (i : S16x60x72x384.Idx) :
    i ∈ ((cfg0.win 6).blk t).view.set ↔ ∀ a : Fin 4, win0_6.index t a * S2x10x72x384.size a ≤ (i a).val ∧ (i a).val < win0_6.index t a * S2x10x72x384.size a + S2x10x72x384.size a := by
  show i ∈ ((View.whole main_v11).slice (win0_6.rect t)).set ↔ _
  rw [View.set_slice_whole, Rect.mem_set_unit]
  exact Iff.rfl

/-- The 48 blocks tile the result array. -/
theorem covered (i : S16x60x72x384.Idx) :
    ∃ t : Fin cfg0.N, (cfg0.win 6).flush t = true ∧ i ∈ ((cfg0.win 6).blk t).view.set := by
  have hi0 : (i 0).val < 16 := (i 0).isLt
  have hi1 : (i 1).val < 60 := (i 1).isLt
  have hi2 : (i 2).val < 72 := (i 2).isLt
  have hi3 : (i 3).val < 384 := (i 3).isLt
  obtain ⟨t, ht⟩ := idx_onto ⟨(i 0).val / 2, by omega⟩ ⟨(i 1).val / 10, by omega⟩
  have q0 : win0_6.index t (0 : Fin 4) = (i 0).val / 2 := congrFun ht 0
  have q1 : win0_6.index t (1 : Fin 4) = (i 1).val / 10 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 2 ≤ (i 0).val ∧ (i 0).val < win0_6.index t (0 : Fin 4) * 2 + 2; omega
  | ⟨1, _⟩ => show win0_6.index t (1 : Fin 4) * 10 ≤ (i 1).val ∧ (i 1).val < win0_6.index t (1 : Fin 4) * 10 + 10; omega
  | ⟨2, _⟩ => show win0_6.index t (2 : Fin 4) * 72 ≤ (i 2).val ∧ (i 2).val < win0_6.index t (2 : Fin 4) * 72 + 72; omega
  | ⟨3, _⟩ => show win0_6.index t (3 : Fin 4) * 384 ≤ (i 3).val ∧ (i 3).val < win0_6.index t (3 : Fin 4) * 384 + 384; omega

/-- THE ARRAY after the run is `stagedOut`. -/
theorem final (c : Dev nD) : (dats m 0 c).arrAt 6 cfg0.N = stagedOut m c :=
  (dats m 0 c).arrAt_eq_of_cover 6 (stagedOut m c) (fun t _ => flushed_eq m c t) (covered)

end Cert.Attn

end
-- ==== Proof.HostSide.lean ====
/-
  What the kernel's program hands its one launch: each staged array as a function of the arguments.
  The activations and the two weight matrices are converted to bf16 (the identity on extended reals), the weights
  transposed first; the two bias vectors become one-row matrices; and the position bias is the gathered rows of the
  bias table, re-laid as [window, head, token, token]. The gather fills a row with a NaN word when its (wrapped)
  index is out of range: under the precondition every index is in range, so the fill is never taken and the rows are
  exactly the reference's gathered rows.
-/
import proofs.«407614_j76390288327291_3_alg».proof.Defs
import proofs.«407614_j76390288327291_3_alg».proof.Proof.Gen.KernelIdeal.Frame
import proofs.«407614_j76390288327291_3_alg».proof.Proof.Gen.Pre_finite_inputs
import proofs.«407614_j76390288327291_3_alg».proof.Proof.Gen.ReferenceIdeal.Read
import proofs.«407614_j76390288327291_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

noncomputable section

namespace Cert.Attn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! The host program's terms, and the facts about the position lookup, kept in a namespace of this module's own. -/
namespace HostSide

/-- The staged activations, as the host program computes them: the argument, converted. -/
theorem V_x_eq (c : Dev nD) :
    (V m c main_v4 : S16x60x72x384.Idx → EReal) = truncf (F := Ideal) .bf16 (m ((c : Thread nD τ).loc main_arg0)) bitsLt_bf16_f32 := by
  dsimp only [V]
  simp only [hostOps0, hostOps0_1, hostOps0_2, List.flatten_cons, List.flatten_nil, List.append_nil, List.cons_append, List.nil_append]
  after_results
  all_goals rfl

/-- The staged joint weights, as the host program computes them: the argument, transposed then converted. -/
theorem V_wqkv_eq (c : Dev nD) :
    (V m c main_v6 : S384x1152.Idx → EReal)
      = truncf (F := Ideal) .bf16 (transpose S384x1152 [1, 0] (m ((c : Thread nD τ).loc main_arg1)) transposes_S1152x384_S384x1152_1_0) bitsLt_bf16_f32 := by
  dsimp only [V]
  simp only [hostOps0, hostOps0_1, hostOps0_2, List.flatten_cons, List.flatten_nil, List.append_nil, List.cons_append, List.nil_append]
  after_results
  all_goals rfl

/-- The staged output weights, as the host program computes them: the argument, transposed then converted. -/
theorem V_wproj_eq (c : Dev nD) :
    (V m c main_v8 : S384x384.Idx → EReal)
      = truncf (F := Ideal) .bf16 (transpose S384x384 [1, 0] (m ((c : Thread nD τ).loc main_arg3)) transposes_S384x384_S384x384_1_0) bitsLt_bf16_f32 := by
  dsimp only [V]
  simp only [hostOps0, hostOps0_1, hostOps0_2, List.flatten_cons, List.flatten_nil, List.append_nil, List.cons_append, List.nil_append]
  after_results
  all_goals rfl

/-- The staged joint bias, as the host program computes it: the argument, reshaped to one row. -/
theorem V_bqkv_eq (c : Dev nD) :
    (V m c main_v9 : S1x1152.Idx → EReal)
      = shapeCast S1x1152 (m ((c : Thread nD τ).loc main_arg2)) shapeCasts_S1152_S1x1152 := by
  dsimp only [V]
  simp only [hostOps0, hostOps0_1, hostOps0_2, List.flatten_cons, List.flatten_nil, List.append_nil, List.cons_append, List.nil_append]
  after_results
  all_goals rfl

/-- The staged output bias, as the host program computes it: the argument, reshaped to one row. -/
theorem V_bproj_eq (c : Dev nD) :
    (V m c main_v10 : S1x384.Idx → EReal)
      = shapeCast S1x384 (m ((c : Thread nD τ).loc main_arg4)) shapeCasts_S384_S1x384 := by
  dsimp only [V]
  simp only [hostOps0, hostOps0_1, hostOps0_2, List.flatten_cons, List.flatten_nil, List.append_nil, List.cons_append, List.nil_append]
  after_results
  all_goals rfl

/-- The position table as one row of words, a negative word wrapped by the table's length, laid as a column:
    the start indices the gather reads. -/
def wrapCol (x6 : IVec S72x72 32) : IVec S5184x1 32 :=
  broadcastInDim S5184x1 ![0] bcast_S5184_S5184x1_0
    (select (cmpi .slt (shapeCast S5184 x6 shapeCasts_S72x72_S5184) (broadcastInDim S5184 ![] bcast_S_S5184 (constantI S_ 32 0#32)))
      (addi (shapeCast S5184 x6 shapeCasts_S72x72_S5184) (broadcastInDim S5184 ![] bcast_S_S5184 (constantI S_ 32 828#32)))
      (shapeCast S5184 x6 shapeCasts_S72x72_S5184))

/-- Per row, whether its wrapped index names a row of the table: it lies between 0 and 827. -/
def rowOk (x6 : IVec S72x72 32) : IVec S5184 1 :=
  Host.reduce IntOp.andi
    (andi (cmpi .sge (wrapCol x6) (broadcastInDim S5184x1 ![] bcast_S_S5184x1 (constantI S_ 32 0#32)))
      (cmpi .sle (wrapCol x6)
        (broadcastInDim S5184x1 ![0, 1] bcast_S1x1_S5184x1_0_1 (broadcastInDim S1x1 ![1] bcast_S1_S1x1_1 (constantI S1 32 827#32)))))
    (constantI S_ 1 1#1) reducesTo_S5184x1_S5184_d1 h_S_

/-- The kernel's row lookup: the gathered rows where the index is in range, a fill word elsewhere. -/
def taken (x5 : FVec Ideal S828x60x12 .f32) (x6 : IVec S72x72 32) : FVec Ideal S5184x60x12 .f32 :=
  select (broadcastInDim S5184x60x12 ![0] bcast_S5184_S5184x60x12_0 (rowOk x6))
    (Host.gather gather_S828x60x12_S5184x1_S5184x60x12_12_0_n_n_0_1_16012 x5 (wrapCol x6))
    (broadcastInDim S5184x60x12 ![] bcast_S_S5184x60x12 (constant (F := Ideal) S_ .f32 0x7FC00000#32))

/-- A left fold by and over one-bit words that are all one, from one, is one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A reduction by and of an array of ones, from one, is one at every index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ (fun n _ => hx n)

/-- A signed word in [-828, 828), wrapped by 828 when negative, lies in [0, 827]. -/
theorem wrap_in_range (p : BitVec 32) (h1 : (-828 : Int) ≤ p.toInt) (h2 : p.toInt < 828) :
    IntOp.andi (IntOp.cmpi .sge (Scalar.select (IntOp.cmpi .slt p 0#32) (IntOp.addi p 828#32) p) 0#32)
      (IntOp.cmpi .sle (Scalar.select (IntOp.cmpi .slt p 0#32) (IntOp.addi p 828#32) p) 827#32) = 1#1 := by
  rw [IntOp.andi_eq_one, IntOp.cmpi_sge, IntOp.cmpi_sle]
  have z : (0#32 : BitVec 32).toInt = 0 := by decide
  have z827 : (827#32 : BitVec 32).toInt = 827 := by decide
  have z828 : (828#32 : BitVec 32).toInt = 828 := by decide
  by_cases hneg : p.toInt < 0
  · have hc : IntOp.cmpi .slt p 0#32 = 1#1 := IntOp.cmpi_slt.2 (by rw [z]; exact hneg)
    have hs : Scalar.select (IntOp.cmpi .slt p 0#32) (IntOp.addi p 828#32) p = IntOp.addi p 828#32 := if_pos hc
    have ha : (IntOp.addi p 828#32).toInt = p.toInt + 828 := by
      rw [IntOp.addi, BitVec.toInt_add, z828]
      exact Int.bmod_eq_of_le (by omega) (by omega)
    rw [hs, ha, z, z827]
    omega
  · have hc : ¬ IntOp.cmpi .slt p 0#32 = 1#1 := fun h => hneg (by have := IntOp.cmpi_slt.1 h; rwa [z] at this)
    have hs : Scalar.select (IntOp.cmpi .slt p 0#32) (IntOp.addi p 828#32) p = p := if_neg hc
    rw [hs, z, z827]
    omega

/-- The staged position bias, as the host program computes it. -/
theorem V_bias_eq (c : Dev nD) :
    (V m c main_v3 : S60x12x72x72.Idx → EReal)
      = transpose S60x12x72x72 [2, 3, 0, 1]
          (shapeCast S72x72x60x12 (taken (m ((c : Thread nD τ).loc main_arg5)) (m ((c : Thread nD τ).loc main_arg6))) shapeCasts_S5184x60x12_S72x72x60x12)
          transposes_S72x72x60x12_S60x12x72x72_2_3_0_1 := by
  dsimp only [V]
  simp only [hostOps0, hostOps0_1, hostOps0_2, List.flatten_cons, List.flatten_nil, List.append_nil, List.cons_append, List.nil_append]
  after_results_simp
  all_goals rfl

/-- The precondition read at one entry of the position table: the index word lies in [-828, 828). -/
theorem pos_range (hpre : Cert.Pre_KernelIdeal m) (c : Dev nD) (i : S72x72.Idx) :
    (-828 : Int) ≤ (m ((c : Thread nD τ).loc main_arg6) i).toInt ∧ (m ((c : Thread nD τ).loc main_arg6) i).toInt < 828 := by
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1, Cert.Pre_finite_inputs.fn_part2] at e
  have e2 := (IntOp.andi_eq_one.1 e).2
  have e3 : IntOp.andi (IntOp.cmpi .sge (m ((c : Thread nD τ).loc main_arg6) i) 4294966468#32)
      (IntOp.cmpi .slt (m ((c : Thread nD τ).loc main_arg6) i) 828#32) = 1#1 :=
    Host.reduce_andi_all _ _ _ _ _ e2 i
  obtain ⟨h1, h2⟩ := IntOp.andi_eq_one.1 e3
  have l := IntOp.cmpi_sge.1 h1
  have u := IntOp.cmpi_slt.1 h2
  rw [show (4294966468#32 : BitVec 32).toInt = -828 by decide] at l
  rw [show (828#32 : BitVec 32).toInt = 828 by decide] at u
  exact ⟨l, u⟩

/-- Each start index is some entry of the position table, wrapped. -/
theorem wrapCol_apply (x6 : IVec S72x72 32) (i : S5184x1.Idx) :
    ∃ k : S72x72.Idx, wrapCol x6 i = Scalar.select (IntOp.cmpi .slt (x6 k) 0#32) (IntOp.addi (x6 k) 828#32) (x6 k) :=
  ⟨_, rfl⟩

/-- With every entry of the position table in [-828, 828), every row's index is in range. -/
theorem rowOk_eq_one (x6 : IVec S72x72 32) (hx : ∀ k : S72x72.Idx, (-828 : Int) ≤ (x6 k).toInt ∧ (x6 k).toInt < 828)
    (j : S5184.Idx) : rowOk x6 j = 1#1 := by
  unfold rowOk
  refine reduce_andi_ones _ _ _ _ rfl (fun i => ?_) j
  obtain ⟨k, hk⟩ := wrapCol_apply x6 i
  show IntOp.andi (IntOp.cmpi .sge (wrapCol x6 i) 0#32) (IntOp.cmpi .sle (wrapCol x6 i) 827#32) = 1#1
  rw [hk]
  exact wrap_in_range _ (hx k).1 (hx k).2

/-- With every entry of the position table in [-828, 828) the fill is never taken: the kernel's lookup is the
    reference's gather, of the same table at the same wrapped indices. -/
theorem taken_eq (x5 : FVec Ideal S828x60x12 .f32) (x6 : IVec S72x72 32)
    (hx : ∀ k : S72x72.Idx, (-828 : Int) ≤ (x6 k).toInt ∧ (x6 k).toInt < 828) :
    taken x5 x6 = Cert.ReferenceIdeal.Read.val_main_v22 (F := Ideal) x5 x6 := by
  funext y
  have hm : broadcastInDim S5184x60x12 ![0] bcast_S5184_S5184x60x12_0 (rowOk x6) y = 1#1 := rowOk_eq_one x6 hx _
  show Scalar.select (broadcastInDim S5184x60x12 ![0] bcast_S5184_S5184x60x12_0 (rowOk x6) y)
      (Host.gather gather_S828x60x12_S5184x1_S5184x60x12_12_0_n_n_0_1_16012 x5 (wrapCol x6) y) _ = _
  rw [hm, select_one]
  rfl

end HostSide

open HostSide

/-- The staged activations are the argument's. -/
theorem V_x_apply (c : Dev nD) (i : S16x60x72x384.Idx) :
    V m c main_v4 i = m ((c : Thread nD τ).loc main_arg0) i :=
  congrFun (V_x_eq m c) i

/-- The staged joint weights are the argument's, transposed. -/
theorem V_wqkv_apply (c : Dev nD) (cc : Fin 384) (o : Fin 1152) :
    V m c main_v6 (ix2 cc o) = m ((c : Thread nD τ).loc main_arg1) (ix2 o cc) := by
  refine (congrFun (V_wqkv_eq m c) (ix2 cc o)).trans ?_
  show transpose S384x1152 [1, 0] (m ((c : Thread nD τ).loc main_arg1)) transposes_S1152x384_S384x1152_1_0 (ix2 cc o) = _
  exact transpose_apply _ _ _ (ix2 cc o) (ix2 o cc) (fun b => match b with
    | ⟨0, _⟩ => rfl
    | ⟨1, _⟩ => rfl)

/-- The staged output weights are the argument's, transposed. -/
theorem V_wproj_apply (c : Dev nD) (cc o : Fin 384) :
    V m c main_v8 (ix2 cc o) = m ((c : Thread nD τ).loc main_arg3) (ix2 o cc) := by
  refine (congrFun (V_wproj_eq m c) (ix2 cc o)).trans ?_
  show transpose S384x384 [1, 0] (m ((c : Thread nD τ).loc main_arg3)) transposes_S384x384_S384x384_1_0 (ix2 cc o) = _
  exact transpose_apply _ _ _ (ix2 cc o) (ix2 o cc) (fun b => match b with
    | ⟨0, _⟩ => rfl
    | ⟨1, _⟩ => rfl)

/-- The staged joint bias is the argument's, as one row. -/
theorem V_bqkv_apply (c : Dev nD) (o : Fin 1152) :
    V m c main_v9 (ix2 (0 : Fin 1) o) = m ((c : Thread nD τ).loc main_arg2) (ix1 o) := by
  refine (congrFun (V_bqkv_eq m c) (ix2 (0 : Fin 1) o)).trans ?_
  exact shapeCast_apply _ _ (ix2 (0 : Fin 1) o) (ix1 o)
    (by rw [Shape.rowMajor_val_two, Shape.rowMajor_val_one]; show o.val = 0 * 1152 + o.val; omega)

/-- The staged output bias is the argument's, as one row. -/
theorem V_bproj_apply (c : Dev nD) (o : Fin 384) :
    V m c main_v10 (ix2 (0 : Fin 1) o) = m ((c : Thread nD τ).loc main_arg4) (ix1 o) := by
  refine (congrFun (V_bproj_eq m c) (ix2 (0 : Fin 1) o)).trans ?_
  exact shapeCast_apply _ _ (ix2 (0 : Fin 1) o) (ix1 o)
    (by rw [Shape.rowMajor_val_two, Shape.rowMajor_val_one]; show o.val = 0 * 384 + o.val; omega)

/-- Under the precondition the staged position bias holds the reference's gathered rows: entry
    `(window w, head h, token n, token k)` is row `72·n + k` of the gathered rows at `(w, h)`. -/
theorem V_bias_apply (hpre : Cert.Pre_KernelIdeal m) (c : Dev nD) (w : Fin 60) (h : Fin 12) (n k : Fin 72) :
    V m c main_v3 (ix4 w h n k)
      = Cert.ReferenceIdeal.Read.val_main_v22 (F := Ideal) (m ((c : Thread nD τ).loc main_arg5)) (m ((c : Thread nD τ).loc main_arg6))
          (ix3 (pairRow n k) w h) := by
  refine (congrFun (V_bias_eq m c) (ix4 w h n k)).trans ?_
  rw [taken_eq _ _ (pos_range m hpre c)]
  refine (transpose_apply _ _ _ (ix4 w h n k) (ix4 n k w h) (fun b => match b with
    | ⟨0, _⟩ => rfl
    | ⟨1, _⟩ => rfl
    | ⟨2, _⟩ => rfl
    | ⟨3, _⟩ => rfl)).trans ?_
  exact shapeCast_apply _ _ (ix4 n k w h) (ix3 (pairRow n k) w h)
    (by rw [Shape.rowMajor_val_three, Shape.rowMajor_val_four]
        show ((72 * n.val + k.val) * 60 + w.val) * 12 + h.val = ((n.val * 72 + k.val) * 60 + w.val) * 12 + h.val
        omega)

end Cert.Attn

end
-- ==== Proof.RefValue.lean ====
/-
  The reference's result, read at an entry, is the specification's operator on that entry's window.

  The reference computes the joint projection for every token, splits its 1152 columns into part, head and
  channel (column `384 t + 32 h + d`), forms the logits of each window and head from the scaled query against the
  key plus the gathered position bias, takes the softmax of each row (the maximum folded from the word of `-∞` and
  joined with it once more, the exponentials divided by their sum), contracts the probabilities with the values,
  lays the heads side by side (channel `c` is channel `c % 32` of head `c / 32`) and applies the output projection.
  Each stage is read below at an entry given by its coordinates; only the arrangement of the indices is at stake.
-/
import proofs.«407614_j76390288327291_3_alg».proof.Proof.Gen.ReferenceIdeal.Read
import proofs.«407614_j76390288327291_3_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.Attn

open Idealize.ShloMosaic Idealize.ShloMosaic.ValueIdx Cert.ReferenceIdeal Cert.ReferenceIdeal.Read

section
open Cert.ReferenceIdeal.Gen

variable (x0 : (⟨S16x60x72x384, .f32⟩ : BufTy).Contents (Elt Ideal)) (x1 : (⟨S1152x384, .f32⟩ : BufTy).Contents (Elt Ideal))
  (x2 : (⟨S1152, .f32⟩ : BufTy).Contents (Elt Ideal)) (x3 : (⟨S384x384, .f32⟩ : BufTy).Contents (Elt Ideal))
  (x4 : (⟨S384, .f32⟩ : BufTy).Contents (Elt Ideal)) (x5 : (⟨S828x60x12, .f32⟩ : BufTy).Contents (Elt Ideal))
  (x6 : (⟨S72x72, .i32⟩ : BufTy).Contents (Elt Ideal))

/-- The joint projection read at an entry. -/
theorem v3_at (b : Fin 16) (w : Fin 60) (n : Fin 72) (o : Fin 1152) :
    val_main_v3 (F := Ideal) x0 x1 x2 (ix4 b w n o)
      = qkv (fun n c => x0 (ix4 b w n c)) (fun o c => x1 (ix2 o c)) (fun o => x2 (ix1 o)) n o := by
  have el : ∀ k : Fin 384, lidx_main_v0 (ix4 b w n o) k = ix4 b w n k := fun k =>
    funext fun a => by match a with | ⟨0, _⟩ => rfl | ⟨1, _⟩ => rfl | ⟨2, _⟩ => rfl | ⟨3, _⟩ => rfl
  have er : ∀ k : Fin 384, ridx_main_v0 (ix4 b w n o) k = ix2 o k := fun k =>
    funext fun a => by match a with | ⟨0, _⟩ => rfl | ⟨1, _⟩ => rfl
  have eb : idx_main_v1 (idx_main_v2 (ix4 b w n o)) = ix1 o :=
    funext fun a => by match a with | ⟨0, _⟩ => rfl
  rw [val_main_v3_apply, val_main_v0_apply, val_main_v2_apply, val_main_v1_apply, eb]
  simp only [el, er, Ideal.addf_def]
  rfl

/-- The split of the 1152 columns into part, head and channel: column `384 t + 32 h + d`. -/
theorem v4_at (b : Fin 16) (w : Fin 60) (n : Fin 72) (t : Fin 3) (h : Fin 12) (d : Fin 32) :
    val_main_v4 (F := Ideal) x0 x1 x2 (ix6 b w n t h d) = val_main_v3 (F := Ideal) x0 x1 x2 (ix4 b w n (col t h d)) := by
  unfold val_main_v4
  generalize val_main_v3 (F := Ideal) x0 x1 x2 = y
  refine shapeCast_apply y shapeCasts_S16x60x72x1152_S16x60x72x3x12x32 (ix6 b w n t h d) (ix4 b w n (col t h d)) ?_
  rw [Shape.rowMajor_val_four, Shape.rowMajor_val_six]
  show ((b.val * 60 + w.val) * 72 + n.val) * 1152 + (384 * t.val + 32 * h.val + d.val)
    = ((((b.val * 60 + w.val) * 72 + n.val) * 3 + t.val) * 12 + h.val) * 32 + d.val
  ring

/-- The transposed split, read at an entry. -/
theorem v5_at (t : Fin 3) (b : Fin 16) (h : Fin 12) (w : Fin 60) (n : Fin 72) (d : Fin 32) :
    val_main_v5 (F := Ideal) x0 x1 x2 (ix6 t b h w n d) = val_main_v3 (F := Ideal) x0 x1 x2 (ix4 b w n (col t h d)) := by
  have e : idx_main_v5 (ix6 t b h w n d) = ix6 b w n t h d :=
    funext fun a => by
      match a with | ⟨0, _⟩ => rfl | ⟨1, _⟩ => rfl | ⟨2, _⟩ => rfl | ⟨3, _⟩ => rfl | ⟨4, _⟩ => rfl | ⟨5, _⟩ => rfl
  rw [val_main_v5_apply, e, v4_at]

/-- The query part: the first slice of the transposed split with its unit axis dropped. -/
theorem v7_at (b : Fin 16) (h : Fin 12) (w : Fin 60) (n : Fin 72) (d : Fin 32) :
    val_main_v7 (F := Ideal) x0 x1 x2 (ix5 b h w n d) = val_main_v3 (F := Ideal) x0 x1 x2 (ix4 b w n (col 0 h d)) := by
  have e : idx_main_v6 (ix6 (0 : Fin 1) b h w n d) = ix6 (0 : Fin 3) b h w n d :=
    funext fun a => by
      match a with | ⟨0, _⟩ => rfl | ⟨1, _⟩ => rfl | ⟨2, _⟩ => rfl | ⟨3, _⟩ => rfl | ⟨4, _⟩ => rfl | ⟨5, _⟩ => rfl
  have hc : val_main_v7 (F := Ideal) x0 x1 x2 (ix5 b h w n d) = val_main_v6 (F := Ideal) x0 x1 x2 (ix6 (0 : Fin 1) b h w n d) := by
    unfold val_main_v7
    generalize val_main_v6 (F := Ideal) x0 x1 x2 = y
    refine shapeCast_apply y shapeCasts_S1x16x12x60x72x32_S16x12x60x72x32 (ix5 b h w n d) (ix6 (0 : Fin 1) b h w n d) ?_
    rw [Shape.rowMajor_val_six, Shape.rowMajor_val_five]
    show (((((0 : Nat) * 16 + b.val) * 12 + h.val) * 60 + w.val) * 72 + n.val) * 32 + d.val
      = (((b.val * 12 + h.val) * 60 + w.val) * 72 + n.val) * 32 + d.val
    omega
  rw [hc, val_main_v6_apply, e, v5_at]

/-- The key part: the second slice. -/
theorem v9_at (b : Fin 16) (h : Fin 12) (w : Fin 60) (n : Fin 72) (d : Fin 32) :
    val_main_v9 (F := Ideal) x0 x1 x2 (ix5 b h w n d) = val_main_v3 (F := Ideal) x0 x1 x2 (ix4 b w n (col 1 h d)) := by
  have e : idx_main_v8 (ix6 (0 : Fin 1) b h w n d) = ix6 (1 : Fin 3) b h w n d :=
    funext fun a => by
      match a with | ⟨0, _⟩ => rfl | ⟨1, _⟩ => rfl | ⟨2, _⟩ => rfl | ⟨3, _⟩ => rfl | ⟨4, _⟩ => rfl | ⟨5, _⟩ => rfl
  have hc : val_main_v9 (F := Ideal) x0 x1 x2 (ix5 b h w n d) = val_main_v8 (F := Ideal) x0 x1 x2 (ix6 (0 : Fin 1) b h w n d) := by
    unfold val_main_v9
    generalize val_main_v8 (F := Ideal) x0 x1 x2 = y
    refine shapeCast_apply y shapeCasts_S1x16x12x60x72x32_S16x12x60x72x32 (ix5 b h w n d) (ix6 (0 : Fin 1) b h w n d) ?_
    rw [Shape.rowMajor_val_six, Shape.rowMajor_val_five]
    show (((((0 : Nat) * 16 + b.val) * 12 + h.val) * 60 + w.val) * 72 + n.val) * 32 + d.val
      = (((b.val * 12 + h.val) * 60 + w.val) * 72 + n.val) * 32 + d.val
    omega
  rw [hc, val_main_v8_apply, e, v5_at]

/-- The value part: the third slice. -/
theorem v11_at (b : Fin 16) (h : Fin 12) (w : Fin 60) (n : Fin 72) (d : Fin 32) :
    val_main_v11 (F := Ideal) x0 x1 x2 (ix5 b h w n d) = val_main_v3 (F := Ideal) x0 x1 x2 (ix4 b w n (col 2 h d)) := by
  have e : idx_main_v10 (ix6 (0 : Fin 1) b h w n d) = ix6 (2 : Fin 3) b h w n d :=
    funext fun a => by
      match a with | ⟨0, _⟩ => rfl | ⟨1, _⟩ => rfl | ⟨2, _⟩ => rfl | ⟨3, _⟩ => rfl | ⟨4, _⟩ => rfl | ⟨5, _⟩ => rfl
  have hc : val_main_v11 (F := Ideal) x0 x1 x2 (ix5 b h w n d) = val_main_v10 (F := Ideal) x0 x1 x2 (ix6 (0 : Fin 1) b h w n d) := by
    unfold val_main_v11
    generalize val_main_v10 (F := Ideal) x0 x1 x2 = y
    refine shapeCast_apply y shapeCasts_S1x16x12x60x72x32_S16x12x60x72x32 (ix5 b h w n d) (ix6 (0 : Fin 1) b h w n d) ?_
    rw [Shape.rowMajor_val_six, Shape.rowMajor_val_five]
    show (((((0 : Nat) * 16 + b.val) * 12 + h.val) * 60 + w.val) * 72 + n.val) * 32 + d.val
      = (((b.val * 12 + h.val) * 60 + w.val) * 72 + n.val) * 32 + d.val
    omega
  rw [hc, val_main_v10_apply, e, v5_at]

/-- The gathered bias rows, reshaped, transposed and broadcast over the batch, read at an entry. -/
theorem v26_at (b : Fin 16) (h : Fin 12) (w : Fin 60) (n m : Fin 72) :
    val_main_v26 (F := Ideal) x5 x6 (ix5 b h w n m) = val_main_v22 (F := Ideal) x5 x6 (ix3 (pairRow n m) w h) := by
  have e : idx_main_v23 (idx_main_v24 (idx_main_v25 (idx_main_v26 (ix5 b h w n m)))) = ix3 (pairRow n m) w h :=
    funext fun a => Fin.ext (by
      have hn := n.isLt; have hm := m.isLt; have hw := w.isLt; have hh := h.isLt
      match a with
      | ⟨0, _⟩ =>
        show (((n.val * 72 + m.val) * 60 + w.val) * 12 + h.val) / 720 = 72 * n.val + m.val
        omega
      | ⟨1, _⟩ =>
        show (((n.val * 72 + m.val) * 60 + w.val) * 12 + h.val) / 12 % 60 = w.val
        omega
      | ⟨2, _⟩ =>
        show (((n.val * 72 + m.val) * 60 + w.val) * 12 + h.val) % 12 = h.val
        omega)
  rw [val_main_v26_apply, val_main_v25_apply, val_main_v24_apply, val_main_v23_apply, e]

/-- The scaled query, read at an entry. -/
theorem v13_at (b : Fin 16) (h : Fin 12) (w : Fin 60) (n : Fin 72) (d : Fin 32) :
    val_main_v13 (F := Ideal) x0 x1 x2 (ix5 b h w n d)
      = qkv (fun n c => x0 (ix4 b w n c)) (fun o c => x1 (ix2 o c)) (fun o => x2 (ix1 o)) n (col 0 h d) * scale := by
  rw [val_main_v13_apply, val_main_v12_apply, val_main_cst_apply, v7_at, v3_at]
  rfl

/-- The logits: the scaled query against the key over a head's channels, plus the position bias. -/
theorem v27_at (b : Fin 16) (h : Fin 12) (w : Fin 60) (n m : Fin 72) :
    val_main_v27 (F := Ideal) x0 x1 x2 x5 x6 (ix5 b h w n m)
      = logits scale (fun n c => x0 (ix4 b w n c)) (fun o c => x1 (ix2 o c)) (fun o => x2 (ix1 o))
          (fun h n k => val_main_v22 (F := Ideal) x5 x6 (ix3 (pairRow n k) w h)) h n m := by
  have el : ∀ k : Fin 32, lidx_main_v14 (ix5 b h w n m) k = ix5 b h w n k := fun k =>
    funext fun a => by match a with | ⟨0, _⟩ => rfl | ⟨1, _⟩ => rfl | ⟨2, _⟩ => rfl | ⟨3, _⟩ => rfl | ⟨4, _⟩ => rfl
  have er : ∀ k : Fin 32, ridx_main_v14 (ix5 b h w n m) k = ix5 b h w m k := fun k =>
    funext fun a => by match a with | ⟨0, _⟩ => rfl | ⟨1, _⟩ => rfl | ⟨2, _⟩ => rfl | ⟨3, _⟩ => rfl | ⟨4, _⟩ => rfl
  rw [val_main_v27_apply, val_main_v14_apply, v26_at]
  simp only [el, er, v13_at, v9_at, v3_at, Ideal.addf_def]
  rfl

/-- The row's maximum as the reduce takes it: the fold of `max` from the initial word over the row. -/
theorem v28_at (b : Fin 16) (h : Fin 12) (w : Fin 60) (n : Fin 72) :
    val_main_v28 (F := Ideal) x0 x1 x2 x5 x6 (ix4 b h w n)
      = (Finset.univ : Finset (Fin 72)).fold max ninf (fun k => val_main_v27 (F := Ideal) x0 x1 x2 x5 x6 (ix5 b h w n k)) := by
  unfold val_main_v28
  generalize val_main_v27 (F := Ideal) x0 x1 x2 x5 x6 = y
  have hR : S16x12x60x72x72.Reduces [4] S16x12x60x72 := by decide
  refine (Host.reduce_eq_fold_single (FloatOps.maximumf (F := Ideal) (φ := .f32)) y (val_main_cst_1 (F := Ideal))
    reducesTo_S16x12x60x72x72_S16x12x60x72_d4 hR h_S_ (ix4 b h w n)).trans ?_
  refine Finset.fold_congr fun k _ => ?_
  exact congrArg y (funext fun a => Fin.ext (by
    match a with | ⟨0, _⟩ => rfl | ⟨1, _⟩ => rfl | ⟨2, _⟩ => rfl | ⟨3, _⟩ => rfl | ⟨4, _⟩ => rfl))

/-- The shift of a row: its maximum joined once more with the initial word. -/
theorem v30_at (b : Fin 16) (h : Fin 12) (w : Fin 60) (n : Fin 72) :
    val_main_v30 (F := Ideal) x0 x1 x2 x5 x6 (ix4 b h w n) = rowMax ninf (logits scale (fun n c => x0 (ix4 b w n c)) (fun o c => x1 (ix2 o c)) (fun o => x2 (ix1 o))
          (fun h n k => val_main_v22 (F := Ideal) x5 x6 (ix3 (pairRow n k) w h)) h n) := by
  rw [val_main_v30_apply, val_main_v29_apply, val_main_cst_2_apply, v28_at]
  simp only [v27_at]
  rfl

/-- The exponential of a shifted logit. -/
theorem v34_at (b : Fin 16) (h : Fin 12) (w : Fin 60) (n m : Fin 72) :
    val_main_v34 (F := Ideal) x0 x1 x2 x5 x6 (ix5 b h w n m)
      = Ideal.exp ((logits scale (fun n c => x0 (ix4 b w n c)) (fun o c => x1 (ix2 o c)) (fun o => x2 (ix1 o))
          (fun h n k => val_main_v22 (F := Ideal) x5 x6 (ix3 (pairRow n k) w h)) h n) m - rowMax ninf (logits scale (fun n c => x0 (ix4 b w n c)) (fun o c => x1 (ix2 o c)) (fun o => x2 (ix1 o))
          (fun h n k => val_main_v22 (F := Ideal) x5 x6 (ix3 (pairRow n k) w h)) h n)) := by
  have e : idx_main_v31 (idx_main_v32 (ix5 b h w n m)) = ix4 b h w n :=
    funext fun a => by match a with | ⟨0, _⟩ => rfl | ⟨1, _⟩ => rfl | ⟨2, _⟩ => rfl | ⟨3, _⟩ => rfl
  rw [val_main_v34_apply, val_main_v33_apply, val_main_v32_apply, val_main_v31_apply, e, v30_at, v27_at]
  rfl

/-- The row's sum of exponentials. -/
theorem v35_at (b : Fin 16) (h : Fin 12) (w : Fin 60) (n : Fin 72) :
    val_main_v35 (F := Ideal) x0 x1 x2 x5 x6 (ix4 b h w n)
      = ∑ k : Fin 72, Ideal.exp ((logits scale (fun n c => x0 (ix4 b w n c)) (fun o c => x1 (ix2 o c)) (fun o => x2 (ix1 o))
          (fun h n k => val_main_v22 (F := Ideal) x5 x6 (ix3 (pairRow n k) w h)) h n) k - rowMax ninf (logits scale (fun n c => x0 (ix4 b w n c)) (fun o c => x1 (ix2 o c)) (fun o => x2 (ix1 o))
          (fun h n k => val_main_v22 (F := Ideal) x5 x6 (ix3 (pairRow n k) w h)) h n)) := by
  have e : ∀ k : Fin 72, idx_main_v35 (ix4 b h w n) k = ix5 b h w n k := fun k =>
    funext fun a => by match a with | ⟨0, _⟩ => rfl | ⟨1, _⟩ => rfl | ⟨2, _⟩ => rfl | ⟨3, _⟩ => rfl | ⟨4, _⟩ => rfl
  rw [val_main_v35_apply, val_main_cst_3_apply]
  simp only [e, v34_at, Ideal.ofBits_def, Ideal.ofBits_zero_f32, zero_add]

/-- The softmax of a row of logits. -/
theorem v38_at (b : Fin 16) (h : Fin 12) (w : Fin 60) (n m : Fin 72) :
    val_main_v38 (F := Ideal) x0 x1 x2 x5 x6 (ix5 b h w n m) = softmaxRow ninf (logits scale (fun n c => x0 (ix4 b w n c)) (fun o c => x1 (ix2 o c)) (fun o => x2 (ix1 o))
          (fun h n k => val_main_v22 (F := Ideal) x5 x6 (ix3 (pairRow n k) w h)) h n) m := by
  have e : idx_main_v36 (idx_main_v37 (ix5 b h w n m)) = ix4 b h w n :=
    funext fun a => by match a with | ⟨0, _⟩ => rfl | ⟨1, _⟩ => rfl | ⟨2, _⟩ => rfl | ⟨3, _⟩ => rfl
  rw [val_main_v38_apply, val_main_v37_apply, val_main_v36_apply, e, v35_at, v34_at]
  rfl

/-- A head's context: the probabilities of a row against one channel of the values. -/
theorem v39_at (b : Fin 16) (h : Fin 12) (w : Fin 60) (n : Fin 72) (d : Fin 32) :
    val_main_v39 (F := Ideal) x0 x1 x2 x5 x6 (ix5 b h w n d)
      = headCtx scale ninf (fun n c => x0 (ix4 b w n c)) (fun o c => x1 (ix2 o c)) (fun o => x2 (ix1 o))
          (fun h n k => val_main_v22 (F := Ideal) x5 x6 (ix3 (pairRow n k) w h)) h n d := by
  have el : ∀ k : Fin 72, lidx_main_v39 (ix5 b h w n d) k = ix5 b h w n k := fun k =>
    funext fun a => by match a with | ⟨0, _⟩ => rfl | ⟨1, _⟩ => rfl | ⟨2, _⟩ => rfl | ⟨3, _⟩ => rfl | ⟨4, _⟩ => rfl
  have er : ∀ k : Fin 72, ridx_main_v39 (ix5 b h w n d) k = ix5 b h w k d := fun k =>
    funext fun a => by match a with | ⟨0, _⟩ => rfl | ⟨1, _⟩ => rfl | ⟨2, _⟩ => rfl | ⟨3, _⟩ => rfl | ⟨4, _⟩ => rfl
  rw [val_main_v39_apply]
  simp only [el, er, v38_at, v11_at, v3_at]
  rfl

/-- The contexts with the heads side by side: channel `c` is channel `c % 32` of head `c / 32`. -/
theorem v41_at (b : Fin 16) (w : Fin 60) (n : Fin 72) (c : Fin 384) :
    val_main_v41 (F := Ideal) x0 x1 x2 x5 x6 (ix4 b w n c)
      = ctx scale ninf (fun n c => x0 (ix4 b w n c)) (fun o c => x1 (ix2 o c)) (fun o => x2 (ix1 o))
          (fun h n k => val_main_v22 (F := Ideal) x5 x6 (ix3 (pairRow n k) w h)) n c := by
  have e : idx_main_v40 (idx_main_v41 (ix4 b w n c)) = ix5 b (headOf c) w n (chanOf c) :=
    funext fun a => Fin.ext (by
      have hb := b.isLt; have hw := w.isLt; have hn := n.isLt; have hc := c.isLt
      match a with
      | ⟨0, _⟩ =>
        show (((b.val * 60 + w.val) * 72 + n.val) * 384 + c.val) / 1658880 = b.val
        omega
      | ⟨1, _⟩ =>
        show (((b.val * 60 + w.val) * 72 + n.val) * 384 + c.val) / 32 % 12 = c.val / 32
        omega
      | ⟨2, _⟩ =>
        show (((b.val * 60 + w.val) * 72 + n.val) * 384 + c.val) / 27648 % 60 = w.val
        omega
      | ⟨3, _⟩ =>
        show (((b.val * 60 + w.val) * 72 + n.val) * 384 + c.val) / 384 % 72 = n.val
        omega
      | ⟨4, _⟩ =>
        show (((b.val * 60 + w.val) * 72 + n.val) * 384 + c.val) % 32 = c.val % 32
        omega)
  rw [val_main_v41_apply, val_main_v40_apply, e, v39_at]
  rfl

/-- The reference's result at an entry is the operator on that entry's window. -/
theorem v45_at (b : Fin 16) (w : Fin 60) (n : Fin 72) (o : Fin 384) :
    val_main_v45 (F := Ideal) x0 x1 x2 x3 x4 x5 x6 (ix4 b w n o)
      = winOut scale ninf (fun n c => x0 (ix4 b w n c)) (fun o c => x1 (ix2 o c)) (fun o => x2 (ix1 o))
          (fun o c => x3 (ix2 o c)) (fun o => x4 (ix1 o))
          (fun h n k => val_main_v22 (F := Ideal) x5 x6 (ix3 (pairRow n k) w h)) n o := by
  have el : ∀ k : Fin 384, lidx_main_v42 (ix4 b w n o) k = ix4 b w n k := fun k =>
    funext fun a => by match a with | ⟨0, _⟩ => rfl | ⟨1, _⟩ => rfl | ⟨2, _⟩ => rfl | ⟨3, _⟩ => rfl
  have er : ∀ k : Fin 384, ridx_main_v42 (ix4 b w n o) k = ix2 o k := fun k =>
    funext fun a => by match a with | ⟨0, _⟩ => rfl | ⟨1, _⟩ => rfl
  have eb : idx_main_v43 (idx_main_v44 (ix4 b w n o)) = ix1 o :=
    funext fun a => by match a with | ⟨0, _⟩ => rfl
  rw [val_main_v45_apply, val_main_v42_apply, val_main_v44_apply, val_main_v43_apply, eb]
  simp only [el, er, v41_at, Ideal.addf_def]
  rfl

end

theorem ref_apply (x0 : (⟨S16x60x72x384, .f32⟩ : BufTy).Contents (Elt Ideal)) (x1 : (⟨S1152x384, .f32⟩ : BufTy).Contents (Elt Ideal))
    (x2 : (⟨S1152, .f32⟩ : BufTy).Contents (Elt Ideal)) (x3 : (⟨S384x384, .f32⟩ : BufTy).Contents (Elt Ideal))
    (x4 : (⟨S384, .f32⟩ : BufTy).Contents (Elt Ideal)) (x5 : (⟨S828x60x12, .f32⟩ : BufTy).Contents (Elt Ideal))
    (x6 : (⟨S72x72, .i32⟩ : BufTy).Contents (Elt Ideal)) (b : Fin 16) (w : Fin 60) (n : Fin 72) (o : Fin 384) :
    val_main_v45 (F := Ideal) x0 x1 x2 x3 x4 x5 x6 (ix4 b w n o)
      = winOut scale ninf (fun n c => x0 (ix4 b w n c)) (fun o c => x1 (ix2 o c)) (fun o => x2 (ix1 o))
          (fun o c => x3 (ix2 o c)) (fun o => x4 (ix1 o))
          (fun h n k => val_main_v22 (F := Ideal) x5 x6 (ix3 (pairRow n k) w h)) n o :=
  v45_at x0 x1 x2 x3 x4 x5 x6 b w n o

end Cert.Attn

end
-- ==== Proof.Bridge.lean ====
/-
  The two results are one function. The kernel's result array is the specification's operator over the arrays its
  launch finds staged (`stagedOut`); those staged arrays are the arguments (the weights transposed, the biases as
  one-row matrices, the position bias the gathered rows re-laid), and under the precondition the gathered rows are the
  reference's own. The reference's result, read at an entry, is the same operator over the arguments. So from memories
  that agree on the arguments the two programs' results agree, entry by entry.
-/
import proofs.«407614_j76390288327291_3_alg».proof.Proof.Final
import proofs.«407614_j76390288327291_3_alg».proof.Proof.HostSide
import proofs.«407614_j76390288327291_3_alg».proof.Proof.RefValue

noncomputable section

namespace Cert.Attn

open Idealize.ShloMosaic Idealize.ShloMosaic.ValueIdx Idealize.ShloMosaic.TcCoe Idealize.SL.Sem

/-- The operator depends on its six arrays only through their entries. -/
theorem winOut_congr (s ninf : EReal) {Xw Xw' : Fin 72 → Fin 384 → EReal} {Wq Wq' : Fin 1152 → Fin 384 → EReal} {bq bq' : Fin 1152 → EReal}
    {Wp Wp' : Fin 384 → Fin 384 → EReal} {bp bp' : Fin 384 → EReal} {Bw Bw' : Fin 12 → Fin 72 → Fin 72 → EReal}
    (hX : ∀ n c, Xw n c = Xw' n c) (hWq : ∀ o c, Wq o c = Wq' o c) (hbq : ∀ o, bq o = bq' o)
    (hWp : ∀ o c, Wp o c = Wp' o c) (hbp : ∀ o, bp o = bp' o) (hB : ∀ h n k, Bw h n k = Bw' h n k) (n : Fin 72) (o : Fin 384) :
    winOut s ninf Xw Wq bq Wp bp Bw n o = winOut s ninf Xw' Wq' bq' Wp' bp' Bw' n o := by
  obtain rfl : Xw = Xw' := funext fun n => funext fun c => hX n c
  obtain rfl : Wq = Wq' := funext fun o => funext fun c => hWq o c
  obtain rfl : bq = bq' := funext hbq
  obtain rfl : Wp = Wp' := funext fun o => funext fun c => hWp o c
  obtain rfl : bp = bp' := funext hbp
  obtain rfl : Bw = Bw' := funext fun h => funext fun n => funext fun k => hB h n k
  rfl

/-- The reference's result from `m'` is the kernel's result array from `m`, when `m'` agrees with `m` on the seven
    arguments and `m` meets the precondition (used once: for the position bias). -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v45 m' c = stagedOut m c := by
  rw [Cert.ReferenceIdeal.Read.val_main_v45_eq, h0, h1, h2, h3, h4, h5, h6]
  funext y
  obtain ⟨b, w, n, o, rfl⟩ : ∃ (b : Fin 16) (w : Fin 60) (n : Fin 72) (o : Fin 384), y = ix4 b w n o :=
    ⟨y 0, y 1, y 2, y 3, eq_ix4 y⟩
  rw [ref_apply]
  unfold stagedOut
  exact winOut_congr scale ninf (fun n' cc => (V_x_apply m c _).symm) (fun o' cc => (V_wqkv_apply m c cc o').symm)
    (fun o' => (V_bqkv_apply m c o').symm) (fun o' cc => (V_wproj_apply m c cc o').symm) (fun o' => (V_bproj_apply m c o').symm)
    (fun h n' k => (V_bias_apply m hpre c w h n' k).symm) n o

end Cert.Attn

end
-- ==== Proof.lean ====
/- The equivalence of a fused attention kernel with its reference, over the extended reals.

   The operator is windowed multi-head attention with a gathered position bias: on each window of 72 tokens, a joint
   query / key / value projection, twelve heads of `softmax((q · s) kᵀ + bias) v`, and an output projection
   (Proof/Spec.lean states it entry by entry). The kernel's one launch walks a 6 × 8 grid of blocks of 2 × 10 windows;
   its body is read as one function of its input blocks (Proof/Body.lean: the joint projection stored in a scratch and
   loaded back by columns, each head the one head function of its own columns, the heads' contexts side by side in a
   second scratch), the blocks tile the result array (Proof/Final.lean), and the arrays the launch finds staged are the
   arguments re-laid (Proof/HostSide.lean). The reference's result, read at an entry, is the same operator
   (Proof/RefValue.lean). Both programs perform the same exact operations on each window, so no law beyond the
   arrangement of indices is needed, and finiteness of the float inputs is never used.
   The precondition is used once: the kernel's gather of the bias table fills a row with a NaN word when its index,
   wrapped from the end when negative, is out of range, where the reference's indexing does not; with every entry of
   the position index a valid index of the table's leading axis (-828 ≤ index < 828) the fill is never taken.
   The three frames are the generated ones; the kernel's idealization rewrote nothing, so `preserves` is trivial. -/
import proofs.«407614_j76390288327291_3_alg».proof.Defs
import proofs.«407614_j76390288327291_3_alg».proof.Proof.Gen.Kernel
import proofs.«407614_j76390288327291_3_alg».proof.Proof.Gen.Kernel.Skeleton
import proofs.«407614_j76390288327291_3_alg».proof.Proof.Gen.Kernel.Launch
import proofs.«407614_j76390288327291_3_alg».proof.Proof.Gen.Kernel.Points
import proofs.«407614_j76390288327291_3_alg».proof.Proof.Gen.Kernel.Frame
import proofs.«407614_j76390288327291_3_alg».proof.Proof.Gen.KernelIdeal
import proofs.«407614_j76390288327291_3_alg».proof.Proof.Gen.KernelIdeal.Skeleton
import proofs.«407614_j76390288327291_3_alg».proof.Proof.Gen.KernelIdeal.Launch
import proofs.«407614_j76390288327291_3_alg».proof.Proof.Gen.KernelIdeal.Points
import proofs.«407614_j76390288327291_3_alg».proof.Proof.Gen.KernelIdeal.Frame
import proofs.«407614_j76390288327291_3_alg».proof.Proof.Gen.ReferenceIdeal
import proofs.«407614_j76390288327291_3_alg».proof.Proof.Gen.Pre_finite_inputs
import proofs.«407614_j76390288327291_3_alg».proof.Proof.Gen.KernelIdeal.Value
import proofs.«407614_j76390288327291_3_alg».proof.Proof.Gen.ReferenceIdeal.Run
import proofs.«407614_j76390288327291_3_alg».proof.Proof.Gen.ReferenceIdeal.Read
import proofs.«407614_j76390288327291_3_alg».proof.Proof.Bridge
import Idealize.ShloMosaic.Adequacy
import Idealize.ShloMosaic.Init

noncomputable section

namespace Cert.Proof

open Idealize.ShloMosaic Idealize.SL.Sem Cert.Kernel

/-- The word-level kernel runs and leaves its arguments unchanged (the generated frame). -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged (the generated frame). -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its generated run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the specification's operator of the
    arguments in their result: the kernel's array by its blocks (`Cert.Attn.final`), the reference's by `Cert.Attn.result_eq`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Attn.stagedOut m c, ?_, ?_⟩
  · exact (θ_run Cert.KernelIdeal.defs _ _).mono
      (fun r h c => ⟨(h c).1.trans (Cert.Attn.final m c), (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    exact Cert.Attn.result_eq m m' hpre c h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
